-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  IdealRules.truncf_extf.Statement Cert.KernelIdeal.S2000x128 .f32 .bf16
  ∧ IdealRules.truncf_extf.Statement Cert.KernelIdeal.S2000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S100000 : Shape := ⟨1, ![100000]⟩
abbrev S_ : Shape := ⟨0, ![]⟩
abbrev S128x128 : Shape := ⟨2, ![128, 128]⟩
abbrev S128 : Shape := ⟨1, ![128]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S100000 : S_.BroadcastsInDim S100000 (![] : Fin 0 → Fin S100000.rank)
  reducesTo_S100000_S_d0 : S100000.ReducesTo [0] S_

variable [Facts]

def fn_part5 {F : FTy → Type} [FloatOps F] (main_v81 : IVec S_ 1) (main_v83 : IVec S100000 1) (main_c_33 : IVec S_ 1) : IVec S_ 1 :=
  let main_v84 : IVec S_ 1 := (fun x v => Host.reduce IntOp.andi x v reducesTo_S100000_S_d0 h_S_) main_v83 main_c_33
  let main_v85 : IVec S_ 1 := andi main_v81 main_v84
  main_v85

def fn_part4 {F : FTy → Type} [FloatOps F] (main_arg3 : IVec S100000 32) (main_arg16 : FVec F S128 .f32) (main_arg17 : FVec F S128 .f32) (main_v67 : IVec S_ 1) : IVec S_ 1 :=
  let main_v68 : FVec F S128 .f32 := Host.absf main_arg16
  let main_cst_26 : FVec F S_ .f32 := constant S_ .f32 0x7F800000#32
  let main_v69 : FVec F S128 .f32 := broadcastInDim S128 ![] bcast_S_S128 main_cst_26
  let main_v70 : IVec S128 1 := cmpf .olt main_v68 main_v69
  let main_c_27 : IVec S_ 1 := constantI S_ 1 1#1
  let main_v71 : IVec S_ 1 := (fun x v => Host.reduce IntOp.andi x v reducesTo_S128_S_d0 h_S_) main_v70 main_c_27
  let main_v72 : IVec S_ 1 := andi main_v67 main_v71
  let main_v73 : FVec F S128 .f32 := Host.absf main_arg17
  let main_cst_28 : FVec F S_ .f32 := constant S_ .f32 0x7F800000#32
  let main_v74 : FVec F S128 .f32 := broadcastInDim S128 ![] bcast_S_S128 main_cst_28
  let main_v75 : IVec S128 1 := cmpf .olt main_v73 main_v74
  let main_c_29 : IVec S_ 1 := constantI S_ 1 1#1
  let main_v76 : IVec S_ 1 := (fun x v => Host.reduce IntOp.andi x v reducesTo_S128_S_d0 h_S_) main_v75 main_c_29
  let main_v77 : IVec S_ 1 := andi main_v72 main_v76
  let main_c_30 : IVec S_ 32 := constantI S_ 32 0#32
  let main_v78 : IVec S100000 32 := broadcastInDim S100000 ![] bcast_S_S100000 main_c_30
  let main_v79 : IVec S100000 1 := cmpi .sge main_arg3 main_v78
  let main_c_31 : IVec S_ 1 := constantI S_ 1 1#1
  let main_v80 : IVec S_ 1 := (fun x v => Host.reduce IntOp.andi x v reducesTo_S100000_S_d0 h_S_) main_v79 main_c_31
  let main_v81 : IVec S_ 1 := andi main_v77 main_v80
  let main_c_32 : IVec S_ 32 := constantI S_ 32 128#32
  let main_v82 : IVec S100000 32 := broadcastInDim S100000 ![] bcast_S_S100000 main_c_32
  let main_v83 : IVec S100000 1 := cmpi .slt main_arg3 main_v82
  let main_c_33 : IVec S_ 1 := constantI S_ 1 1#1
  fn_part5 (F := F) main_v81 main_v83 main_c_33

def fn_part3 {F : FTy → Type} [FloatOps F] (main_arg3 : IVec S100000 32) (main_arg13 : FVec F S128x128 .f32) (main_arg14 : FVec F S128 .f32) (main_arg15 : FVec F S128 .f32) (main_arg16 : FVec F S128 .f32) (main_arg17 : FVec F S128 .f32) (main_v47 : IVec S_ 1) (main_v50 : IVec S128 1) : IVec S_ 1 :=
  let main_c_19 : IVec S_ 1 := constantI S_ 1 1#1
  let main_v51 : IVec S_ 1 := (fun x v => Host.reduce IntOp.andi x v reducesTo_S128_S_d0 h_S_) main_v50 main_c_19
  let main_v52 : IVec S_ 1 := andi main_v47 main_v51
  let main_v53 : FVec F S128x128 .f32 := Host.absf main_arg13
  let main_cst_20 : FVec F S_ .f32 := constant S_ .f32 0x7F800000#32
  let main_v54 : FVec F S128x128 .f32 := broadcastInDim S128x128 ![] bcast_S_S128x128 main_cst_20
  let main_v55 : IVec S128x128 1 := cmpf .olt main_v53 main_v54
  let main_c_21 : IVec S_ 1 := constantI S_ 1 1#1
  let main_v56 : IVec S_ 1 := (fun x v => Host.reduce IntOp.andi x v reducesTo_S128x128_S_d0_1 h_S_) main_v55 main_c_21
  let main_v57 : IVec S_ 1 := andi main_v52 main_v56
  let main_v58 : FVec F S128 .f32 := Host.absf main_arg14
  let main_cst_22 : FVec F S_ .f32 := constant S_ .f32 0x7F800000#32
  let main_v59 : FVec F S128 .f32 := broadcastInDim S128 ![] bcast_S_S128 main_cst_22
  let main_v60 : IVec S128 1 := cmpf .olt main_v58 main_v59
  let main_c_23 : IVec S_ 1 := constantI S_ 1 1#1
  let main_v61 : IVec S_ 1 := (fun x v => Host.reduce IntOp.andi x v reducesTo_S128_S_d0 h_S_) main_v60 main_c_23
  let main_v62 : IVec S_ 1 := andi main_v57 main_v61
  let main_v63 : FVec F S128 .f32 := Host.absf main_arg15
  let main_cst_24 : FVec F S_ .f32 := constant S_ .f32 0x7F800000#32
  let main_v64 : FVec F S128 .f32 := broadcastInDim S128 ![] bcast_S_S128 main_cst_24
  let main_v65 : IVec S128 1 := cmpf .olt main_v63 main_v64
  let main_c_25 : IVec S_ 1 := constantI S_ 1 1#1
  let main_v66 : IVec S_ 1 := (fun x v => Host.reduce IntOp.andi x v reducesTo_S128_S_d0 h_S_) main_v65 main_c_25
  let main_v67 : IVec S_ 1 := andi main_v62 main_v66
  fn_part4 (F := F) main_arg3 main_arg16 main_arg17 main_v67

def fn_part2 {F : FTy → Type} [FloatOps F] (main_arg3 : IVec S100000 32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_v32 : IVec S_ 1) (main_v33 : FVec F S128x128 .f32) : IVec S_ 1 :=
  let main_cst_12 : FVec F S_ .f32 := constant S_ .f32 0x7F800000#32
  let main_v34 : FVec F S128x128 .f32 := broadcastInDim S128x128 ![] bcast_S_S128x128 main_cst_12
  let main_v35 : IVec S128x128 1 := cmpf .olt main_v33 main_v34
  let main_c_13 : IVec S_ 1 := constantI S_ 1 1#1
  let main_v36 : IVec S_ 1 := (fun x v => Host.reduce IntOp.andi x v reducesTo_S128x128_S_d0_1 h_S_) main_v35 main_c_13
  let main_v37 : IVec S_ 1 := andi main_v32 main_v36
  let main_v38 : FVec F S128 .f32 := Host.absf main_arg10
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := Host.absf main_arg11
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S128 .f32 := Host.absf main_arg12
  let main_cst_18 : FVec F S_ .f32 := constant S_ .f32 0x7F800000#32
  let main_v49 : FVec F S128 .f32 := broadcastInDim S128 ![] bcast_S_S128 main_cst_18
  let main_v50 : IVec S128 1 := cmpf .olt main_v48 main_v49
  fn_part3 (F := F) main_arg3 main_arg13 main_arg14 main_arg15 main_arg16 main_arg17 main_v47 main_v50

def fn_part1 {F : FTy → Type} [FloatOps F] (main_arg3 : IVec S100000 32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_v12 : IVec S_ 1) (main_v15 : IVec S128x128 1) (main_c_5 : IVec S_ 1) : IVec S_ 1 :=
  let main_v16 : IVec S_ 1 := (fun x v => Host.reduce IntOp.andi x v reducesTo_S128x128_S_d0_1 h_S_) main_v15 main_c_5
  let main_v17 : IVec S_ 1 := andi main_v12 main_v16
  let main_v18 : FVec F S128 .f32 := Host.absf main_arg6
  let main_cst_6 : FVec F S_ .f32 := constant S_ .f32 0x7F800000#32
  let main_v19 : FVec F S128 .f32 := broadcastInDim S128 ![] bcast_S_S128 main_cst_6
  let main_v20 : IVec S128 1 := cmpf .olt main_v18 main_v19
  let main_c_7 : IVec S_ 1 := constantI S_ 1 1#1
  let main_v21 : IVec S_ 1 := (fun x v => Host.reduce IntOp.andi x v reducesTo_S128_S_d0 h_S_) main_v20 main_c_7
  let main_v22 : IVec S_ 1 := andi main_v17 main_v21
  let main_v23 : FVec F S128 .f32 := Host.absf main_arg7
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S128 .f32 := Host.absf main_arg8
  let main_cst_10 : FVec F S_ .f32 := constant S_ .f32 0x7F800000#32
  let main_v29 : FVec F S128 .f32 := broadcastInDim S128 ![] bcast_S_S128 main_cst_10
  let main_v30 : IVec S128 1 := cmpf .olt main_v28 main_v29
  let main_c_11 : IVec S_ 1 := constantI S_ 1 1#1
  let main_v31 : IVec S_ 1 := (fun x v => Host.reduce IntOp.andi x v reducesTo_S128_S_d0 h_S_) main_v30 main_c_11
  let main_v32 : IVec S_ 1 := andi main_v27 main_v31
  let main_v33 : FVec F S128x128 .f32 := Host.absf main_arg9
  fn_part2 (F := F) main_arg3 main_arg10 main_arg11 main_arg12 main_arg13 main_arg14 main_arg15 main_arg16 main_arg17 main_v32 main_v33

def fn {F : FTy → Type} [FloatOps F] (main_arg0 : FVec F S100000x128 .f32) (main_arg1 : IVec S2x1600000 32) (main_arg2 : FVec F S1600000x1 .f32) (main_arg3 : IVec S100000 32) (main_arg4 : FVec F S_ .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S_ .f32 := Host.absf main_arg4
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S128x128 .f32 := Host.absf main_arg5
  let main_cst_4 : FVec F S_ .f32 := constant S_ .f32 0x7F800000#32
  let main_v14 : FVec F S128x128 .f32 := broadcastInDim S128x128 ![] bcast_S_S128x128 main_cst_4
  let main_v15 : IVec S128x128 1 := cmpf .olt main_v13 main_v14
  let main_c_5 : IVec S_ 1 := constantI S_ 1 1#1
  fn_part1 (F := F) main_arg3 main_arg6 main_arg7 main_arg8 main_arg9 main_arg10 main_arg11 main_arg12 main_arg13 main_arg14 main_arg15 main_arg16 main_arg17 main_v12 main_v15 main_c_5
-- ==== Kernel.lean ====
abbrev S100000x128 : Shape := ⟨2, ![100000, 128]⟩
abbrev S2x1600000 : Shape := ⟨2, ![2, 1600000]⟩
abbrev S1600000x1 : Shape := ⟨2, ![1600000, 1]⟩
abbrev S100000 : Shape := ⟨1, ![100000]⟩
abbrev S_ : Shape := ⟨0, ![]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1600000x128 : Shape := ⟨2, ![1600000, 128]⟩
abbrev S100000x1 : Shape := ⟨2, ![100000, 1]⟩
abbrev S128x1 : Shape := ⟨2, ![128, 1]⟩
abbrev S1x128 : Shape := ⟨2, ![1, 128]⟩
abbrev S1x1 : Shape := ⟨2, ![1, 1]⟩
abbrev S2x128x128 : Shape := ⟨3, ![2, 128, 128]⟩
abbrev S2000x128 : Shape := ⟨2, ![2000, 128]⟩
abbrev S1x128x128 : Shape := ⟨3, ![1, 128, 128]⟩
abbrev S2000 : Shape := ⟨1, ![2000]⟩
abbrev S2000x1 : Shape := ⟨2, ![2000, 1]⟩

abbrev nBuf : Space → Nat
  | .hbm => 92
  | .vmem => 41
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x1, .f32⟩
  | .hbm, ⟨3, _⟩ => ⟨S100000, .i32⟩
  | .hbm, ⟨4, _⟩ => ⟨S_, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S100000, .f32⟩
  | .hbm, ⟨37, _⟩ => ⟨S_, .f32⟩
  | .hbm, ⟨38, _⟩ => ⟨S128, .f32⟩
  | .hbm, ⟨39, _⟩ => ⟨S100000x1, .i32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S128x1, .f32⟩
  | .hbm, ⟨45, _⟩ => ⟨S1x128, .i32⟩
  | .hbm, ⟨46, _⟩ => ⟨S100000x1, .i32⟩
  | .hbm, ⟨47, _⟩ => ⟨S100000x128, .i32⟩
  | .hbm, ⟨48, _⟩ => ⟨S100000x128, .i32⟩
  | .hbm, ⟨49, _⟩ => ⟨S100000x128, .i1⟩
  | .hbm, ⟨50, _⟩ => ⟨S100000x128, .bf16⟩
  | .hbm, ⟨51, _⟩ => ⟨S_, .f32⟩
  | .hbm, ⟨52, _⟩ => ⟨S_, .f32⟩
  | .hbm, ⟨53, _⟩ => ⟨S1x1, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S100000x128, .f32⟩
  | .hbm, ⟨62, _⟩ => ⟨S2x128x128, .f32⟩
  | .hbm, ⟨63, _⟩ => ⟨S1x128x128, .f32⟩
  | .hbm, ⟨64, _⟩ => ⟨S128x128, .f32⟩
  | .hbm, ⟨65, _⟩ => ⟨S1x128x128, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S128x128, .f32⟩
  | .hbm, ⟨72, _⟩ => ⟨S128x128, .f32⟩
  | .hbm, ⟨73, _⟩ => ⟨S128x128, .bf16⟩
  | .hbm, ⟨74, _⟩ => ⟨S128x128, .f32⟩
  | .hbm, ⟨75, _⟩ => ⟨S128x128, .f32⟩
  | .hbm, ⟨76, _⟩ => ⟨S128x128, .bf16⟩
  | .hbm, ⟨77, _⟩ => ⟨S2x128x128, .f32⟩
  | .hbm, ⟨78, _⟩ => ⟨S1x128x128, .f32⟩
  | .hbm, ⟨79, _⟩ => ⟨S128x128, .f32⟩
  | .hbm, ⟨80, _⟩ => ⟨S1x128x128, .f32⟩
  | .hbm, ⟨81, _⟩ => ⟨S128x128, .f32⟩
  | .hbm, ⟨82, _⟩ => ⟨S128x128, .f32⟩
  | .hbm, ⟨83, _⟩ => ⟨S128x128, .f32⟩
  | .hbm, ⟨84, _⟩ => ⟨S128x128, .f32⟩
  | .hbm, ⟨85, _⟩ => ⟨S128x128, .bf16⟩
  | .hbm, ⟨86, _⟩ => ⟨S128x128, .f32⟩
  | .hbm, ⟨87, _⟩ => ⟨S128x128, .f32⟩
  | .hbm, ⟨88, _⟩ => ⟨S128x128, .bf16⟩
  | .hbm, ⟨89, _⟩ => ⟨S1x128, .f32⟩
  | .hbm, ⟨90, _⟩ => ⟨S1x128, .f32⟩
  | .hbm, ⟨91, _⟩ => ⟨S100000x128, .f32⟩
  | .local _ .vmem, ⟨0, _⟩ => ⟨S1x1, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .bf16⟩
  | .local _ .vmem, ⟨6, _⟩ => ⟨S2000x128, .bf16⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S2000x128, .f32⟩
  | .local _ .vmem, ⟨18, _⟩ => ⟨S2000x128, .f32⟩
  | .local _ .vmem, ⟨19, _⟩ => ⟨S1x128x128, .f32⟩
  | .local _ .vmem, ⟨20, _⟩ => ⟨S1x128x128, .f32⟩
  | .local _ .vmem, ⟨21, _⟩ => ⟨S2000x128, .f32⟩
  | .local _ .vmem, ⟨22, _⟩ => ⟨S2000x128, .f32⟩
  | .local _ .vmem, ⟨23, _⟩ => ⟨S2000x128, .bf16⟩
  | .local _ .vmem, ⟨24, _⟩ => ⟨S2000x128, .bf16⟩
  | .local _ .vmem, ⟨25, _⟩ => ⟨S128x128, .bf16⟩
  | .local _ .vmem, ⟨26, _⟩ => ⟨S128x128, .bf16⟩
  | .local _ .vmem, ⟨27, _⟩ => ⟨S1x128x128, .f32⟩
  | .local _ .vmem, ⟨28, _⟩ => ⟨S1x128x128, .f32⟩
  | .local _ .vmem, ⟨29, _⟩ => ⟨S2000x128, .f32⟩
  | .local _ .vmem, ⟨30, _⟩ => ⟨S2000x128, .f32⟩
  | .local _ .vmem, ⟨31, _⟩ => ⟨S2000x128, .bf16⟩
  | .local _ .vmem, ⟨32, _⟩ => ⟨S2000x128, .bf16⟩
  | .local _ .vmem, ⟨33, _⟩ => ⟨S128x128, .bf16⟩
  | .local _ .vmem, ⟨34, _⟩ => ⟨S128x128, .bf16⟩
  | .local _ .vmem, ⟨35, _⟩ => ⟨S128x128, .bf16⟩
  | .local _ .vmem, ⟨36, _⟩ => ⟨S128x128, .bf16⟩
  | .local _ .vmem, ⟨37, _⟩ => ⟨S1x128, .f32⟩
  | .local _ .vmem, ⟨38, _⟩ => ⟨S1x128, .f32⟩
  | .local _ .vmem, ⟨39, _⟩ => ⟨S2000x128, .f32⟩
  | .local _ .vmem, ⟨40, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36_0 : Ref sig .tc := ⟨.hbm, 61, rfl⟩
abbrev main_v36_1 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg4_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg8_1 : Ref sig .tc := ⟨.vmem, 40, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem4_1 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem8_0 : DmaSem sig := 39
abbrev cc2_sem8_1 : DmaSem sig := 40

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S_S128 : S_.BroadcastsInDim S128 (![] : Fin 0 → Fin S128.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  shapeCasts_S_S1x1 : S_.ShapeCasts S1x1
  shapeCasts_S128_S1x128 : S128.ShapeCasts S1x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  slices_S2x128x128_S1x128x128_0_0_0 : S2x128x128.Slices ![0, 0, 0] S1x128x128
  slices_S2x128x128_S1x128x128_1_0_0 : S2x128x128.Slices ![1, 0, 0] S1x128x128
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  shapeCasts_S128x128_S128x128 : S128x128.ShapeCasts S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S128_S100000x1_S100000_n_0_0_1_wf : ScatterDims.WF S128 S100000x1 S100000 [] [0] [0] 1
  dot_S2000x128_S128x128_S2000x128_1_0_0_1_n_n_wf : DotDims.WF S2000x128 S128x128 S2000x128 [1] [0] [0] [1] [] []
  dot_S2000x128_S2000x128_S128x128_0_0_1_1_n_n_wf : DotDims.WF S2000x128 S2000x128 S128x128 [0] [0] [1] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .bf16 = 32 ∨ (Rect.block (s := S100000x128) S2000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S100000x128.size a
  hwx0_14 : ∀ i : grid0.Coords, EltTy.bits .f32 = 32 ∨ (Rect.block (s := S100000x128) S2000x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128x128.size a ≤ S2x128x128.size a
  hwx0_15 : ∀ i : grid0.Coords, EltTy.bits .f32 = 32 ∨ (Rect.block (s := S2x128x128) S1x128x128.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .bf16 = 32 ∨ (Rect.block (s := S100000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x128.size a ≤ S2x128x128.size a
  hwx1_4 : ∀ i : grid1.Coords, EltTy.bits .f32 = 32 ∨ (Rect.block (s := S2x128x128) S1x128x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .bf16 = 32 ∨ (Rect.block (s := S100000x128) S2000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .f32 = 32 ∨ (Rect.block (s := S100000x128) S2000x128.size (cc2_transform_8 i) (hinb2_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf

abbrev win0_0 : Pipeline.Window sig grid0 :=
  Pipeline.Window.ofSpec (Memref.whole main_v28) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v34) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v35) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v36_0) S2000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v36_1) S1x128x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v36_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v64) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v65) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S100000 : Shape := ⟨1, ![100000]⟩
abbrev S_ : Shape := ⟨0, ![]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1600000x128 : Shape := ⟨2, ![1600000, 128]⟩
abbrev S1x128 : Shape := ⟨2, ![1, 128]⟩
abbrev S100000x1 : Shape := ⟨2, ![100000, 1]⟩
abbrev S128x1 : Shape := ⟨2, ![128, 1]⟩

abbrev nBuf : Space → Nat
  | .hbm => 175
  | .vmem => 0
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S100000, .i32⟩
  | 4 => ⟨S_, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S_, .f32⟩
  | 36 => ⟨S_, .f32⟩
  | 37 => ⟨S100000x128, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000, .f32⟩
  | 46 => ⟨S100000x1, .f32⟩
  | 47 => ⟨S_, .f32⟩
  | 48 => ⟨S100000x1, .f32⟩
  | 49 => ⟨S100000x1, .f32⟩
  | 50 => ⟨S100000x128, .f32⟩
  | 51 => ⟨S100000x128, .f32⟩
  | 52 => ⟨S100000x128, .f32⟩
  | 53 => ⟨S_, .f32⟩
  | 54 => ⟨S100000, .f32⟩
  | 55 => ⟨S100000x1, .f32⟩
  | 56 => ⟨S_, .f32⟩
  | 57 => ⟨S100000x1, .f32⟩
  | 58 => ⟨S100000x1, .f32⟩
  | 59 => ⟨S100000x128, .f32⟩
  | 60 => ⟨S100000x128, .f32⟩
  | 61 => ⟨S_, .f32⟩
  | 62 => ⟨S100000x1, .f32⟩
  | 63 => ⟨S100000x1, .f32⟩
  | 64 => ⟨S100000x1, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000, .f32⟩
  | 82 => ⟨S100000x1, .f32⟩
  | 83 => ⟨S_, .f32⟩
  | 84 => ⟨S100000x1, .f32⟩
  | 85 => ⟨S100000x1, .f32⟩
  | 86 => ⟨S100000x128, .f32⟩
  | 87 => ⟨S100000x128, .f32⟩
  | 88 => ⟨S100000x128, .f32⟩
  | 89 => ⟨S_, .f32⟩
  | 90 => ⟨S100000, .f32⟩
  | 91 => ⟨S100000x1, .f32⟩
  | 92 => ⟨S_, .f32⟩
  | 93 => ⟨S100000x1, .f32⟩
  | 94 => ⟨S100000x1, .f32⟩
  | 95 => ⟨S100000x128, .f32⟩
  | 96 => ⟨S100000x128, .f32⟩
  | 97 => ⟨S_, .f32⟩
  | 98 => ⟨S100000x1, .f32⟩
  | 99 => ⟨S100000x1, .f32⟩
  | 100 => ⟨S100000x1, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000, .f32⟩
  | 118 => ⟨S_, .f32⟩
  | 119 => ⟨S128, .f32⟩
  | 120 => ⟨S100000x1, .i32⟩
  | 121 => ⟨S128, .f32⟩
  | 122 => ⟨S128x1, .f32⟩
  | 123 => ⟨S_, .f32⟩
  | 124 => ⟨S128x1, .f32⟩
  | 125 => ⟨S128x1, .f32⟩
  | 126 => ⟨S_, .f32⟩
  | 127 => ⟨S128x128, .f32⟩
  | _ => ⟨S100000x128, .f32⟩

abbrev hbmTy0_1 (i : Nat) : BufTy := match i % 128 with
  | 0 => ⟨S100000x1, .i32⟩
  | 1 => ⟨S128x128, .f32⟩
  | 2 => ⟨S128x128, .f32⟩
  | 3 => ⟨S128x128, .f32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S100000x1, .i32⟩
  | 12 => ⟨S100000x128, .f32⟩
  | 13 => ⟨S1x128, .f32⟩
  | 14 => ⟨S100000x128, .f32⟩
  | 15 => ⟨S100000x128, .f32⟩
  | 16 => ⟨S100000x128, .f32⟩
  | 17 => ⟨S100000x128, .f32⟩
  | 18 => ⟨S_, .f32⟩
  | 19 => ⟨S128x128, .f32⟩
  | 20 => ⟨S100000x1, .i32⟩
  | 21 => ⟨S128x128, .f32⟩
  | 22 => ⟨S128x128, .f32⟩
  | 23 => ⟨S128x128, .f32⟩
  | 24 => ⟨S1x128, .f32⟩
  | 25 => ⟨S100000x128, .f32⟩
  | 26 => ⟨S100000x128, .f32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x128, .f32⟩
  | 36 => ⟨S_, .f32⟩
  | 37 => ⟨S100000x128, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S100000x128, .f32⟩
  | 46 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call0_cst : Ref sig .tc := ⟨.hbm, 73, rfl⟩
abbrev main_call0_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call1_cst : Ref sig .tc := ⟨.hbm, 109, rfl⟩
abbrev main_call1_v0 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_12 : Ref sig .tc := ⟨.hbm, 116, rfl⟩
abbrev main_v80 : Ref sig .tc := ⟨.hbm, 117, rfl⟩
abbrev main_cst_13 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_14 : Ref sig .tc := ⟨.hbm, 123, rfl⟩
abbrev main_v85 : Ref sig .tc := ⟨.hbm, 124, rfl⟩
abbrev main_v86 : Ref sig .tc := ⟨.hbm, 125, rfl⟩
abbrev main_cst_15 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_16 : Ref sig .tc := ⟨.hbm, 132, rfl⟩
abbrev main_v92 : Ref sig .tc := ⟨.hbm, 133, rfl⟩
abbrev main_v93 : Ref sig .tc := ⟨.hbm, 134, rfl⟩
abbrev main_c_17 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_18 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c_19 : Ref sig .tc := ⟨.hbm, 155, rfl⟩
abbrev main_v112 : Ref sig .tc := ⟨.hbm, 156, rfl⟩
abbrev main_v113 : Ref sig .tc := ⟨.hbm, 157, rfl⟩
abbrev main_c_20 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_21 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_call2_cst : Ref sig .tc := ⟨.hbm, 172, rfl⟩
abbrev main_call2_v0 : Ref sig .tc := ⟨.hbm, 173, rfl⟩
abbrev main_v126 : Ref sig .tc := ⟨.hbm, 174, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S_S128x128 : S_.BroadcastsInDim S128x128 (![] : Fin 0 → Fin S128x128.rank)
  bcast_S128x1_S128x128_0_1 : S128x1.BroadcastsInDim S128x128 (![0, 1] : Fin 2 → Fin S128x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128_S100000x1_S100000_n_0_0_1_wf : ScatterDims.WF S128 S100000x1 S100000 [] [0] [0] 1
  scatter_S128x128_S100000x1_S100000x128_1_0_0_1_wf : ScatterDims.WF S128x128 S100000x1 S100000x128 [1] [0] [0] 1
  gather_S128x128_S100000x1_S100000x128_1_0_n_n_0_1_1128_wf : GatherDims.WF S128x128 S100000x1 S100000x128 [1] [0] [] [0] [] 1 ![1, 128]

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def gather_S128x128_S100000x1_S100000x128_1_0_n_n_0_1_1128 : GatherDims S128x128 S100000x1 S100000x128 where
  offsetDims := [1]
  collapsedSliceDims := [0]
  operandBatchingDims := []
  startIndicesBatchingDims := []
  startIndexMap := [0]
  indexVectorDim := 1
  sliceSizes := ![1, 128]
  wf := gather_S128x128_S100000x1_S100000x128_1_0_n_n_0_1_1128_wf

class Facts : Prop extends Facts₀ where

variable [Facts]
-- ==== Proof.Spec.lean ====
/-
  The mathematics both programs compute, over the extended reals, with nodes and features as plain coordinates.

  A node's feature row goes through three linear layers, the first two followed by a layer normalisation
  (mean and variance over the 128 features, an inverse square root, a scale and a shift) and a rectifier.
  The result rows are then normalised per graph: each graph's mean row and variance row are sums over the
  nodes of that graph divided by the node count.

  The tiled program reaches a graph's sum through a table of zeros and ones, `oh n g = 1` exactly when node `n`
  belongs to graph `g`: a sum over a tile of 2000 nodes of `oh n g * x n j`, tiles added in order, 25 tiles per
  core, the two cores' tables added; and it reads a graph's row back for a node as `∑ g, oh n g * T g j`.  Every
  value is passed to these products as a pair (the value, and the value minus itself), which is what is left of a
  two-term split of the value once rounding is the identity.  The plain program sums over the nodes whose graph
  is `g` and reads row `b n` of a table.  This file only states the two forms; that they agree for real inputs
  is proved elsewhere.
-/
import Idealize.ShloMosaic.PureOps.Ideal
import Idealize.ShloMosaic.PureOps.Ideal.Laws

noncomputable section

open scoped BigOperators

namespace GIN

open Idealize.ShloMosaic

/-- The f32 word of 128.0, the divisor of a row's mean. -/
abbrev w128 : EReal := Ideal.ofBits .f32 0x43000000#32
/-- The f32 word nearest 1e-5, added under each inverse square root. -/
abbrev weps : EReal := Ideal.ofBits .f32 0x3727C5AC#32
/-- The f32 word of 1.0. -/
abbrev w1 : EReal := Ideal.ofBits .f32 0x3F800000#32

/-- A feature row. -/
abbrev Row := Fin 128 → EReal
/-- A 128 × 128 table: a weight matrix (input feature, output feature) or a per-graph table (graph, feature). -/
abbrev Tab := Fin 128 → Fin 128 → EReal
/-- One row per node. -/
abbrev Nodes := Fin 100000 → Fin 128 → EReal

/-! ## A node's row through the three layers -/

/-- A linear layer: `x W + b`. -/
def lin (W : Tab) (b : Row) (x : Row) : Row := fun j => (∑ k, x k * W k j) + b j

/-- The mean of a row's 128 entries. -/
def rowMean (y : Row) : EReal := Ideal.div (∑ k, y k) w128

/-- The mean of the squared deviations of a row's entries from their mean. -/
def rowVar (y : Row) : EReal := Ideal.div (∑ k, (y k - rowMean y) * (y k - rowMean y)) w128

/-- Layer normalisation of a row with scale `g` and shift `be`. -/
def lnorm (g be : Row) (y : Row) : Row :=
  fun j => (y j - rowMean y) * Ideal.rsqrt (rowVar y + weps) * g j + be j

/-- The rectifier, entry by entry. -/
def relu (y : Row) : Row := fun j => max (y j) 0

/-- The three layers. -/
def mlp (W1 : Tab) (b1 g1 be1 : Row) (W2 : Tab) (b2 g2 be2 : Row) (W3 : Tab) (b3 : Row) (x : Row) : Row :=
  lin W3 b3 (relu (lnorm g2 be2 (lin W2 b2 (relu (lnorm g1 be1 (lin W1 b1 x))))))

/-- The row a node enters the layers with: `e * node + agg`. -/
def hin (e : EReal) (X A : Nodes) (n : Fin 100000) : Row := fun k => e * X n k + A n k

/-! ## Tiles -/

/-- Node `r` of tile `t` (50 tiles of 2000 nodes). -/
def nodeOf (t : Fin 50) (r : Fin 2000) : Fin 100000 := ⟨2000 * t.val + r.val, by have := t.isLt; have := r.isLt; omega⟩

/-- The table of zeros and ones of a graph assignment. -/
def onehot (b : Fin 100000 → Fin 128) : Nodes := fun n g => if b n = g then 1 else 0

/-! ## The tiled form -/

/-- A graph's row read back for a node through the zero-one table. -/
def ohGather (oh : Nodes) (T : Tab) : Nodes := fun n j => ∑ g, oh n g * T g j

/-- The same for a table given as a pair. -/
def ohGather2 (oh : Nodes) (Thi Tlo : Tab) : Nodes := fun n j => ohGather oh Thi n j + ohGather oh Tlo n j

/-- One tile's contribution to the per-graph sums of `X`. -/
def tileSum (oh X : Nodes) (t : Fin 50) : Tab := fun g j => ∑ r : Fin 2000, oh (nodeOf t r) g * X (nodeOf t r) j

/-- One tile's contribution with `X` passed as the pair (`X`, `X - X`). -/
def tileContrib (oh X : Nodes) (t : Fin 50) : Tab :=
  fun g j => tileSum oh X t g j + tileSum oh (fun n j => X n j - X n j) t g j

/-- A tile's contribution by the tile's number (zero past the last tile). -/
def tileC (oh X : Nodes) (n : ℕ) : Tab := if h : n < 50 then tileContrib oh X ⟨n, h⟩ else fun _ _ => 0

/-- The running table after grid point `n`: restarted from zero at the first point of each core (every 25th
    point), otherwise the table before plus the point's contribution. -/
def runAcc (f : ℕ → EReal) : ℕ → EReal
  | 0 => 0 + f 0
  | n + 1 => if (n + 1) % 25 = 0 then 0 + f (n + 1) else runAcc f n + f (n + 1)

/-- Core `c`'s partial table: the running table after the core's last point. -/
def coreAcc (oh X : Nodes) (c : Fin 2) : Tab := fun g j => runAcc (fun n => tileC oh X n g j) (25 * c.val + 24)

/-- The per-graph sums of `X`, tiled: the two cores' tables added. -/
def tiledSum (oh X : Nodes) : Tab := fun g j => coreAcc oh X 0 g j + coreAcc oh X 1 g j

/-- A table minus itself. -/
def lo (T : Tab) : Tab := fun g j => T g j - T g j

/-- The scaled mean table of the tiled program. -/
def kMs (oh H : Nodes) (cnt gms : Row) : Tab := fun g j => Ideal.div (tiledSum oh H g j) (cnt g) * gms j

/-- A node's row minus its graph's scaled mean, tiled. -/
def kSub (oh H : Nodes) (ms : Tab) : Nodes := fun n j => H n j - ohGather2 oh ms (lo ms) n j

/-- The squared deviations. -/
def sq (S : Nodes) : Nodes := fun n j => S n j * S n j

/-- The variance table of the tiled program. -/
def kVar (oh S : Nodes) (cnt : Row) : Tab := fun g j => Ideal.div (tiledSum oh (sq S) g j) (cnt g)

/-- The tiled program's result. -/
def kOut (gnw gnb : Row) (oh S : Nodes) (var : Tab) : Nodes :=
  fun n j => max (gnw j * S n j * Ideal.rsqrt (ohGather2 oh var (lo var) n j + weps) + gnb j) 0

/-- The whole tiled computation from the rows `H` the layers leave. -/
def kernelOut (gnw gnb gms cnt : Row) (oh H : Nodes) : Nodes :=
  kOut gnw gnb oh (kSub oh H (kMs oh H cnt gms)) (kVar oh (kSub oh H (kMs oh H cnt gms)) cnt)

/-! ## The plain form -/

/-- The per-graph sums of `X`: over the nodes of each graph. -/
def segSum (b : Fin 100000 → Fin 128) (X : Nodes) : Tab :=
  fun g j => ∑ n ∈ Finset.univ.filter (fun n => b n = g), X n j

/-- The mean table. -/
def rMean (b : Fin 100000 → Fin 128) (H : Nodes) (cnt : Row) : Tab := fun g j => Ideal.div (segSum b H g j) (cnt g)

/-- A node's row minus its graph's scaled mean. -/
def rSub (b : Fin 100000 → Fin 128) (H : Nodes) (mean : Tab) (gms : Row) : Nodes :=
  fun n j => H n j - gms j * mean (b n) j

/-- The variance table. -/
def rVar (b : Fin 100000 → Fin 128) (S : Nodes) (cnt : Row) : Tab := fun g j => Ideal.div (segSum b (sq S) g j) (cnt g)

/-- The plain program's result. -/
def rOut (gnw gnb : Row) (b : Fin 100000 → Fin 128) (S : Nodes) (var : Tab) : Nodes :=
  fun n j => max (gnw j * S n j * Ideal.rsqrt (var (b n) j + weps) + gnb j) 0

/-- The whole plain computation from the rows `H`. -/
def referenceOut (gnw gnb gms cnt : Row) (b : Fin 100000 → Fin 128) (H : Nodes) : Nodes :=
  rOut gnw gnb b (rSub b H (rMean b H cnt) gms) (rVar b (rSub b H (rMean b H cnt) gms) cnt)

end GIN

end
-- ==== Proof.KArr.lean ====
/-
  Arrays of the tiled program read by coordinates: a two-axis array as its rows, a 128 × 128 table, a one-row
  array as its row, a three-axis stack of two tables as the table of each core.
-/
import proofs.«428147_j72688026518088_3_alg».proof.KernelIdeal
import proofs.«428147_j72688026518088_3_alg».proof.Proof.Spec
import Idealize.ShloMosaic.Lib.ValueIdx

noncomputable section

namespace Cert.KernelIdeal.KArr

open Idealize.ShloMosaic Idealize.ShloMosaic.ValueIdx Cert.KernelIdeal

/-- The rows of a 100000 × 128 array. -/
def nodes (x : S100000x128.Idx → EReal) : GIN.Nodes := fun n j => x (ix2 n j)
/-- A 128 × 128 array as a table. -/
def tab (x : S128x128.Idx → EReal) : GIN.Tab := fun g j => x (ix2 g j)
/-- The row of a 1 × 128 array. -/
def row1 (x : S1x128.Idx → EReal) : GIN.Row := fun j => x (ix2 0 j)
/-- A 128-vector. -/
def vec (x : S128.Idx → EReal) : GIN.Row := fun j => x (ix1 j)
/-- Table `c` of a 2 × 128 × 128 stack. -/
def stack (x : S2x128x128.Idx → EReal) (c : Fin 2) : GIN.Tab := fun g j => x (ix3 c g j)
/-- The entry of a 1 × 1 array. -/
def one1 (x : S1x1.Idx → EReal) : EReal := x (ix2 0 0)

end Cert.KernelIdeal.KArr

end
-- ==== Proof.SpecRaw.lean ====
/-
  The same mathematics in the form a single stage of the tiled program computes it: a stage receives a table as two
  arrays (the value and the remainder of its two-term split) and does not know that the second is the first minus
  itself; and the layer normalisation is met in two halves, the normalised row first and its scale and shift later.
-/
import proofs.«428147_j72688026518088_3_alg».proof.Proof.Spec

noncomputable section

open scoped BigOperators

namespace GIN

open Idealize.ShloMosaic

/-- The normalised row: each entry minus the row's mean, times the inverse square root of the row's variance plus
    the small constant. -/
def lncore (y : Row) : Row := fun j => (y j - rowMean y) * Ideal.rsqrt (rowVar y + weps)

theorem lnorm_eq (g be y : Row) : lnorm g be y = fun j => lncore y j * g j + be j := rfl

/-- A node's row minus its graph's row read through the zero-one table from a table given as two arrays. -/
def subRaw (oh H : Nodes) (Thi Tlo : Tab) : Nodes := fun n j => H n j - ohGather2 oh Thi Tlo n j

theorem kSub_eq (oh H : Nodes) (ms : Tab) : kSub oh H ms = subRaw oh H ms (lo ms) := rfl

/-- The last stage's result from a variance table given as two arrays. -/
def outRaw (gnw gnb : Row) (oh S : Nodes) (Vhi Vlo : Tab) : Nodes :=
  fun n j => max (gnw j * S n j * Ideal.rsqrt (ohGather2 oh Vhi Vlo n j + weps) + gnb j) 0

theorem kOut_eq (gnw gnb : Row) (oh S : Nodes) (var : Tab) : kOut gnw gnb oh S var = outRaw gnw gnb oh S var (lo var) := rfl

/-- The row of a block: row `r` of an array of 2000 rows given by coordinates. -/
def rowOf {A : ℕ} (x : Fin A → Fin 128 → EReal) (r : Fin A) : Row := fun k => x r k

end GIN

end
-- ==== Proof.KReg2.lean ====
/-
  The last stage of the tiled program, read as mathematics.

  The stage walks the 100000 nodes in 50 tiles of 2000.  At a tile it holds the tile's rows of the layers' result, the
  tile's rows of the zero-one table of graph membership, the scaled mean table and the variance table (each as two
  128 × 128 arrays, the value and the remainder of its two-term split), and the weight and shift rows.  For node `n`
  and feature `j` it forms the row entry minus (`∑ g, oh n g * mean_hi g j` plus the same sum over the remainder), multiplies by
  the weight and by the inverse square root of the variance read the same way plus a small constant, adds the shift,
  and takes the maximum with zero.

  First the stored block is read at an entry (`pay_apply`); the products of a row block with a table are sums over the
  table's 128 rows (`mm_apply`).  Then each tile's block is placed in the array: tile `t` holds nodes `2000 t + r`, the
  50 tiles cover every node, so the array after the stage is one function of the arrays before it (`arr_eq`, `final`).
-/
import proofs.«428147_j72688026518088_3_alg».proof.Proof.Gen.KernelIdeal.Frame
import proofs.«428147_j72688026518088_3_alg».proof.Proof.KArr
import proofs.«428147_j72688026518088_3_alg».proof.Proof.SpecRaw
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KReg2

open Idealize.ShloMosaic Idealize.ShloMosaic.ValueIdx Idealize.ShloMosaic.TcCoe Idealize.SL.Sem
open Cert.KernelIdeal Cert.KernelIdeal.Gen Cert.KernelIdeal.KArr
open Idealize.ShloMosaic.Pipeline (Dat)

/-! ## The product of a row block with a 128 × 128 table, at an entry -/

/-- The left operand of the product is read at the result's row … -/
theorem lhs_0 (j : S2000x128.Idx) (k : dot_S2000x128_S128x128_S2000x128_1_0_0_1_n_n.contr.Idx) :
    (dot_S2000x128_S128x128_S2000x128_1_0_0_1_n_n.lhsIdx j k 0).val = (j 0).val := by
  unfold DotDims.lhsIdx
  rw [dif_neg (show ¬ (0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- … and at the summed coordinate; -/
theorem lhs_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single (cl := 1) rfl j k

/-- the right operand at the summed coordinate … -/
theorem rhs_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single (cr := 0) rfl j k

/-- … and at the result's column. -/
theorem rhs_1 (j : S2000x128.Idx) (k : dot_S2000x128_S128x128_S2000x128_1_0_0_1_n_n.contr.Idx) :
    (dot_S2000x128_S128x128_S2000x128_1_0_0_1_n_n.rhsIdx j k 1).val = (j 1).val := by
  unfold DotDims.rhsIdx
  rw [dif_neg (show ¬ (1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A block of 2000 rows times a 128 × 128 table, accumulated into the zero block, at entry `(r, j)`:
    `∑ g, x r g * T g j`. -/
theorem mm_apply (x : FVec Ideal S2000x128 .bf16) (T : FVec Ideal S128x128 .bf16) (r : Fin 2000) (j : Fin 128) :
    matmul dot_S2000x128_S128x128_S2000x128_1_0_0_1_n_n none x T (constant S2000x128 .f32 0x00000000#32) (ix2 r j)
      = ∑ g : Fin 128, x (ix2 r g) * T (ix2 g j) := by
  simp only [matmul]
  rw [Ideal.matmul_constant_zero_apply]
  rw [← Equiv.sum_comp (contrEquiv1 dot_S2000x128_S128x128_S2000x128_1_0_0_1_n_n 128 rfl rfl).symm]
  refine Finset.sum_congr rfl fun g _ => ?_
  have hk := contrEquiv1_symm_val dot_S2000x128_S128x128_S2000x128_1_0_0_1_n_n 128 rfl rfl g
  congr 2
  · funext a; apply Fin.ext
    match a with
    | ⟨0, _⟩ => exact lhs_0 _ _
    | ⟨1, _⟩ => exact (lhs_1 _ _).trans hk
  · funext a; apply Fin.ext
    match a with
    | ⟨0, _⟩ => exact (rhs_0 _ _).trans hk
    | ⟨1, _⟩ => exact rhs_1 _ _

/-! ## The stored block at an entry -/

/-- The block the body stores, at row `r` and feature `j`: the row's entry minus its graph's scaled mean read through
    the zero-one block from the two mean tables, scaled by the weight and by the inverse square root of the graph's
    variance (read the same way from the two variance tables) plus the small constant, shifted, and rectified. -/
theorem pay_apply (v0 : Vec Ideal S2000x128 .bf16) (v2 v5 : Vec Ideal S128x128 .bf16) (v9 : Vec Ideal S2000x128 .f32) (v12 v15 : Vec Ideal S128x128 .bf16) (v22 v27 : Vec Ideal S1x128 .f32) (r : Fin 2000) (j : Fin 128) :
    k2_pay1 (F := Ideal) v0 v2 v5 v9 v12 v15 v22 v27 (ix2 r j)
      = max (v22 (ix2 0 j) * (v9 (ix2 r j) - ((∑ g : Fin 128, v0 (ix2 r g) * v2 (ix2 g j)) + ∑ g : Fin 128, v0 (ix2 r g) * v5 (ix2 g j)))
             * Ideal.rsqrt (((∑ g : Fin 128, v0 (ix2 r g) * v12 (ix2 g j)) + ∑ g : Fin 128, v0 (ix2 r g) * v15 (ix2 g j)) + GIN.weps) + v27 (ix2 0 j)) 0 := by
  unfold k2_pay1
  simp only [maximumf_apply, addf_apply, mulf_apply, subf_apply, broadcast_apply, shapeCast_self, mm_apply,
    broadcastTo_1b_ab_apply, rsqrt, Ideal.rsqrt_def]
  have h0 : (FloatOps.ofBits (F := Ideal) FTy.f32 0x00000000#32) = 0 := Ideal.ofBits_zero_f32
  rw [h0]
  rfl

/-! ## From the blocks to the array -/

variable (V : (c : Dev nD) → (b : Ref sig .tc) → Buf (Elt Ideal) ((c : Thread nD τ).loc b))

/-- What the region leaves in its result array, as one function of the arrays it enters with. -/
def outArr (c : Dev nD) : S100000x128.Idx → EReal := fun i =>
  GIN.outRaw (row1 (V c main_v63)) (row1 (V c main_v64)) (nodes (V c main_v26))
    (GIN.subRaw (nodes (V c main_v26)) (nodes (V c main_v36_0)) (tab (V c main_v47)) (tab (V c main_v50)))
    (tab (V c main_v59)) (tab (V c main_v62)) (i 0) (i 1)

/-- The zero offset of a whole-block access. -/
theorem hz : (![0, 0] : Fin 2 → Nat) = fun _ => 0 := funext fun a => by fin_cases a <;> rfl

/-- The grid has 50 points. -/
theorem t_lt (t : Fin cfg2.N) : t.val < 50 := by have := t.isLt; have h : cfg2.N = 50 := N_2; omega

/-- Where each window's block sits at point `t`: the two row windows and the result window at row block `t`, the four
    tables and the two rows at their whole arrays. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-! ### The input blocks read through their windows -/

/-- The rows' block at point `t`, at `(r, k)`: the array at node `2000 t + r`. -/
theorem blk0_apply (c : Dev nD) (t : Fin cfg2.N) (r : Fin 2000) (k : Fin 128) :
    iblk2 V c 0 t (ix2 r k) = V c main_v36_0 (ix2 (GIN.nodeOf ⟨t.val, t_lt t⟩ r) k) := by
  obtain ⟨e0, e1, -⟩ := idx_facts t
  show V c main_v36_0 (((cfg2.win 0).blk t).view.emb (ix2 r k)) = V c main_v36_0 (ix2 _ k)
  refine congrArg _ (funext fun a => Fin.ext ?_)
  match a with
  | ⟨0, _⟩ => show win2_0.index t (0 : Fin 2) * 2000 + 1 * r.val = 2000 * t.val + r.val; omega
  | ⟨1, _⟩ => show win2_0.index t (1 : Fin 2) * 128 + 1 * k.val = k.val; omega

/-- The zero-one table's block at point `t`, at `(r, g)`: the table at node `2000 t + r`. -/
theorem blk1_apply (c : Dev nD) (t : Fin cfg2.N) (r : Fin 2000) (g : Fin 128) :
    iblk2 V c 1 t (ix2 r g) = V c main_v26 (ix2 (GIN.nodeOf ⟨t.val, t_lt t⟩ r) g) := by
  obtain ⟨-, -, e0, e1, -⟩ := idx_facts t
  show V c main_v26 (((cfg2.win 1).blk t).view.emb (ix2 r g)) = V c main_v26 (ix2 _ g)
  refine congrArg _ (funext fun a => Fin.ext ?_)
  match a with
  | ⟨0, _⟩ => show win2_1.index t (0 : Fin 2) * 2000 + 1 * r.val = 2000 * t.val + r.val; omega
  | ⟨1, _⟩ => show win2_1.index t (1 : Fin 2) * 128 + 1 * g.val = g.val; omega

/-- A table's block is the whole table at every point. -/
theorem blk2_apply (c : Dev nD) (t : Fin cfg2.N) (g k : Fin 128) :
    iblk2 V c 2 t (ix2 g k) = V c main_v47 (ix2 g k) := by
  obtain ⟨-, -, -, -, e0, e1, -⟩ := idx_facts t
  show V c main_v47 (((cfg2.win 2).blk t).view.emb (ix2 g k)) = V c main_v47 (ix2 g k)
  refine congrArg _ (funext fun a => Fin.ext ?_)
  match a with
  | ⟨0, _⟩ => show win2_2.index t (0 : Fin 2) * 128 + 1 * g.val = g.val; omega
  | ⟨1, _⟩ => show win2_2.index t (1 : Fin 2) * 128 + 1 * k.val = k.val; omega

/-- The second mean table likewise, -/
theorem blk3_apply (c : Dev nD) (t : Fin cfg2.N) (g k : Fin 128) :
    iblk2 V c 3 t (ix2 g k) = V c main_v50 (ix2 g k) := by
  obtain ⟨-, -, -, -, -, -, e0, e1, -⟩ := idx_facts t
  show V c main_v50 (((cfg2.win 3).blk t).view.emb (ix2 g k)) = V c main_v50 (ix2 g k)
  refine congrArg _ (funext fun a => Fin.ext ?_)
  match a with
  | ⟨0, _⟩ => show win2_3.index t (0 : Fin 2) * 128 + 1 * g.val = g.val; omega
  | ⟨1, _⟩ => show win2_3.index t (1 : Fin 2) * 128 + 1 * k.val = k.val; omega

/-- the two variance tables, -/
theorem blk4_apply (c : Dev nD) (t : Fin cfg2.N) (g k : Fin 128) :
    iblk2 V c 4 t (ix2 g k) = V c main_v59 (ix2 g k) := by
  obtain ⟨-, -, -, -, -, -, -, -, e0, e1, -⟩ := idx_facts t
  show V c main_v59 (((cfg2.win 4).blk t).view.emb (ix2 g k)) = V c main_v59 (ix2 g k)
  refine congrArg _ (funext fun a => Fin.ext ?_)
  match a with
  | ⟨0, _⟩ => show win2_4.index t (0 : Fin 2) * 128 + 1 * g.val = g.val; omega
  | ⟨1, _⟩ => show win2_4.index t (1 : Fin 2) * 128 + 1 * k.val = k.val; omega

theorem blk5_apply (c : Dev nD) (t : Fin cfg2.N) (g k : Fin 128) :
    iblk2 V c 5 t (ix2 g k) = V c main_v62 (ix2 g k) := by
  obtain ⟨-, -, -, -, -, -, -, -, -, -, e0, e1, -⟩ := idx_facts t
  show V c main_v62 (((cfg2.win 5).blk t).view.emb (ix2 g k)) = V c main_v62 (ix2 g k)
  refine congrArg _ (funext fun a => Fin.ext ?_)
  match a with
  | ⟨0, _⟩ => show win2_5.index t (0 : Fin 2) * 128 + 1 * g.val = g.val; omega
  | ⟨1, _⟩ => show win2_5.index t (1 : Fin 2) * 128 + 1 * k.val = k.val; omega

/-- and the weight row and the shift row: one row each, whole at every point. -/
theorem blk6_apply (c : Dev nD) (t : Fin cfg2.N) (k : Fin 128) :
    iblk2 V c 6 t (ix2 0 k) = V c main_v63 (ix2 0 k) := by
  obtain ⟨-, -, -, -, -, -, -, -, -, -, -, -, e0, e1, -⟩ := idx_facts t
  show V c main_v63 (((cfg2.win 6).blk t).view.emb (ix2 (0 : Fin 1) k)) = V c main_v63 (ix2 (0 : Fin 1) k)
  refine congrArg _ (funext fun a => Fin.ext ?_)
  match a with
  | ⟨0, _⟩ => show win2_6.index t (0 : Fin 2) * 1 + 1 * 0 = 0; omega
  | ⟨1, _⟩ => show win2_6.index t (1 : Fin 2) * 128 + 1 * k.val = k.val; omega

theorem blk7_apply (c : Dev nD) (t : Fin cfg2.N) (k : Fin 128) :
    iblk2 V c 7 t (ix2 0 k) = V c main_v64 (ix2 0 k) := by
  obtain ⟨-, -, -, -, -, -, -, -, -, -, -, -, -, -, e0, e1, -⟩ := idx_facts t
  show V c main_v64 (((cfg2.win 7).blk t).view.emb (ix2 (0 : Fin 1) k)) = V c main_v64 (ix2 (0 : Fin 1) k)
  refine congrArg _ (funext fun a => Fin.ext ?_)
  match a with
  | ⟨0, _⟩ => show win2_7.index t (0 : Fin 2) * 1 + 1 * 0 = 0; omega
  | ⟨1, _⟩ => show win2_7.index t (1 : Fin 2) * 128 + 1 * k.val = k.val; omega

/-! ### One point's block of the result -/

omit V in
/-- The stored block of tile `t`, from blocks that are the arrays read at the tile's rows (the two row windows) or whole
    (the tables and the two rows): at `(r, j)` it is the last stage's result at node `2000 t + r`. -/
theorem block_eq (H OH : S100000x128.Idx → EReal) (Mh Ml Vh Vl : S128x128.Idx → EReal) (gw gb : S1x128.Idx → EReal)
    (x0 : Vec Ideal S2000x128 .f32) (x1 : Vec Ideal S2000x128 .bf16) (x2 x3 x4 x5 : Vec Ideal S128x128 .bf16)
    (x6 x7 : Vec Ideal S1x128 .f32) (t : Fin 50)
    (h0 : ∀ r k, x0 (ix2 r k) = H (ix2 (GIN.nodeOf t r) k)) (h1 : ∀ r g, x1 (ix2 r g) = OH (ix2 (GIN.nodeOf t r) g))
    (h2 : ∀ g k, x2 (ix2 g k) = Mh (ix2 g k)) (h3 : ∀ g k, x3 (ix2 g k) = Ml (ix2 g k))
    (h4 : ∀ g k, x4 (ix2 g k) = Vh (ix2 g k)) (h5 : ∀ g k, x5 (ix2 g k) = Vl (ix2 g k))
    (h6 : ∀ k, x6 (ix2 0 k) = gw (ix2 0 k)) (h7 : ∀ k, x7 (ix2 0 k) = gb (ix2 0 k)) (r : Fin 2000) (j : Fin 128) :
    k2_pay1 (F := Ideal) x1 x2 x3 x0 x4 x5 x6 x7 (ix2 r j)
      = GIN.outRaw (row1 gw) (row1 gb) (nodes OH) (GIN.subRaw (nodes OH) (nodes H) (tab Mh) (tab Ml)) (tab Vh) (tab Vl)
          (GIN.nodeOf t r) j := by
  rw [pay_apply]
  simp only [h0, h1, h2, h3, h4, h5, h6, h7]
  rfl

/-- What point `t` writes back is block `t` of that function. -/
theorem flushed_eq (c : Dev nD) (t : Fin cfg2.N) :
    (dat2 V c).flushed 8 t = ((cfg2.win 8).blk t).view.read (Elt Ideal) (outArr V c) := by
  show (cfg2.win 8).cut (grid2.coords t) ((dat2 V c).after 8 t) = _
  rw [after2_8]
  unfold out2_8
  rw [View.canon_unit_zero hz]
  simp only [View.ld_unit_zero (S := S2000x128) hz, View.ld_unit_zero (S := S128x128) hz, View.ld_unit_zero (S := S1x128) hz]
  refine funext fun (y : S2000x128.Idx) => ?_
  obtain ⟨r, j, rfl⟩ : ∃ (r : Fin 2000) (j : Fin 128), y = ix2 r j := ⟨y 0, y 1, eq_ix2 y⟩
  obtain ⟨-, -, -, -, -, -, -, -, -, -, -, -, -, -, -, -, e0, e1⟩ := idx_facts t
  have hemb : ((cfg2.win 8).blk t).view.emb (ix2 r j) = ix2 (GIN.nodeOf ⟨t.val, t_lt t⟩ r) j := by
    funext a; apply Fin.ext
    match a with
    | ⟨0, _⟩ => show win2_8.index t (0 : Fin 2) * 2000 + 1 * r.val = 2000 * t.val + r.val; omega
    | ⟨1, _⟩ => show win2_8.index t (1 : Fin 2) * 128 + 1 * j.val = j.val; omega
  show k2_pay1 (F := Ideal) (iblk2 V c 1 t) (iblk2 V c 2 t) (iblk2 V c 3 t) (iblk2 V c 0 t) (iblk2 V c 4 t) (iblk2 V c 5 t)
      (iblk2 V c 6 t) (iblk2 V c 7 t) (ix2 r j) = outArr V c (((cfg2.win 8).blk t).view.emb (ix2 r j))
  rw [hemb]
  exact block_eq (V c main_v36_0) (V c main_v26) (V c main_v47) (V c main_v50) (V c main_v59) (V c main_v62)
    (V c main_v63) (V c main_v64) (iblk2 V c 0 t) (iblk2 V c 1 t) (iblk2 V c 2 t) (iblk2 V c 3 t) (iblk2 V c 4 t)
    (iblk2 V c 5 t) (iblk2 V c 6 t) (iblk2 V c 7 t) ⟨t.val, t_lt t⟩ (blk0_apply V c t) (blk1_apply V c t) (blk2_apply V c t)
    (blk3_apply V c t) (blk4_apply V c t) (blk5_apply V c t) (blk6_apply V c t) (blk7_apply V c t) r j

/-! ### The blocks tile the array -/

omit V in
/-- A node's row is in point `t`'s block exactly when the node is among the tile's 2000. -/
theorem mem_blk (t : Fin cfg2.N) (i : S100000x128.Idx) :
    i ∈ ((cfg2.win 8).blk t).view.set ↔ ∀ a : Fin 2, win2_8.index t a * S2000x128.size a ≤ (i a).val
      ∧ (i a).val < win2_8.index t a * S2000x128.size a + S2000x128.size a := by
  show i ∈ ((View.whole main_v65).slice (win2_8.rect t)).set ↔ _
  rw [View.set_slice_whole, Rect.mem_set_unit]
  exact Iff.rfl

omit V in
/-- Node `n` is written back by point `n / 2000`. -/
theorem cover (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 50 := N_2
  have ht : (i 0).val / 2000 < cfg2.N := by rw [hN]; omega
  obtain ⟨-, -, -, -, -, -, -, -, -, -, -, -, -, -, -, -, e0, e1⟩ := idx_facts ⟨(i 0).val / 2000, ht⟩
  have e0' : win2_8.index ⟨(i 0).val / 2000, ht⟩ (0 : Fin 2) = (i 0).val / 2000 := e0
  refine ⟨⟨(i 0).val / 2000, ht⟩, flush2_8 _, ?_⟩
  rw [mem_blk]
  intro a
  match a with
  | ⟨0, _⟩ =>
    show win2_8.index ⟨(i 0).val / 2000, ht⟩ (0 : Fin 2) * 2000 ≤ (i 0).val
      ∧ (i 0).val < win2_8.index ⟨(i 0).val / 2000, ht⟩ (0 : Fin 2) * 2000 + 2000
    omega
  | ⟨1, _⟩ =>
    show win2_8.index ⟨(i 0).val / 2000, ht⟩ (1 : Fin 2) * 128 ≤ (i 1).val
      ∧ (i 1).val < win2_8.index ⟨(i 0).val / 2000, ht⟩ (1 : Fin 2) * 128 + 128
    omega

/-- The result array after the region. -/
theorem arr_eq (c : Dev nD) : (dat2 (F := Ideal) V c).arrAt 8 cfg2.N = outArr V c :=
  (dat2 V c).arrAt_eq_of_cover 8 (outArr V c) (fun t _ => flushed_eq V c t) cover

/-- The same by nodes and features: the last stage's result of the arrays the region enters with. -/
theorem final (c : Dev nD) :
    nodes ((dat2 (F := Ideal) V c).arrAt 8 cfg2.N)
      = GIN.outRaw (row1 (V c main_v63)) (row1 (V c main_v64)) (nodes (V c main_v26))
          (GIN.subRaw (nodes (V c main_v26)) (nodes (V c main_v36_0)) (tab (V c main_v47)) (tab (V c main_v50)))
          (tab (V c main_v59)) (tab (V c main_v62)) := by
  funext n j
  show (dat2 (F := Ideal) V c).arrAt 8 cfg2.N (ix2 n j) = _
  rw [arr_eq]
  rfl

end Cert.KernelIdeal.KReg2

end
-- ==== Proof.KReg1.lean ====
/-
  The value of the second kernel region: each core's partial table of the squared deviations.

  The region walks 50 grid points, 25 per core. At a point it holds a tile of 2000 rows `h`, the same 2000 rows of the
  zero-one table `oh`, and the scaled mean table as a pair `Thi`, `Tlo`. Row by row it forms the deviation
  `h - (oh · Thi + oh · Tlo)`, squares it, and adds `ohᵀ · sq + ohᵀ · (sq - sq)` into a 128 × 128 table, which it sets
  to zero at the first point of each core (every 25th point). After a core's last point the table is written back as
  table `k` of a stack of two.

  Read at the extended reals: a matrix product into zero is the plain sum over the contracted axis, a change of float
  format is the identity. So the table the body leaves at a point is the table before plus the tile's contribution
  (`pay2_apply`), the table after point `n` is the running sum `GIN.runAcc` of the tiles' contributions (`acc_eq`, by
  induction on the point, the reset every 25th point), and table `k` of the stack after the region is
  `GIN.coreAcc … k`, the running sum after point `25 k + 24` (`final`).
-/
import proofs.«428147_j72688026518088_3_alg».proof.Proof.Gen.KernelIdeal.Frame
import proofs.«428147_j72688026518088_3_alg».proof.Proof.KArr
import proofs.«428147_j72688026518088_3_alg».proof.Proof.SpecRaw
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.KReg1

open Cert.KernelIdeal Cert.KernelIdeal.Gen Cert.KernelIdeal.KArr
/-! ## The two contractions of the body read at an index

The product of a block of rows with a table contracts the row's 128 entries: result `(r, j)` reads the left operand at
`(r, k)` and the right at `(k, j)`. The product over the rows contracts the 2000 rows: result `(g, j)` reads the left
operand at `(r, g)` and the right at `(r, j)`. The eight lemmas below say so axis by axis. -/

theorem lhs_dRT_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem lhs_dRT_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_dRT_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_dRT_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

theorem lhs_dRR_0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q
theorem lhs_dRR_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide),
    dif_pos (show (1 : Fin S2000x128.rank) ∈ dot_S2000x128_S2000x128_S128x128_0_0_1_1_n_n.lhsNonContracting by decide)]
  rfl
theorem rhs_dRR_0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q
theorem rhs_dRR_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide),
    dif_pos (show (1 : Fin S2000x128.rank) ∈ dot_S2000x128_S2000x128_S128x128_0_0_1_1_n_n.rhsNonContracting by decide)]
  rfl

/-- A product of a block of 2000 rows with a 128 × 128 table, into zero: entry `(r, j)` is `∑ k, a (r, k) * b (k, j)`. -/
theorem matmul_dRT_apply {φ₁ φ₂ : FTy} (a : FVec Ideal S2000x128 φ₁) (b : FVec Ideal S128x128 φ₂) (r : Fin 2000) (j : Fin 128) :
    matmul dot_S2000x128_S128x128_S2000x128_1_0_0_1_n_n none a b (constant (F := Ideal) S2000x128 .f32 0x00000000#32) (ix2 r j)
      = ∑ k : Fin 128, a (ix2 r k) * b (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k :=
    funext fun a => Fin.ext (by
      match a with
      | ⟨0, _⟩ => exact lhs_dRT_0 _ _
      | ⟨1, _⟩ => exact (lhs_dRT_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j :=
    funext fun a => Fin.ext (by
      match a with
      | ⟨0, _⟩ => exact (rhs_dRT_0 _ _).trans hk
      | ⟨1, _⟩ => exact rhs_dRT_1 _ _)
  rw [el, er]

/-- A product over the rows of two blocks of 2000 rows, into zero: entry `(g, j)` is `∑ r, a (r, g) * b (r, j)`. -/
theorem matmul_dRR_apply {φ₁ φ₂ : FTy} (a : FVec Ideal S2000x128 φ₁) (b : FVec Ideal S2000x128 φ₂) (g j : Fin 128) :
    matmul dot_S2000x128_S2000x128_S128x128_0_0_1_1_n_n none a b (constant (F := Ideal) S128x128 .f32 0x00000000#32) (ix2 g j)
      = ∑ r : Fin 2000, a (ix2 r g) * b (ix2 r j) := by
  simp only [matmul]
  rw [Ideal.matmul_constant_zero_apply, ← Equiv.sum_comp (contrEquiv1 dot_S2000x128_S2000x128_S128x128_0_0_1_1_n_n 2000 rfl rfl).symm]
  refine Finset.sum_congr rfl fun k _ => ?_
  have hk := contrEquiv1_symm_val dot_S2000x128_S2000x128_S128x128_0_0_1_1_n_n 2000 rfl rfl k
  have el : dot_S2000x128_S2000x128_S128x128_0_0_1_1_n_n.lhsIdx (ix2 g j) ((contrEquiv1 dot_S2000x128_S2000x128_S128x128_0_0_1_1_n_n 2000 rfl rfl).symm k) = ix2 k g :=
    funext fun a => Fin.ext (by
      match a with
      | ⟨0, _⟩ => exact (lhs_dRR_0 _ _).trans hk
      | ⟨1, _⟩ => exact lhs_dRR_1 _ _)
  have er : dot_S2000x128_S2000x128_S128x128_0_0_1_1_n_n.rhsIdx (ix2 g j) ((contrEquiv1 dot_S2000x128_S2000x128_S128x128_0_0_1_1_n_n 2000 rfl rfl).symm k) = ix2 k j :=
    funext fun a => Fin.ext (by
      match a with
      | ⟨0, _⟩ => exact (rhs_dRR_0 _ _).trans hk
      | ⟨1, _⟩ => exact rhs_dRR_1 _ _)
  rw [el, er]

/-! ## The body's arithmetic read at an index -/

/-- The squared deviation at row `r`, feature `j` of a block of 2000 rows `h`: the row's entry minus its graph's
    entry read through the block `oh` of the zero-one table from the table given as the pair `Thi`, `Tlo`, squared. -/
def sqd (oh : FVec Ideal S2000x128 .bf16) (Thi Tlo : FVec Ideal S128x128 .bf16) (h : FVec Ideal S2000x128 .f32)
    (r : Fin 2000) (j : Fin 128) : EReal :=
  (h (ix2 r j) - ((∑ g : Fin 128, oh (ix2 r g) * Thi (ix2 g j)) + ∑ g : Fin 128, oh (ix2 r g) * Tlo (ix2 g j)))
    * (h (ix2 r j) - ((∑ g : Fin 128, oh (ix2 r g) * Thi (ix2 g j)) + ∑ g : Fin 128, oh (ix2 r g) * Tlo (ix2 g j)))

/-- The block the reset stores is zero everywhere. -/
theorem pay1_apply (u : Fin 1) (g j : Fin 128) : k1_pay1 (F := Ideal) (ix3 u g j) = 0 := by
  unfold k1_pay1
  refine (shapeCast_ab_1ab_apply _ _ u g j).trans ?_
  exact Ideal.ofBits_zero_f32

/-- The block the update stores: the table before plus this tile's contribution, the squared deviations passed as
    the pair (the value, the value minus itself). -/
theorem pay2_apply (v3 : FVec Ideal S2000x128 .bf16) (v5 v8 : FVec Ideal S128x128 .bf16) (v12 : FVec Ideal S2000x128 .f32)
    (v23 : FVec Ideal S1x128x128 .f32) (u : Fin 1) (g j : Fin 128) :
    k1_pay2 (F := Ideal) v3 v5 v8 v12 v23 (ix3 u g j)
      = v23 (ix3 (0 : Fin 1) g j) + ((∑ r : Fin 2000, v3 (ix2 r g) * sqd v3 v5 v8 v12 r j)
          + ∑ r : Fin 2000, v3 (ix2 r g) * (sqd v3 v5 v8 v12 r j - sqd v3 v5 v8 v12 r j)) := by
  have hs : ∀ (r : Fin 2000),
      mulf (subf v12 (addf
          (matmul dot_S2000x128_S128x128_S2000x128_1_0_0_1_n_n none v3 v5 (constant (F := Ideal) S2000x128 .f32 0x00000000#32))
          (matmul dot_S2000x128_S128x128_S2000x128_1_0_0_1_n_n none v3 v8 (constant (F := Ideal) S2000x128 .f32 0x00000000#32))))
        (subf v12 (addf
          (matmul dot_S2000x128_S128x128_S2000x128_1_0_0_1_n_n none v3 v5 (constant (F := Ideal) S2000x128 .f32 0x00000000#32))
          (matmul dot_S2000x128_S128x128_S2000x128_1_0_0_1_n_n none v3 v8 (constant (F := Ideal) S2000x128 .f32 0x00000000#32))))
        (ix2 r j) = sqd v3 v5 v8 v12 r j := fun r => by
    unfold sqd
    rw [mulf_apply, subf_apply, addf_apply, matmul_dRT_apply, matmul_dRT_apply]
  unfold k1_pay2
  simp only [shapeCast_self]
  refine (shapeCast_ab_1ab_apply _ _ u g j).trans ?_
  refine (addf_apply _ _ _).trans ?_
  refine congrArg₂ (· + ·) (shapeCast_1ab_ab_apply v23 _ g j) ?_
  refine (addf_apply _ _ _).trans ?_
  refine congrArg₂ (· + ·) ?_ ?_
  · refine (matmul_dRR_apply _ _ g j).trans ?_
    refine Finset.sum_congr rfl fun r _ => ?_
    exact congrArg (v3 (ix2 r g) * ·) (hs r)
  · refine (matmul_dRR_apply _ _ g j).trans ?_
    refine Finset.sum_congr rfl fun r _ => ?_
    refine congrArg (v3 (ix2 r g) * ·) ?_
    exact congrArg₂ (· - ·) (hs r) (hs r)

/-! ## What each case leaves in the table's buffer -/

theorem hz2 : (![0, 0] : Fin 2 → Nat) = fun _ => 0 := funext fun a => by fin_cases a <;> rfl
theorem hz3 : (![0, 0, 0] : Fin 3 → Nat) = fun _ => 0 := funext fun a => by fin_cases a <;> rfl

section Pieces
variable {F : FTy → Type} [FloatOps F]

/-- Away from a reset point the body leaves the update of the table the point before left. -/
theorem out_B (c : Dev nD) (i : grid1.Coords) (a2 : Memref sig .tc .vmem S2000x128 .f32) (h2 : a2.IsWhole)
    (a3 : Memref sig .tc .vmem S2000x128 .bf16) (h3 : a3.IsWhole) (a4 : Memref sig .tc .vmem S128x128 .bf16) (h4 : a4.IsWhole)
    (a5 : Memref sig .tc .vmem S128x128 .bf16) (h5 : a5.IsWhole) (a6 : Memref sig .tc .vmem S1x128x128 .f32) (h6 : a6.IsWhole)
    (hc : ¬cond1_0 i) (x0 : Vec F S2000x128 .f32) (x1 : Vec F S2000x128 .bf16) (x2 x3 : Vec F S128x128 .bf16)
    (xo : Vec F S1x128x128 .f32) :
    out1_B_4 c i a2 h2 a3 h3 a4 h4 a5 h5 a6 h6 hc x0 x1 x2 x3 xo = k1_pay2 x1 x2 x3 x0 xo := by
  unfold out1_B_4
  rw [View.read_writes_eq_canon _ _ _ (cover1_B_4 c i a2 h2 a3 h3 a4 h4 a5 h5 a6 h6 hc x0 x1 x2 x3 xo)]
  unfold kernelRun1_B
  dsimp only
  rw [View.canon_unit_zero hz3]
  simp only [View.readAt_eq_ld, h2.read_unread, h3.read_unread, h4.read_unread, h5.read_unread, h6.read_unread,
    View.ld_unit_zero (S := S2000x128) hz2, View.ld_unit_zero (S := S128x128) hz2, View.ld_unit_zero (S := S1x128x128) hz3]

/-- At a reset point the body stores the zero block, reads it back and leaves its update. -/
theorem out_A (c : Dev nD) (i : grid1.Coords) (a2 : Memref sig .tc .vmem S2000x128 .f32) (h2 : a2.IsWhole)
    (a3 : Memref sig .tc .vmem S2000x128 .bf16) (h3 : a3.IsWhole) (a4 : Memref sig .tc .vmem S128x128 .bf16) (h4 : a4.IsWhole)
    (a5 : Memref sig .tc .vmem S128x128 .bf16) (h5 : a5.IsWhole) (a6 : Memref sig .tc .vmem S1x128x128 .f32) (h6 : a6.IsWhole)
    (hc : cond1_0 i) (x0 : Vec F S2000x128 .f32) (x1 : Vec F S2000x128 .bf16) (x2 x3 : Vec F S128x128 .bf16) :
    out1_A_4 c i a2 h2 a3 h3 a4 h4 a5 h5 a6 h6 hc x0 x1 x2 x3 = k1_pay2 x1 x2 x3 x0 (k1_pay1 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x128x128) hz3]
  simp only [View.readAt_eq_ld, h2.read_unread, h3.read_unread, h4.read_unread, h5.read_unread,
    View.ld_unit_zero (S := S2000x128) hz2, View.ld_unit_zero (S := S128x128) hz2, View.ld_unit_zero (S := S1x128x128) hz3,
    View.readCov_unit_zero (S := S1x128x128) _ hz3]

end Pieces

/-! ## The blocks of a point, read off the arrays -/

section Value
variable (V : (c : Dev nD) → (b : Ref sig .tc) → Buf (Elt Ideal) ((c : Thread nD τ).loc b))

theorem tlt (t : Fin cfg1.N) : t.val < 50 := lt_of_lt_of_eq t.isLt (show cfg1.N = 50 from N_1)

/-- The printed index maps over the grid: at point `t` the two row windows sit at block `t`, the two table windows at
    block zero, and the result window at block `t / 25` of the stack (the core's table). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 25 ∧ win1_4.index t (1 : Fin 3) = 0 ∧ win1_4.index t (2 : Fin 3) = 0 :=
  (by decide +kernel : ∀ t : Fin grid1.N, _)

/-- The blocks of point `t` by their literal types: the rows, the zero-one table's rows, the two halves of the mean table. -/
abbrev hblk (c : Dev nD) (t : Fin cfg1.N) : FVec Ideal S2000x128 .f32 := iblk1 V c 0 t
abbrev oblk (c : Dev nD) (t : Fin cfg1.N) : FVec Ideal S2000x128 .bf16 := iblk1 V c 1 t
abbrev hiblk (c : Dev nD) (t : Fin cfg1.N) : FVec Ideal S128x128 .bf16 := iblk1 V c 2 t
abbrev loblk (c : Dev nD) (t : Fin cfg1.N) : FVec Ideal S128x128 .bf16 := iblk1 V c 3 t

/-- Row `r` of the rows' block at point `t` is row `2000 t + r` of the array. -/
theorem hblk_apply (c : Dev nD) (t : Fin cfg1.N) (r : Fin 2000) (j : Fin 128) :
    hblk V c t (ix2 r j) = nodes (V c main_v36_0) (GIN.nodeOf ⟨t.val, tlt t⟩ r) j := by
  obtain ⟨e0, e1, -⟩ := idx_facts t
  show V c main_v36_0 (((cfg1.win 0).blk t).view.emb (ix2 r j)) = V c main_v36_0 (ix2 (GIN.nodeOf ⟨t.val, tlt t⟩ r) j)
  congr 1
  funext a; apply Fin.ext
  match a with
  | ⟨0, _⟩ => show win1_0.index t (0 : Fin 2) * 2000 + 1 * r.val = 2000 * t.val + r.val; omega
  | ⟨1, _⟩ => show win1_0.index t (1 : Fin 2) * 128 + 1 * j.val = j.val; omega

/-- Row `r` of the zero-one table's block at point `t` is row `2000 t + r` of the table. -/
theorem oblk_apply (c : Dev nD) (t : Fin cfg1.N) (r : Fin 2000) (g : Fin 128) :
    oblk V c t (ix2 r g) = nodes (V c main_v26) (GIN.nodeOf ⟨t.val, tlt t⟩ r) g := by
  obtain ⟨-, -, e0, e1, -⟩ := idx_facts t
  show V c main_v26 (((cfg1.win 1).blk t).view.emb (ix2 r g)) = V c main_v26 (ix2 (GIN.nodeOf ⟨t.val, tlt t⟩ r) g)
  congr 1
  funext a; apply Fin.ext
  match a with
  | ⟨0, _⟩ => show win1_1.index t (0 : Fin 2) * 2000 + 1 * r.val = 2000 * t.val + r.val; omega
  | ⟨1, _⟩ => show win1_1.index t (1 : Fin 2) * 128 + 1 * g.val = g.val; omega

/-- The first half of the mean table is fetched whole. -/
theorem hiblk_apply (c : Dev nD) (t : Fin cfg1.N) (g j : Fin 128) :
    hiblk V c t (ix2 g j) = tab (V c main_v47) g j := by
  obtain ⟨-, -, -, -, e0, e1, -⟩ := idx_facts t
  show V c main_v47 (((cfg1.win 2).blk t).view.emb (ix2 g j)) = V c main_v47 (ix2 g j)
  congr 1
  funext a; apply Fin.ext
  match a with
  | ⟨0, _⟩ => show win1_2.index t (0 : Fin 2) * 128 + 1 * g.val = g.val; omega
  | ⟨1, _⟩ => show win1_2.index t (1 : Fin 2) * 128 + 1 * j.val = j.val; omega

/-- The second half of the mean table is fetched whole. -/
theorem loblk_apply (c : Dev nD) (t : Fin cfg1.N) (g j : Fin 128) :
    loblk V c t (ix2 g j) = tab (V c main_v50) g j := by
  obtain ⟨-, -, -, -, -, -, e0, e1, -⟩ := idx_facts t
  show V c main_v50 (((cfg1.win 3).blk t).view.emb (ix2 g j)) = V c main_v50 (ix2 g j)
  congr 1
  funext a; apply Fin.ext
  match a with
  | ⟨0, _⟩ => show win1_3.index t (0 : Fin 2) * 128 + 1 * g.val = g.val; omega
  | ⟨1, _⟩ => show win1_3.index t (1 : Fin 2) * 128 + 1 * j.val = j.val; omega

/-! ## A point's contribution is its tile's -/

/-- The zero-one table and the squared deviations as the region finds them. -/
abbrev ohT (c : Dev nD) : GIN.Nodes := nodes (V c main_v26)
abbrev sqT (c : Dev nD) : GIN.Nodes :=
  GIN.sq (GIN.subRaw (nodes (V c main_v26)) (nodes (V c main_v36_0)) (tab (V c main_v47)) (tab (V c main_v50)))

/-- The squared deviation the body forms at row `r` of point `t` is that of node `2000 t + r`. -/
theorem sqd_blk (c : Dev nD) (t : Fin cfg1.N) (r : Fin 2000) (j : Fin 128) :
    sqd (oblk V c t) (hiblk V c t) (loblk V c t) (hblk V c t) r j = sqT V c (GIN.nodeOf ⟨t.val, tlt t⟩ r) j := by
  unfold sqd
  rw [hblk_apply]
  simp only [oblk_apply, hiblk_apply, loblk_apply]
  rfl

/-- What point `t` adds to the table is tile `t`'s contribution. -/
theorem tile_eq (c : Dev nD) (t : Fin cfg1.N) (g j : Fin 128) :
    (∑ r : Fin 2000, oblk V c t (ix2 r g) * sqd (oblk V c t) (hiblk V c t) (loblk V c t) (hblk V c t) r j)
      + ∑ r : Fin 2000, oblk V c t (ix2 r g)
          * (sqd (oblk V c t) (hiblk V c t) (loblk V c t) (hblk V c t) r j - sqd (oblk V c t) (hiblk V c t) (loblk V c t) (hblk V c t) r j)
      = GIN.tileC (ohT V c) (sqT V c) t.val g j := by
  rw [show GIN.tileC (ohT V c) (sqT V c) t.val = GIN.tileContrib (ohT V c) (sqT V c) ⟨t.val, tlt t⟩ from dif_pos (tlt t)]
  unfold GIN.tileContrib GIN.tileSum
  refine congrArg₂ (· + ·) (Finset.sum_congr rfl fun r _ => ?_) (Finset.sum_congr rfl fun r _ => ?_)
  · rw [oblk_apply, sqd_blk]
  · rw [oblk_apply, sqd_blk]

/-! ## The running table -/

/-- THE RUNNING TABLE: after point `n` the table's buffer holds the running sum of the tiles' contributions since the
    core's first point — by induction on the point, the two cases as the body's branch selects them. -/
theorem acc_eq (c : Dev nD) (g j : Fin 128) : ∀ (n : ℕ) (hn : n < cfg1.N) (u : Fin 1),
    (outsAt1 V c n hn : FVec Ideal S1x128x128 .f32) (ix3 u g j)
      = GIN.runAcc (fun n => GIN.tileC (ohT V c) (sqT V c) n g j) n
  | 0, hn, u => by
    rw [outsAt1_A V c ⟨0, hn⟩ (Nat.zero_mod 25)]
    refine (congrFun (out_A (F := Ideal) c (grid1.coords ⟨0, hn⟩) (ms1_0 ⟨0, hn⟩) (hs1_0 ⟨0, hn⟩) (ms1_1 ⟨0, hn⟩) (hs1_1 ⟨0, hn⟩)
      (ms1_2 ⟨0, hn⟩) (hs1_2 ⟨0, hn⟩) (ms1_3 ⟨0, hn⟩) (hs1_3 ⟨0, hn⟩) (ms1_4 ⟨0, hn⟩) (hs1_4 ⟨0, hn⟩)
      ((hcond1_0 ⟨0, hn⟩).mpr (Nat.zero_mod 25)) (iblk1 V c 0 ⟨0, hn⟩) (iblk1 V c 1 ⟨0, hn⟩) (iblk1 V c 2 ⟨0, hn⟩) (iblk1 V c 3 ⟨0, hn⟩))
      (ix3 u g j)).trans ?_
    refine (pay2_apply (oblk V c ⟨0, hn⟩) (hiblk V c ⟨0, hn⟩) (loblk V c ⟨0, hn⟩) (hblk V c ⟨0, hn⟩) (k1_pay1 (F := Ideal)) u g j).trans ?_
    rw [pay1_apply]
    exact congrArg (0 + ·) (tile_eq V c ⟨0, hn⟩ g j)
  | n + 1, hn, u => by
    by_cases h0 : (n + 1) % 25 = 0
    · rw [outsAt1_A V c ⟨n + 1, hn⟩ h0]
      refine (congrFun (out_A (F := Ideal) c (grid1.coords ⟨n + 1, hn⟩) (ms1_0 ⟨n + 1, hn⟩) (hs1_0 ⟨n + 1, hn⟩) (ms1_1 ⟨n + 1, hn⟩) (hs1_1 ⟨n + 1, hn⟩)
        (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
        (ix3 u g j)).trans ?_
      refine (pay2_apply (oblk V c ⟨n + 1, hn⟩) (hiblk V c ⟨n + 1, hn⟩) (loblk V c ⟨n + 1, hn⟩) (hblk V c ⟨n + 1, hn⟩) (k1_pay1 (F := Ideal)) u g j).trans ?_
      rw [pay1_apply]
      refine Eq.trans ?_ (if_pos h0).symm
      exact congrArg (0 + ·) (tile_eq V c ⟨n + 1, hn⟩ g j)
    · rw [outsAt1_B V c ⟨n + 1, hn⟩ h0]
      refine (congrFun (out_B (F := Ideal) c (grid1.coords ⟨n + 1, hn⟩) (ms1_0 ⟨n + 1, hn⟩) (hs1_0 ⟨n + 1, hn⟩) (ms1_1 ⟨n + 1, hn⟩) (hs1_1 ⟨n + 1, hn⟩)
        (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩)
        (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
        (outsAt1 V c n (Nat.lt_of_succ_lt hn)))
        (ix3 u g j)).trans ?_
      refine (pay2_apply (oblk V c ⟨n + 1, hn⟩) (hiblk V c ⟨n + 1, hn⟩) (loblk V c ⟨n + 1, hn⟩) (hblk V c ⟨n + 1, hn⟩) (outsAt1 V c n (Nat.lt_of_succ_lt hn)) u g j).trans ?_
      refine Eq.trans ?_ (if_neg h0).symm
      exact congrArg₂ (· + ·) (acc_eq c g j n (Nat.lt_of_succ_lt hn) 0) (tile_eq V c ⟨n + 1, hn⟩ g j)

end Value

/-! ## The table's array after the region -/

section Final
variable (V : (c : Dev nD) → (b : Ref sig .tc) → Buf (Elt Ideal) ((c : Thread nD τ).loc b))

/-- The running table at any index of its buffer. -/
theorem acc_idx (c : Dev nD) (n : ℕ) (hn : n < cfg1.N) (y : S1x128x128.Idx) :
    (outsAt1 V c n hn : FVec Ideal S1x128x128 .f32) y
      = GIN.runAcc (fun n => GIN.tileC (ohT V c) (sqT V c) n (y 1) (y 2)) n := by
  rw [eq_ix3 y]
  exact acc_eq V c (y 1) (y 2) n hn (y 0)

/-- The stack of the two cores' tables: table `k` is the running table after the core's last point `25 k + 24`. -/
def coreTabs (c : Dev nD) : FVec Ideal S2x128x128 .f32 :=
  fun i => GIN.runAcc (fun n => GIN.tileC (ohT V c) (sqT V c) n (i 1) (i 2)) (25 * (i 0).val + 24)

/-- WHAT A FLUSHING POINT WRITES BACK (the last point of a core, `t % 25 = 24`) is block `t / 25` of the stack. -/
theorem flushed_eq (c : Dev nD) (t : Fin cfg1.N) (hf : (cfg1.win 4).flush t = true) :
    (dat1 V c).flushed 4 t = ((cfg1.win 4).blk t).view.read (Elt Ideal) (coreTabs V c) := by
  have h24 : t.val % 25 = 24 := (flush1_4 t).mp hf
  have ht : t.val < 50 := tlt t
  obtain ⟨-, -, -, -, -, -, -, -, e0, e1, e2⟩ := idx_facts t
  show (cfg1.win 4).cut (grid1.coords t) ((dat1 V c).after 4 t) = _
  rw [after1_4]
  funext y
  have hy0 : (y 0).val < 1 := (y 0).isLt
  have hy1 : (y 1).val < 128 := (y 1).isLt
  have hy2 : (y 2).val < 128 := (y 2).isLt
  have hE : ((cfg1.win 4).blk t).view.emb y
      = ix3 (⟨t.val / 25, by omega⟩ : Fin 2) (⟨(y 1).val, hy1⟩ : Fin 128) (⟨(y 2).val, hy2⟩ : Fin 128) := by
    funext a; apply Fin.ext
    match a with
    | ⟨0, _⟩ => show win1_4.index t (0 : Fin 3) * 1 + 1 * (y 0).val = t.val / 25; omega
    | ⟨1, _⟩ => show win1_4.index t (1 : Fin 3) * 128 + 1 * (y 1).val = (y 1).val; omega
    | ⟨2, _⟩ => show win1_4.index t (2 : Fin 3) * 128 + 1 * (y 2).val = (y 2).val; omega
  show (outsAt1 V c t.val t.isLt : FVec Ideal S1x128x128 .f32) y = coreTabs V c (((cfg1.win 4).blk t).view.emb y)
  rw [hE, acc_idx V c t.val t.isLt y]
  show _ = GIN.runAcc (fun n => GIN.tileC (ohT V c) (sqT V c) n (⟨(y 1).val, hy1⟩ : Fin 128) (⟨(y 2).val, hy2⟩ : Fin 128)) (25 * (t.val / 25) + 24)
  rw [show 25 * (t.val / 25) + 24 = t.val by omega]
  rfl

/-- An index of the stack is in point `t`'s block iff each coordinate is in the block's range on its axis. -/
theorem mem_blk (t : Fin cfg1.N) (i : S2x128x128.Idx) :
    i ∈ ((cfg1.win 4).blk t).view.set
      ↔ ∀ a : Fin 3, win1_4.index t a * S1x128x128.size a ≤ (i a).val ∧ (i a).val < win1_4.index t a * S1x128x128.size a + S1x128x128.size a := by
  show i ∈ ((View.whole main_v51).slice (win1_4.rect t)).set ↔ _
  rw [View.set_slice_whole, Rect.mem_set_unit]
  exact Iff.rfl

/-- The two flushed blocks cover the stack: table `k` is flushed at point `25 k + 24`. -/
theorem cover (i : S2x128x128.Idx) :
    ∃ t : Fin cfg1.N, (cfg1.win 4).flush t = true ∧ i ∈ ((cfg1.win 4).blk t).view.set := by
  have hi0 : (i 0).val < 2 := (i 0).isLt
  have hi1 : (i 1).val < 128 := (i 1).isLt
  have hi2 : (i 2).val < 128 := (i 2).isLt
  have hlt : 25 * (i 0).val + 24 < cfg1.N :=
    lt_of_lt_of_eq (show 25 * (i 0).val + 24 < 50 by omega) (show cfg1.N = 50 from N_1).symm
  refine ⟨⟨25 * (i 0).val + 24, hlt⟩, (flush1_4 _).mpr (by show (25 * (i 0).val + 24) % 25 = 24; omega), ?_⟩
  obtain ⟨-, -, -, -, -, -, -, -, e0, e1, e2⟩ := idx_facts ⟨25 * (i 0).val + 24, hlt⟩
  have e0' : win1_4.index ⟨25 * (i 0).val + 24, hlt⟩ (0 : Fin 3) = (i 0).val := by
    rw [e0]; show (25 * (i 0).val + 24) / 25 = _; omega
  rw [mem_blk]
  intro a
  match a with
  | ⟨0, _⟩ => show win1_4.index _ (0 : Fin 3) * 1 ≤ (i 0).val ∧ (i 0).val < win1_4.index _ (0 : Fin 3) * 1 + 1; omega
  | ⟨1, _⟩ => show win1_4.index _ (1 : Fin 3) * 128 ≤ (i 1).val ∧ (i 1).val < win1_4.index _ (1 : Fin 3) * 128 + 128; omega
  | ⟨2, _⟩ => show win1_4.index _ (2 : Fin 3) * 128 ≤ (i 2).val ∧ (i 2).val < win1_4.index _ (2 : Fin 3) * 128 + 128; omega

/-- THE REGION'S VALUE: after the region, table `k` of the result stack is core `k`'s partial table of the squared
    deviations — the running sum of its 25 tiles' contributions. -/
theorem final (c : Dev nD) (k : Fin 2) :
    stack ((dat1 (F := Ideal) V c).arrAt 4 cfg1.N) k
      = GIN.coreAcc (nodes (V c main_v26))
          (GIN.sq (GIN.subRaw (nodes (V c main_v26)) (nodes (V c main_v36_0)) (tab (V c main_v47)) (tab (V c main_v50)))) k := by
  have h := (dat1 V c).arrAt_eq_of_cover 4 (coreTabs V c) (flushed_eq V c) cover
  funext g j
  exact (congrFun h (ix3 k g j)).trans rfl

end Final

end Cert.KernelIdeal.KReg1

end
-- ==== Proof.KReg0Pay5.lean ====
/-
  The second layer of a node's row, read entry by entry on a block of 2000 rows.

  The block's row `r` is scaled and shifted lane by lane (the first layer's scale and shift), cut off below at zero,
  multiplied by the second 128 × 128 weight table and shifted by the second bias row.  The resulting row is then
  normalised: its mean over the 128 lanes is subtracted, and the difference is multiplied by the inverse square root
  of the mean squared difference plus a small constant.  Last comes the second layer's scale, lane by lane; its shift
  is added by a later stage.  Read at row `r` and lane `j`, this is the normalised row of the linear layer at `j`
  times the scale's entry `j`.

  Everything that is not entrywise is read at an index by a small lemma of its own: a one-row array repeated over the
  rows, a column repeated over the lanes, a vector turned into a column, a sum over the lanes, and the product of
  the block with a table.
-/
import proofs.«428147_j72688026518088_3_alg».proof.Proof.Gen.KernelIdeal.Skeleton
import proofs.«428147_j72688026518088_3_alg».proof.Proof.KArr
import proofs.«428147_j72688026518088_3_alg».proof.Proof.SpecRaw
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KReg0Pay5

open Idealize.ShloMosaic Idealize.ShloMosaic.ValueIdx Cert.KernelIdeal Cert.KernelIdeal.Gen Cert.KernelIdeal.KArr

/-! ## Rows, columns and lane sums read at an index -/

/-- A one-row array, cast to its own shape and repeated over 2000 rows, reads its row's entry in every row. -/
theorem rowBcast_apply (v : FVec Ideal S1x128 .f32) (hc : S1x128.ShapeCasts S1x128) (hb : S1x128.Broadcasts S2000x128)
    (r : Fin 2000) (j : Fin 128) :
    broadcastTo S2000x128 (shapeCast S1x128 v hc) hb (ix2 r j) = row1 v j := by
  rw [shapeCast_self]
  exact broadcastTo_1b_ab_apply v hb r j

/-- A column of 2000 entries repeated over 128 lanes reads, in row `r`, the column's entry `r`. -/
theorem colBcast_apply (c : FVec Ideal S2000x1 .f32) (hb : S2000x1.Broadcasts S2000x128) (r : Fin 2000) (j : Fin 128) :
    broadcastTo S2000x128 c hb (ix2 r j) = c (ix2 r (0 : Fin 1)) := by
  refine broadcastTo_apply c hb (ix2 r j) (ix2 r (0 : Fin 1)) fun ax => ?_
  match ax with
  | ⟨0, _⟩ => rfl
  | ⟨1, _⟩ => rfl

/-- A 2000-vector cast to a column reads, in row `r`, the vector's entry `r`. -/
theorem colCast_apply (x : FVec Ideal S2000 .f32) (hc : S2000.ShapeCasts S2000x1) (r : Fin 2000) (u : Fin 1) :
    shapeCast S2000x1 x hc (ix2 r u) = x (ix1 r) :=
  shapeCast_apply x hc _ _ (by
    have hu : u.val = 0 := by omega
    rw [Shape.rowMajor_val_two, Shape.rowMajor_val_one]
    show r.val = r.val * 1 + u.val
    rw [hu, Nat.mul_one, Nat.add_zero])

/-- The sum over the 128 lanes of row `r`: the reduced index `r` with lane `k` put back is the entry `(r, k)`. -/
theorem laneSum_apply (src : FVec Ideal S2000x128 .f32) (h : S2000x128.Reduces [1] S2000)
    (hφ : FTy.f32 = FTy.f32 ∨ FTy.f32 = FTy.bf16)
    (hacc : (0x00000000#32 : BitVec FTy.f32.bits) = (0x00000000#32 : BitVec FTy.f32.bits)) (r : Fin 2000) :
    multiReduction (F := Ideal) .add [1] S2000 src 0x00000000#32 h hφ hacc (ix1 r) = ∑ k : Fin 128, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The inverse square root, entry by entry. -/
theorem rsqrtv_apply {s : Shape} (a : FVec Ideal s .f32) (i : s.Idx) : rsqrt a i = Ideal.rsqrt (a i) := rfl

/-! ## The block times a table -/

/-- The dimension numbers of the product: the block's lane axis is summed against the table's row axis. -/
abbrev D : DotDims S2000x128 S128x128 S2000x128 := dot_S2000x128_S128x128_S2000x128_1_0_0_1_n_n

/-- The block is read in the result's row. -/
theorem lhs_ax0 (r : Fin 2000) (j : Fin 128) (k : D.contr.Idx) : (D.lhsIdx (ix2 r j) k 0).val = r.val := rfl

/-- The block is read at the summed lane. -/
theorem lhs_ax1 (r : Fin 2000) (j : Fin 128) (k : D.contr.Idx) : (D.lhsIdx (ix2 r j) k 1).val = (k ⟨0, Nat.one_pos⟩).val :=
  D.lhsIdx_val_of_single rfl _ _

/-- The table is read in the row of the summed lane. -/
theorem rhs_ax0 (r : Fin 2000) (j : Fin 128) (k : D.contr.Idx) : (D.rhsIdx (ix2 r j) k 0).val = (k ⟨0, Nat.one_pos⟩).val :=
  D.rhsIdx_val_of_single rfl _ _

/-- The table is read in the result's column. -/
theorem rhs_ax1 (r : Fin 2000) (j : Fin 128) (k : D.contr.Idx) : (D.rhsIdx (ix2 r j) k 1).val = j.val := rfl

/-- The product of a block of 2000 rows with a 128 × 128 table, started from zero, read at row `r` and column `j`: the
    sum over the 128 lanes of the row's entries times the table's column. -/
theorem mm_apply (lhs : FVec Ideal S2000x128 .bf16) (rhs : FVec Ideal S128x128 .bf16) (r : Fin 2000) (j : Fin 128) :
    matmul (F := Ideal) D none lhs rhs (constant (F := Ideal) S2000x128 .f32 0x00000000#32) (ix2 r j)
      = ∑ k : Fin 128, lhs (ix2 r k) * rhs (ix2 k j) := by
  refine (Ideal.matmul_constant_zero_apply D none lhs rhs (ix2 r j)).trans ?_
  rw [← Equiv.sum_comp (contrEquiv1 D 128 rfl rfl).symm]
  refine Finset.sum_congr rfl fun k _ => ?_
  have hk := contrEquiv1_symm_val D 128 rfl rfl k
  have hl : D.lhsIdx (ix2 r j) ((contrEquiv1 D 128 rfl rfl).symm k) = ix2 r k := by
    funext a
    refine Fin.ext ?_
    match a with
    | ⟨0, _⟩ => exact lhs_ax0 _ _ _
    | ⟨1, _⟩ => exact (lhs_ax1 _ _ _).trans hk
  have hr : D.rhsIdx (ix2 r j) ((contrEquiv1 D 128 rfl rfl).symm k) = ix2 k j := by
    funext a
    refine Fin.ext ?_
    match a with
    | ⟨0, _⟩ => exact (rhs_ax0 _ _ _).trans hk
    | ⟨1, _⟩ => exact rhs_ax1 _ _ _
  rw [hl, hr]

/-! ## The second layer's normalised row, scaled -/

/-- Row `r`, lane `j` of the block after the second layer's linear map, normalisation and scale.  The index is pushed
    through the entrywise operations down to the two lane sums (the mean's and the mean squared difference's); these
    are opened, the index is pushed through their summands, which meet the mean's lane sum once more; that one is
    opened too.  What is left is the specification's term with the zero word for `0`. -/
theorem pay5_apply (v36 : FVec Ideal S2000x128 .f32) (v37 v41 : Vec Ideal S1x128 .f32) (v48 : Vec Ideal S128x128 .f32)
    (v51 v73 : Vec Ideal S1x128 .f32) (r : Fin 2000) (j : Fin 128) :
    k0_pay5 (F := Ideal) v36 v37 v41 v48 v51 v73 (ix2 r j)
      = GIN.lncore (GIN.lin (tab v48) (row1 v51) (GIN.relu (fun k => v36 (ix2 r k) * row1 v37 k + row1 v41 k))) j * row1 v73 j := by
  unfold k0_pay5
  simp only [mulf_apply, addf_apply, subf_apply, divf_apply, maximumf_apply, broadcast_apply, truncf_apply, rsqrtv_apply,
    rowBcast_apply, colBcast_apply, colCast_apply, mm_apply]
  rw [laneSum_apply, laneSum_apply]
  simp only [mulf_apply, addf_apply, subf_apply, divf_apply, maximumf_apply, broadcast_apply, truncf_apply, rsqrtv_apply,
    rowBcast_apply, colBcast_apply, colCast_apply, mm_apply]
  rw [laneSum_apply]
  simp only [mulf_apply, addf_apply, subf_apply, divf_apply, maximumf_apply, broadcast_apply, truncf_apply, rsqrtv_apply,
    rowBcast_apply, colBcast_apply, colCast_apply, mm_apply]
  have hz : (FloatOps.ofBits FTy.f32 0x00000000#32 : Ideal .f32) = 0 := Ideal.ofBits_zero_f32
  simp only [hz, GIN.lncore, GIN.lin, GIN.rowMean, GIN.rowVar, GIN.relu, tab]
  rfl

end Cert.KernelIdeal.KReg0Pay5

end
-- ==== Proof.KReg0Pay.lean ====
/-
  The block of rows the first stage of the tiled program stores: each of the 2000 rows of a block goes through the
  three layers.  The stage's arithmetic is four terms over the values it loads: the first layer with its
  normalisation (without scale and shift), the second layer from there (scale and shift of the first normalisation,
  rectifier, linear layer, normalisation, scale), the shift row of the second normalisation, and the last layer
  (shift, rectifier, linear layer).  Each is read here at row `r` and column `j` as the row function of the
  specification applied to row `r`; their composite is the three layers of row `r`.

  The operations met: a product of a block with a 128 × 128 table (a sum over the inner coordinate at exact
  values), the sum along a row, a per-row number carried as a 2000 × 1 column and spread back over the columns,
  a 1 × 128 row spread over the rows, and the change of float format, which is the identity on exact values.
-/
import proofs.«428147_j72688026518088_3_alg».proof.Proof.Gen.KernelIdeal.Skeleton
import proofs.«428147_j72688026518088_3_alg».proof.Proof.KArr
import proofs.«428147_j72688026518088_3_alg».proof.Proof.SpecRaw
import proofs.«428147_j72688026518088_3_alg».proof.Proof.KReg0Pay5
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KReg0Pay

open Idealize.ShloMosaic Idealize.ShloMosaic.ValueIdx Cert.KernelIdeal Cert.KernelIdeal.Gen Cert.KernelIdeal.KArr

/-! ## A block times a weight table, read at an entry -/

theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product of a 2000 × 128 block with a 128 × 128 table into a zero accumulator is, at row `r` and column `j`,
    the sum over the 128 inner coordinates. -/
theorem matmul_row {φ₁ φ₂ : FTy} (a : FVec Ideal S2000x128 φ₁) (w : FVec Ideal S128x128 φ₂) (r : Fin 2000) (j : Fin 128) :
    matmul dot_S2000x128_S128x128_S2000x128_1_0_0_1_n_n none a w (constant (F := Ideal) S2000x128 .f32 0x00000000#32) (ix2 r j)
      = ∑ k : Fin 128, a (ix2 r k) * w (ix2 k j) := by
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j)
      ((contrEquiv1 dot_S2000x128_S128x128_S2000x128_1_0_0_1_n_n 128 rfl rfl).symm k) = ix2 r k :=
    funext fun a => Fin.ext (by
      match a with
      | ⟨0, _⟩ => exact lhs_axis0 _ _
      | ⟨1, _⟩ => exact (lhs_axis1 _ _).trans hk)
  have er : dot_S2000x128_S128x128_S2000x128_1_0_0_1_n_n.rhsIdx (ix2 r j)
      ((contrEquiv1 dot_S2000x128_S128x128_S2000x128_1_0_0_1_n_n 128 rfl rfl).symm k) = ix2 k j :=
    funext fun a => Fin.ext (by
      match a with
      | ⟨0, _⟩ => exact (rhs_axis0 _ _).trans hk
      | ⟨1, _⟩ => exact rhs_axis1 _ _)
  rw [el, er]

/-! ## The sum along a row, and the two broadcasts that carry a per-row number back to the block -/

/-- The sum of a block along its second axis is, at row `r`, the sum of the row's 128 entries. -/
theorem lanesum_row (v : FVec Ideal S2000x128 .f32) (r : Fin 2000) :
    multiReduction .add [1] S2000 v 0x00000000#32 reduces_S2000x128_S2000 (.inl rfl) rfl (ix1 r) = ∑ k : Fin 128, v (ix2 r k) := by
  refine (Ideal.multiReduction_add_single v 0x00000000#32 reduces_S2000x128_S2000 (.inl rfl) rfl (ix1 r)).trans ?_
  refine Finset.sum_congr rfl fun k _ => congrArg v ?_
  funext a
  match a with
  | ⟨0, _⟩ => rfl
  | ⟨1, _⟩ => rfl

/-- A 2000-vector viewed as a 2000 × 1 column reads, at `(r, z)`, its entry `r`. -/
theorem col_cast {α : Type} (v : S2000.Idx → α) (r : Fin 2000) (z : Fin 1) :
    shapeCast S2000x1 v shapeCasts_S2000_S2000x1 (ix2 r z) = v (ix1 r) :=
  shapeCast_apply v _ _ _ (by
    have hz : z.val = 0 := by omega
    rw [Shape.rowMajor_val_one, Shape.rowMajor_val_two]
    show r.val = r.val * 1 + z.val
    omega)

/-- A 2000 × 1 column spread over the 128 columns reads, at `(r, j)`, the column's entry `r`. -/
theorem col_bcast {α : Type} (v : S2000x1.Idx → α) (r : Fin 2000) (j : Fin 128) :
    broadcastTo S2000x128 v broadcasts_S2000x1_S2000x128 (ix2 r j) = v (ix2 r (0 : Fin 1)) := by
  refine broadcastTo_apply v _ (ix2 r j) (ix2 r (0 : Fin 1)) fun ax => ?_
  match ax with
  | ⟨0, _⟩ =>
    exact (if_neg (show ¬(2000 : ℕ) = 1 by decide)).symm
  | ⟨1, _⟩ => rfl

/-- A 1 × 128 row, cast to its own shape and spread over the 2000 rows, reads at `(r, j)` its entry `j`. -/
theorem row_bcast {α : Type} (v : S1x128.Idx → α) (r : Fin 2000) (j : Fin 128) :
    broadcastTo S2000x128 (shapeCast S1x128 v shapeCasts_S1x128_S1x128) broadcasts_S1x128_S2000x128 (ix2 r j) = v (ix2 (0 : Fin 1) j) := by
  rw [shapeCast_self]
  exact broadcastTo_1b_ab_apply v _ r j

/-- The entry of a 1 × 1 array taken at position (0, 0). -/
theorem extract_one {α : Type} (v : S1x1.Idx → α) :
    extractAt ![0, 0] v inpos_S1x1_p0_0 = v (ix2 (0 : Fin 1) (0 : Fin 1)) := by
  unfold extractAt
  refine congrArg v (funext fun a => Fin.ext ?_)
  match a with
  | ⟨0, _⟩ => rfl
  | ⟨1, _⟩ => rfl

/-! ## The stages of the row function on a block -/

/-- A linear layer on a block: block and weights through the change of format (the identity on exact values), their
    product, plus the bias row spread over the rows. -/
def linStage (x : FVec Ideal S2000x128 .f32) (W : Vec Ideal S128x128 .f32) (b : Vec Ideal S1x128 .f32) : FVec Ideal S2000x128 .f32 :=
  addf (matmul dot_S2000x128_S128x128_S2000x128_1_0_0_1_n_n none (truncf .bf16 x bitsLt_bf16_f32) (truncf .bf16 W bitsLt_bf16_f32)
      (constant (F := Ideal) S2000x128 .f32 0x00000000#32))
    (broadcastTo S2000x128 (shapeCast S1x128 b shapeCasts_S1x128_S1x128) broadcasts_S1x128_S2000x128)

/-- Row `r` of the linear layer's block is the linear layer of row `r`. -/
theorem linStage_apply (x : FVec Ideal S2000x128 .f32) (W : Vec Ideal S128x128 .f32) (b : Vec Ideal S1x128 .f32) (r : Fin 2000) (j : Fin 128) :
    linStage x W b (ix2 r j) = GIN.lin (tab W) (row1 b) (fun k => x (ix2 r k)) j := by
  unfold linStage
  rw [addf_apply, matmul_row, row_bcast]
  rfl

/-- The per-row mean of a block, as a column: the sum along the row, divided by 128. -/
def meanCol (y : FVec Ideal S2000x128 .f32) : FVec Ideal S2000x1 .f32 :=
  divf (shapeCast S2000x1 (multiReduction .add [1] S2000 y 0x00000000#32 reduces_S2000x128_S2000 (.inl rfl) rfl) shapeCasts_S2000_S2000x1)
    (broadcast S2000x1 (Scalar.ofBits .f32 0x43000000#32))

theorem meanCol_apply (y : FVec Ideal S2000x128 .f32) (r : Fin 2000) (z : Fin 1) :
    meanCol y (ix2 r z) = GIN.rowMean (fun k => y (ix2 r k)) := by
  unfold meanCol
  rw [divf_apply, col_cast, lanesum_row]
  rfl

/-- A block minus its per-row mean. -/
def centred (y : FVec Ideal S2000x128 .f32) : FVec Ideal S2000x128 .f32 :=
  subf y (broadcastTo S2000x128 (meanCol y) broadcasts_S2000x1_S2000x128)

theorem centred_apply (y : FVec Ideal S2000x128 .f32) (r : Fin 2000) (j : Fin 128) :
    centred y (ix2 r j) = y (ix2 r j) - GIN.rowMean (fun k => y (ix2 r k)) := by
  unfold centred
  rw [subf_apply, col_bcast, meanCol_apply]

/-- The normalised block: the centred block times the inverse square root of the per-row variance plus the small
    constant. -/
def normStage (y : FVec Ideal S2000x128 .f32) : FVec Ideal S2000x128 .f32 :=
  mulf (centred y)
    (broadcastTo S2000x128
      (rsqrt (addf (meanCol (mulf (centred y) (centred y))) (broadcast S2000x1 (Scalar.ofBits .f32 0x3727C5AC#32))))
      broadcasts_S2000x1_S2000x128)

theorem normStage_apply (y : FVec Ideal S2000x128 .f32) (r : Fin 2000) (j : Fin 128) :
    normStage y (ix2 r j)
      = (y (ix2 r j) - GIN.rowMean (fun k => y (ix2 r k)))
        * Ideal.rsqrt (GIN.rowVar (fun k => y (ix2 r k)) + GIN.weps) := by
  unfold normStage
  rw [mulf_apply, centred_apply, col_bcast]
  refine congrArg (fun t => (y (ix2 r j) - GIN.rowMean (fun k => y (ix2 r k))) * Ideal.rsqrt (t + GIN.weps)) ?_
  refine (meanCol_apply _ r 0).trans ?_
  show Ideal.div (∑ k, mulf (centred y) (centred y) (ix2 r k)) GIN.w128
    = Ideal.div (∑ k, (y (ix2 r k) - GIN.rowMean (fun k => y (ix2 r k))) * (y (ix2 r k) - GIN.rowMean (fun k => y (ix2 r k)))) GIN.w128
  refine congrArg (fun s => Ideal.div s GIN.w128) (Finset.sum_congr rfl fun k _ => ?_)
  rw [mulf_apply, centred_apply]

/-- Row `r` of the normalised block is the normalised row `r`. -/
theorem normStage_row (y : FVec Ideal S2000x128 .f32) (r : Fin 2000) (j : Fin 128) :
    normStage y (ix2 r j) = GIN.lncore (fun k => y (ix2 r k)) j :=
  normStage_apply y r j

/-- Row `r` of the linear layer's block, as a row. -/
theorem linStage_row (x : FVec Ideal S2000x128 .f32) (W : Vec Ideal S128x128 .f32) (b : Vec Ideal S1x128 .f32) (r : Fin 2000) :
    (fun k => linStage x W b (ix2 r k)) = GIN.lin (tab W) (row1 b) (fun k => x (ix2 r k)) :=
  funext fun k => linStage_apply x W b r k

/-! ## The four terms of the stage -/

/-- Row `r` of a 2000 × 128 block. -/
def blkRow (x : S2000x128.Idx → EReal) (r : Fin 2000) : GIN.Row := fun k => x (ix2 r k)

/-- The first term is the first linear layer of `e * node + agg`, normalised. -/
theorem pay4_eq (v3 : Vec Ideal S1x1 .f32) (v5 v6 : Vec Ideal S2000x128 .f32) (v12 : Vec Ideal S128x128 .f32) (v15 : Vec Ideal S1x128 .f32) :
    k0_pay4 (F := Ideal) v3 v5 v6 v12 v15
      = normStage (linStage (addf (mulf (broadcast S2000x128 (extractAt ![0, 0] v3 inpos_S1x1_p0_0)) v5)
          (shapeCast S2000x128 v6 shapeCasts_S2000x128_S2000x128)) v12 v15) := rfl

theorem pay4_apply (v3 : Vec Ideal S1x1 .f32) (v5 v6 : Vec Ideal S2000x128 .f32) (v12 : Vec Ideal S128x128 .f32) (v15 : Vec Ideal S1x128 .f32) (r : Fin 2000) (j : Fin 128) :
    k0_pay4 (F := Ideal) v3 v5 v6 v12 v15 (ix2 r j) = GIN.lncore (GIN.lin (tab v12) (row1 v15) (fun k => one1 v3 * v5 (ix2 r k) + v6 (ix2 r k))) j := by
  rw [pay4_eq, normStage_row, linStage_row]
  refine congrArg (fun x => GIN.lncore (GIN.lin (tab v12) (row1 v15) x) j) (funext fun k => ?_)
  rw [addf_apply, mulf_apply, broadcast_apply, extract_one, shapeCast_self]
  rfl

/-- The third term is the shift row of the second normalisation on every row. -/
theorem pay6_apply (v77 : Vec Ideal S1x128 .f32) (r : Fin 2000) (j : Fin 128) : k0_pay6 (F := Ideal) v77 (ix2 r j) = row1 v77 j := by
  unfold k0_pay6
  exact row_bcast v77 r j

/-- The last term is the last linear layer of the rectified sum of its two block operands. -/
theorem pay1_eq (v76 v79 : FVec Ideal S2000x128 .f32) (v84 : Vec Ideal S128x128 .f32) (v87 : Vec Ideal S1x128 .f32) :
    k0_pay1 (F := Ideal) v76 v79 v84 v87
      = linStage (maximumf (addf v76 v79) (broadcast S2000x128 (Scalar.ofBits .f32 0x00000000#32))) v84 v87 := rfl

theorem pay1_apply (v76 v79 : FVec Ideal S2000x128 .f32) (v84 : Vec Ideal S128x128 .f32) (v87 : Vec Ideal S1x128 .f32) (r : Fin 2000) (j : Fin 128) :
    k0_pay1 (F := Ideal) v76 v79 v84 v87 (ix2 r j) = GIN.lin (tab v84) (row1 v87) (GIN.relu (fun k => v76 (ix2 r k) + v79 (ix2 r k))) j := by
  rw [pay1_eq, linStage_apply]
  refine congrArg (fun x => GIN.lin (tab v84) (row1 v87) x j) (funext fun k => ?_)
  rw [maximumf_apply, addf_apply, broadcast_apply]
  show max (v76 (ix2 r k) + v79 (ix2 r k)) (Ideal.ofBits .f32 0x00000000#32) = max (v76 (ix2 r k) + v79 (ix2 r k)) 0
  rw [Ideal.ofBits_zero_f32]

/-! ## The stored block -/

/-- The block the stage stores, from the values it loads. -/
def h3blk (x0 : Vec Ideal S1x1 .f32) (x1 x2 : Vec Ideal S2000x128 .f32) (x4 : Vec Ideal S128x128 .f32) (x5 x6 x7 : Vec Ideal S1x128 .f32) (x8 : Vec Ideal S128x128 .f32) (x9 x10 x11 : Vec Ideal S1x128 .f32) (x12 : Vec Ideal S128x128 .f32) (x13 : Vec Ideal S1x128 .f32) : FVec Ideal S2000x128 .f32 :=
  k0_pay1 (k0_pay5 (k0_pay4 x0 x1 x2 x4 x5) x6 x7 x8 x9 x10) (k0_pay6 x11) x12 x13

/-- Row `r` of the stored block is the three layers of row `r` of `e * node + agg`. -/
theorem h3blk_apply (x0 : Vec Ideal S1x1 .f32) (x1 x2 : Vec Ideal S2000x128 .f32) (x4 : Vec Ideal S128x128 .f32) (x5 x6 x7 : Vec Ideal S1x128 .f32) (x8 : Vec Ideal S128x128 .f32) (x9 x10 x11 : Vec Ideal S1x128 .f32) (x12 : Vec Ideal S128x128 .f32) (x13 : Vec Ideal S1x128 .f32) (r : Fin 2000) (j : Fin 128) :
    h3blk x0 x1 x2 x4 x5 x6 x7 x8 x9 x10 x11 x12 x13 (ix2 r j)
      = GIN.mlp (tab x4) (row1 x5) (row1 x6) (row1 x7) (tab x8) (row1 x9) (row1 x10) (row1 x11) (tab x12) (row1 x13) (fun k => one1 x0 * x1 (ix2 r k) + x2 (ix2 r k)) j := by
  unfold h3blk
  rw [pay1_apply]
  have h1 : (fun k' => k0_pay4 (F := Ideal) x0 x1 x2 x4 x5 (ix2 r k') * row1 x6 k' + row1 x7 k')
      = GIN.lnorm (row1 x6) (row1 x7) (GIN.lin (tab x4) (row1 x5) (fun k => one1 x0 * x1 (ix2 r k) + x2 (ix2 r k))) :=
    funext fun k' => by rw [pay4_apply]; rfl
  have h2 : (fun k => k0_pay5 (F := Ideal) (k0_pay4 x0 x1 x2 x4 x5) x6 x7 x8 x9 x10 (ix2 r k) + k0_pay6 (F := Ideal) x11 (ix2 r k))
      = GIN.lnorm (row1 x10) (row1 x11) (GIN.lin (tab x8) (row1 x9) (GIN.relu
          (GIN.lnorm (row1 x6) (row1 x7) (GIN.lin (tab x4) (row1 x5) (fun k => one1 x0 * x1 (ix2 r k) + x2 (ix2 r k)))))) :=
    funext fun k => by rw [KReg0Pay5.pay5_apply, pay6_apply, h1]; rfl
  rw [h2]
  rfl

end Cert.KernelIdeal.KReg0Pay

end
-- ==== Proof.KReg0S.lean ====
/-
  The second result of the first stage of the tiled program: the per-core partial table of the per-graph sums.

  The grid has 50 points, 25 per core.  At each point the body forms, from the point's 2000 rows, the rows the
  three layers leave, and adds to a 128 × 128 table the product of the transposed zero-one block with those
  rows, taken as a pair (the rows, and the rows minus themselves).  The table is set to zero at the first point
  of each core (every 25th point) and written back to the core's slot of a 2 × 128 × 128 array after the core's
  last point.  So the array's table of core k is the running sum of the tiles' contributions after point
  25 k + 24, the sum restarted at every 25th point.

  The steps: one stored block at an entry (the table read before plus the two products, each product a sum over
  the block's 2000 rows); what each of the two cases of the body leaves in the table's block; the blocks the body
  reads at a point as rows 2000 t + r of the arrays; the running table by induction on the point; the array after
  the run from the two write-backs.
-/
import proofs.«428147_j72688026518088_3_alg».proof.Proof.Gen.KernelIdeal.Frame
import proofs.«428147_j72688026518088_3_alg».proof.Proof.KArr
import proofs.«428147_j72688026518088_3_alg».proof.Proof.SpecRaw
import proofs.«428147_j72688026518088_3_alg».proof.Proof.KReg0Pay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.KReg0S

open Idealize.ShloMosaic Idealize.ShloMosaic.TcCoe Idealize.ShloMosaic.ValueIdx Idealize.SL.Sem
open Cert.KernelIdeal Cert.KernelIdeal.Gen Cert.KernelIdeal.KArr

/-! ## The product of the transposed zero-one block with a block, at an entry

The contraction runs over the block's 2000 rows: entry (g, j) is the sum over the rows r of A r g * B r j. -/

theorem lhs_0 (i : S128x128.Idx) (q : dot_S2000x128_S2000x128_S128x128_0_0_1_1_n_n.contr.Idx) :
    (dot_S2000x128_S2000x128_S128x128_0_0_1_1_n_n.lhsIdx i q 0).val = (q ⟨0, by decide⟩).val :=
  dot_S2000x128_S2000x128_S128x128_0_0_1_1_n_n.lhsIdx_val_of_single rfl i q

theorem lhs_1 (i : S128x128.Idx) (q : dot_S2000x128_S2000x128_S128x128_0_0_1_1_n_n.contr.Idx) :
    (dot_S2000x128_S2000x128_S128x128_0_0_1_1_n_n.lhsIdx i q 1).val = (i 0).val := by
  unfold DotDims.lhsIdx
  rw [dif_neg (show ¬(1 : Fin S2000x128.rank) ∈ dot_S2000x128_S2000x128_S128x128_0_0_1_1_n_n.lhsBatch by decide), dif_pos (show (1 : Fin S2000x128.rank) ∈ dot_S2000x128_S2000x128_S128x128_0_0_1_1_n_n.lhsNonContracting by decide)]
  rfl

theorem rhs_0 (i : S128x128.Idx) (q : dot_S2000x128_S2000x128_S128x128_0_0_1_1_n_n.contr.Idx) :
    (dot_S2000x128_S2000x128_S128x128_0_0_1_1_n_n.rhsIdx i q 0).val = (q ⟨0, by decide⟩).val :=
  dot_S2000x128_S2000x128_S128x128_0_0_1_1_n_n.rhsIdx_val_of_single rfl i q

theorem rhs_1 (i : S128x128.Idx) (q : dot_S2000x128_S2000x128_S128x128_0_0_1_1_n_n.contr.Idx) :
    (dot_S2000x128_S2000x128_S128x128_0_0_1_1_n_n.rhsIdx i q 1).val = (i 1).val := by
  unfold DotDims.rhsIdx
  rw [dif_neg (show ¬(1 : Fin S2000x128.rank) ∈ dot_S2000x128_S2000x128_S128x128_0_0_1_1_n_n.rhsBatch by decide), dif_pos (show (1 : Fin S2000x128.rank) ∈ dot_S2000x128_S2000x128_S128x128_0_0_1_1_n_n.rhsNonContracting by decide)]
  rfl

/-- The transposed product into a zero table, at entry (g, j). -/
theorem ohT_matmul_apply (A B : FVec Ideal S2000x128 .bf16) (g j : Fin 128) :
    matmul dot_S2000x128_S2000x128_S128x128_0_0_1_1_n_n none A B (constant (F := Ideal) S128x128 .f32 0x00000000#32) (ix2 g j)
      = ∑ r : Fin 2000, A (ix2 r g) * B (ix2 r j) := by
  refine (Ideal.matmul_constant_zero_apply dot_S2000x128_S2000x128_S128x128_0_0_1_1_n_n none A B (ix2 g j)).trans ?_
  rw [← Equiv.sum_comp (contrEquiv1 dot_S2000x128_S2000x128_S128x128_0_0_1_1_n_n 2000 rfl rfl).symm]
  refine Finset.sum_congr rfl fun k _ => ?_
  have hk := contrEquiv1_symm_val dot_S2000x128_S2000x128_S128x128_0_0_1_1_n_n 2000 rfl rfl k
  have el : dot_S2000x128_S2000x128_S128x128_0_0_1_1_n_n.lhsIdx (ix2 g j) ((contrEquiv1 dot_S2000x128_S2000x128_S128x128_0_0_1_1_n_n 2000 rfl rfl).symm k) = ix2 k g := funext fun a => Fin.ext (by
    match a with
    | ⟨0, _⟩ => exact (lhs_0 _ _).trans hk
    | ⟨1, _⟩ => exact lhs_1 _ _)
  have er : dot_S2000x128_S2000x128_S128x128_0_0_1_1_n_n.rhsIdx (ix2 g j) ((contrEquiv1 dot_S2000x128_S2000x128_S128x128_0_0_1_1_n_n 2000 rfl rfl).symm k) = ix2 k j := funext fun a => Fin.ext (by
    match a with
    | ⟨0, _⟩ => exact (rhs_0 _ _).trans hk
    | ⟨1, _⟩ => exact rhs_1 _ _)
  rw [el, er]

/-! ## The two stores of the table's block, at an entry -/

/-- The reset stores the zero table. -/
theorem pay3_apply (g j : Fin 128) : k0_pay3 (F := Ideal) (ix3 0 g j) = 0 := by
  unfold k0_pay3
  refine (shapeCast_ab_1ab_apply _ _ 0 g j).trans ?_
  exact Ideal.ofBits_zero_f32

/-- The update stores the table read before it plus the tile's two products: the zero-one block transposed
    times the rows the layers leave, and times those rows minus themselves. -/
theorem pay2_apply (v76 v79 : FVec Ideal S2000x128 .f32) (v84 : Vec Ideal S128x128 .f32) (v87 : Vec Ideal S1x128 .f32)
    (v92 : Vec Ideal S2000x128 .bf16) (v101 : Vec Ideal S1x128x128 .f32) (g j : Fin 128) :
    k0_pay2 (F := Ideal) v76 v79 v84 v87 v92 v101 (ix3 0 g j)
      = v101 (ix3 0 g j) + ((∑ r : Fin 2000, v92 (ix2 r g) * k0_pay1 (F := Ideal) v76 v79 v84 v87 (ix2 r j))
          + ∑ r : Fin 2000, v92 (ix2 r g) * (k0_pay1 (F := Ideal) v76 v79 v84 v87 (ix2 r j) - k0_pay1 (F := Ideal) v76 v79 v84 v87 (ix2 r j))) := by
  unfold k0_pay2
  refine (shapeCast_ab_1ab_apply _ _ 0 g j).trans ?_
  refine congrArg₂ (· + ·) (shapeCast_1ab_ab_apply v101 _ g j) ?_
  refine congrArg₂ (· + ·) ?_ ?_
  · refine (ohT_matmul_apply _ _ g j).trans ?_
    refine Finset.sum_congr rfl fun r _ => ?_
    rw [shapeCast_self]
    rfl
  · refine (ohT_matmul_apply _ _ g j).trans ?_
    refine Finset.sum_congr rfl fun r _ => ?_
    rw [shapeCast_self]
    rfl

/-! ## What the two cases leave in the table's block

At a restart point the body stores the zero table, reads it back and stores the update over it; at any other
point it stores the update over the table the point before left. -/

theorem hz2 : (![0, 0] : Fin 2 → Nat) = fun _ => 0 := funext fun a => by fin_cases a <;> rfl
theorem hz3 : (![0, 0, 0] : Fin 3 → Nat) = fun _ => 0 := funext fun a => by fin_cases a <;> rfl

section Pieces

variable (c : Dev nD) (i : grid0.Coords)
  (arg2 : Memref sig .tc .vmem S1x1 .f32) (harg2 : arg2.IsWhole)
  (arg3 : Memref sig .tc .vmem S2000x128 .f32) (harg3 : arg3.IsWhole)
  (arg4 : Memref sig .tc .vmem S2000x128 .f32) (harg4 : arg4.IsWhole)
  (arg5 : Memref sig .tc .vmem S2000x128 .bf16) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S128x128 .f32) (harg10 : arg10.IsWhole)
  (arg11 : Memref sig .tc .vmem S1x128 .f32) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S128x128 .f32) (harg14 : arg14.IsWhole)
  (arg15 : Memref sig .tc .vmem S1x128 .f32) (harg15 : arg15.IsWhole)
  (arg16 : Memref sig .tc .vmem S2000x128 .f32) (harg16 : arg16.IsWhole)
  (arg17 : Memref sig .tc .vmem S1x128x128 .f32) (harg17 : arg17.IsWhole)
  (x0 : Vec Ideal S1x1 .f32) (x1 : Vec Ideal S2000x128 .f32) (x2 : Vec Ideal S2000x128 .f32)
  (x3 : Vec Ideal S2000x128 .bf16) (x4 : Vec Ideal S128x128 .f32) (x5 : Vec Ideal S1x128 .f32)
  (x6 : Vec Ideal S1x128 .f32) (x7 : Vec Ideal S1x128 .f32) (x8 : Vec Ideal S128x128 .f32)
  (x9 : Vec Ideal S1x128 .f32) (x10 : Vec Ideal S1x128 .f32) (x11 : Vec Ideal S1x128 .f32)
  (x12 : Vec Ideal S128x128 .f32) (x13 : Vec Ideal S1x128 .f32)

/-- Away from a restart: the update over the running table xo15. -/
theorem out15_B (hc0 : ¬cond0_0 i) (xo15 : Vec Ideal S1x128x128 .f32) :
    out0_B_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xo15
      = k0_pay2 (F := Ideal) (k0_pay5 (k0_pay4 x0 x1 x2 x4 x5) x6 x7 x8 x9 x10) (k0_pay6 x11) x12 x13 x3 xo15 := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xo15)]
  unfold kernelRun0_B
  dsimp only
  sl_unfold_words
  rw [View.canon_unit_zero (S := S1x128x128) hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg17.read_unread, View.ld_unit_zero (S := S1x1) hz2, View.ld_unit_zero (S := S2000x128) hz2, View.ld_unit_zero (S := S128x128) hz2, View.ld_unit_zero (S := S1x128) hz2, View.ld_unit_zero (S := S1x128x128) hz3]

/-- At a restart: the update over the zero table. -/
theorem out15_A (hc0 : cond0_0 i) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13
      = k0_pay2 (F := Ideal) (k0_pay5 (k0_pay4 x0 x1 x2 x4 x5) x6 x7 x8 x9 x10) (k0_pay6 x11) x12 x13 x3 (k0_pay3 (F := Ideal)) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13)]
  unfold kernelRun0_A
  dsimp only
  sl_unfold_words
  rw [View.canon_cons_unit_zero (S := S1x128x128) hz3, View.readCov_unit_zero (S := S1x128x128) _ hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S2000x128) hz2, View.ld_unit_zero (S := S128x128) hz2, View.ld_unit_zero (S := S1x128) hz2, View.ld_unit_zero (S := S1x128x128) hz3]

end Pieces

/-! ## The blocks the body reads at a point

The weights, the row vectors and the scalar are whole arrays, the same at every point; the node rows, the
aggregated rows and the zero-one rows of point t are rows 2000 t + r of their arrays. -/

variable (V : (c : Dev nD) → (b : Ref sig .tc) → Buf (Elt Ideal) ((c : Thread nD τ).loc b))

/-- The rows the three layers leave, from the arrays as the stage finds them. -/
def H0 (c : Dev nD) : GIN.Nodes := fun n =>
  GIN.mlp (tab (V c main_arg5)) (row1 (V c main_v29)) (row1 (V c main_v30)) (row1 (V c main_v31))
    (tab (V c main_arg9)) (row1 (V c main_v32)) (row1 (V c main_v33)) (row1 (V c main_v34))
    (tab (V c main_arg13)) (row1 (V c main_v35))
    (GIN.hin (one1 (V c main_v28)) (nodes (V c main_arg0)) (nodes (V c main_v13)) n)

theorem idx0_0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The scalar's block is the scalar's array. -/
theorem blk0_eq (c : Dev nD) (t : Fin cfg0.N) : (iblk0 V c 0 t : Vec Ideal S1x1 .f32) = V c main_v28 := by
  funext y
  show V c main_v28 (((cfg0.win 0).blk t).view.emb y) = V c main_v28 y
  refine congrArg _ (funext fun a => Fin.ext ?_)
  obtain ⟨e0, e1⟩ := idx0_0 t
  match a with
  | ⟨0, _⟩ => show win0_0.index t (0 : Fin 2) * 1 + 1 * (y 0).val = (y 0).val; omega
  | ⟨1, _⟩ => show win0_0.index t (1 : Fin 2) * 1 + 1 * (y 1).val = (y 1).val; omega

theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The first layer's weights. -/
theorem blk4_eq (c : Dev nD) (t : Fin cfg0.N) : (iblk0 V c 4 t : Vec Ideal S128x128 .f32) = V c main_arg5 := by
  funext y
  show V c main_arg5 (((cfg0.win 4).blk t).view.emb y) = V c main_arg5 y
  refine congrArg _ (funext fun a => Fin.ext ?_)
  obtain ⟨e0, e1⟩ := idx0_4 t
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem idx0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The first layer's shift. -/
theorem blk5_eq (c : Dev nD) (t : Fin cfg0.N) : (iblk0 V c 5 t : Vec Ideal S1x128 .f32) = V c main_v29 := by
  funext y
  show V c main_v29 (((cfg0.win 5).blk t).view.emb y) = V c main_v29 y
  refine congrArg _ (funext fun a => Fin.ext ?_)
  obtain ⟨e0, e1⟩ := idx0_5 t
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- The first normalisation's scale. -/
theorem blk6_eq (c : Dev nD) (t : Fin cfg0.N) : (iblk0 V c 6 t : Vec Ideal S1x128 .f32) = V c main_v30 := by
  funext y
  show V c main_v30 (((cfg0.win 6).blk t).view.emb y) = V c main_v30 y
  refine congrArg _ (funext fun a => Fin.ext ?_)
  obtain ⟨e0, e1⟩ := idx0_6 t
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- The first normalisation's shift. -/
theorem blk7_eq (c : Dev nD) (t : Fin cfg0.N) : (iblk0 V c 7 t : Vec Ideal S1x128 .f32) = V c main_v31 := by
  funext y
  show V c main_v31 (((cfg0.win 7).blk t).view.emb y) = V c main_v31 y
  refine congrArg _ (funext fun a => Fin.ext ?_)
  obtain ⟨e0, e1⟩ := idx0_7 t
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem idx0_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- The second layer's weights. -/
theorem blk8_eq (c : Dev nD) (t : Fin cfg0.N) : (iblk0 V c 8 t : Vec Ideal S128x128 .f32) = V c main_arg9 := by
  funext y
  show V c main_arg9 (((cfg0.win 8).blk t).view.emb y) = V c main_arg9 y
  refine congrArg _ (funext fun a => Fin.ext ?_)
  obtain ⟨e0, e1⟩ := idx0_8 t
  match a with
  | ⟨0, _⟩ => show win0_8.index t (0 : Fin 2) * 128 + 1 * (y 0).val = (y 0).val; omega
  | ⟨1, _⟩ => show win0_8.index t (1 : Fin 2) * 128 + 1 * (y 1).val = (y 1).val; omega

theorem idx0_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- The second layer's shift. -/
theorem blk9_eq (c : Dev nD) (t : Fin cfg0.N) : (iblk0 V c 9 t : Vec Ideal S1x128 .f32) = V c main_v32 := by
  funext y
  show V c main_v32 (((cfg0.win 9).blk t).view.emb y) = V c main_v32 y
  refine congrArg _ (funext fun a => Fin.ext ?_)
  obtain ⟨e0, e1⟩ := idx0_9 t
  match a with
  | ⟨0, _⟩ => show win0_9.index t (0 : Fin 2) * 1 + 1 * (y 0).val = (y 0).val; omega
  | ⟨1, _⟩ => show win0_9.index t (1 : Fin 2) * 128 + 1 * (y 1).val = (y 1).val; omega

theorem idx0_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- The second normalisation's scale. -/
theorem blk10_eq (c : Dev nD) (t : Fin cfg0.N) : (iblk0 V c 10 t : Vec Ideal S1x128 .f32) = V c main_v33 := by
  funext y
  show V c main_v33 (((cfg0.win 10).blk t).view.emb y) = V c main_v33 y
  refine congrArg _ (funext fun a => Fin.ext ?_)
  obtain ⟨e0, e1⟩ := idx0_10 t
  match a with
  | ⟨0, _⟩ => show win0_10.index t (0 : Fin 2) * 1 + 1 * (y 0).val = (y 0).val; omega
  | ⟨1, _⟩ => show win0_10.index t (1 : Fin 2) * 128 + 1 * (y 1).val = (y 1).val; omega

theorem idx0_11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- The second normalisation's shift. -/
theorem blk11_eq (c : Dev nD) (t : Fin cfg0.N) : (iblk0 V c 11 t : Vec Ideal S1x128 .f32) = V c main_v34 := by
  funext y
  show V c main_v34 (((cfg0.win 11).blk t).view.emb y) = V c main_v34 y
  refine congrArg _ (funext fun a => Fin.ext ?_)
  obtain ⟨e0, e1⟩ := idx0_11 t
  match a with
  | ⟨0, _⟩ => show win0_11.index t (0 : Fin 2) * 1 + 1 * (y 0).val = (y 0).val; omega
  | ⟨1, _⟩ => show win0_11.index t (1 : Fin 2) * 128 + 1 * (y 1).val = (y 1).val; omega

theorem idx0_12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)

/-- The third layer's weights. -/
theorem blk12_eq (c : Dev nD) (t : Fin cfg0.N) : (iblk0 V c 12 t : Vec Ideal S128x128 .f32) = V c main_arg13 := by
  funext y
  show V c main_arg13 (((cfg0.win 12).blk t).view.emb y) = V c main_arg13 y
  refine congrArg _ (funext fun a => Fin.ext ?_)
  obtain ⟨e0, e1⟩ := idx0_12 t
  match a with
  | ⟨0, _⟩ => show win0_12.index t (0 : Fin 2) * 128 + 1 * (y 0).val = (y 0).val; omega
  | ⟨1, _⟩ => show win0_12.index t (1 : Fin 2) * 128 + 1 * (y 1).val = (y 1).val; omega

theorem idx0_13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- The third layer's shift. -/
theorem blk13_eq (c : Dev nD) (t : Fin cfg0.N) : (iblk0 V c 13 t : Vec Ideal S1x128 .f32) = V c main_v35 := by
  funext y
  show V c main_v35 (((cfg0.win 13).blk t).view.emb y) = V c main_v35 y
  refine congrArg _ (funext fun a => Fin.ext ?_)
  obtain ⟨e0, e1⟩ := idx0_13 t
  match a with
  | ⟨0, _⟩ => show win0_13.index t (0 : Fin 2) * 1 + 1 * (y 0).val = (y 0).val; omega
  | ⟨1, _⟩ => show win0_13.index t (1 : Fin 2) * 128 + 1 * (y 1).val = (y 1).val; omega

/-- The node rows, the aggregated rows and the zero-one rows of point t. -/
abbrev nblk (c : Dev nD) (t : Fin cfg0.N) : Vec Ideal S2000x128 .f32 := iblk0 V c 1 t
abbrev ablk (c : Dev nD) (t : Fin cfg0.N) : Vec Ideal S2000x128 .f32 := iblk0 V c 2 t
abbrev ohblk (c : Dev nD) (t : Fin cfg0.N) : Vec Ideal S2000x128 .bf16 := iblk0 V c 3 t

theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row r of the node block of point t is node 2000 t + r. -/
theorem blk1_read (c : Dev nD) (t : Fin cfg0.N) (ht : t.val < 50) (r : Fin 2000) (k : Fin 128) :
    nblk V c t (ix2 r k) = V c main_arg0 (ix2 (GIN.nodeOf ⟨t.val, ht⟩ r) k) := by
  show V c main_arg0 (((cfg0.win 1).blk t).view.emb (ix2 r k)) = _
  refine congrArg _ (funext fun a => Fin.ext ?_)
  obtain ⟨e0, e1⟩ := idx0_1 t
  match a with
  | ⟨0, _⟩ => show win0_1.index t (0 : Fin 2) * 2000 + 1 * r.val = 2000 * t.val + r.val; omega
  | ⟨1, _⟩ => show win0_1.index t (1 : Fin 2) * 128 + 1 * k.val = k.val; omega

theorem idx0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Row r of the aggregated block of point t is node 2000 t + r. -/
theorem blk2_read (c : Dev nD) (t : Fin cfg0.N) (ht : t.val < 50) (r : Fin 2000) (k : Fin 128) :
    ablk V c t (ix2 r k) = V c main_v13 (ix2 (GIN.nodeOf ⟨t.val, ht⟩ r) k) := by
  show V c main_v13 (((cfg0.win 2).blk t).view.emb (ix2 r k)) = _
  refine congrArg _ (funext fun a => Fin.ext ?_)
  obtain ⟨e0, e1⟩ := idx0_2 t
  match a with
  | ⟨0, _⟩ => show win0_2.index t (0 : Fin 2) * 2000 + 1 * r.val = 2000 * t.val + r.val; omega
  | ⟨1, _⟩ => show win0_2.index t (1 : Fin 2) * 128 + 1 * k.val = k.val; omega

theorem idx0_3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Row r of the zero-one block of point t is node 2000 t + r. -/
theorem blk3_read (c : Dev nD) (t : Fin cfg0.N) (ht : t.val < 50) (r : Fin 2000) (k : Fin 128) :
    ohblk V c t (ix2 r k) = V c main_v26 (ix2 (GIN.nodeOf ⟨t.val, ht⟩ r) k) := by
  show V c main_v26 (((cfg0.win 3).blk t).view.emb (ix2 r k)) = _
  refine congrArg _ (funext fun a => Fin.ext ?_)
  obtain ⟨e0, e1⟩ := idx0_3 t
  match a with
  | ⟨0, _⟩ => show win0_3.index t (0 : Fin 2) * 2000 + 1 * r.val = 2000 * t.val + r.val; omega
  | ⟨1, _⟩ => show win0_3.index t (1 : Fin 2) * 128 + 1 * k.val = k.val; omega

/-- The rows the layers leave for the tile of point t, as the body computes them from the point's blocks. -/
abbrev hblk (c : Dev nD) (t : Fin cfg0.N) : FVec Ideal S2000x128 .f32 :=
  KReg0Pay.h3blk (iblk0 V c 0 t) (iblk0 V c 1 t) (iblk0 V c 2 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)

/-- Row r of that block is row 2000 t + r of the rows the layers leave. -/
theorem hblk_apply (c : Dev nD) (t : Fin cfg0.N) (ht : t.val < 50) (r : Fin 2000) (j : Fin 128) :
    hblk V c t (ix2 r j) = H0 V c (GIN.nodeOf ⟨t.val, ht⟩ r) j := by
  refine (KReg0Pay.h3blk_apply (iblk0 V c 0 t) (iblk0 V c 1 t) (iblk0 V c 2 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) r j).trans ?_
  have hrow : (fun k : Fin 128 => one1 (iblk0 V c 0 t) * nblk V c t (ix2 r k) + ablk V c t (ix2 r k))
      = GIN.hin (one1 (V c main_v28)) (nodes (V c main_arg0)) (nodes (V c main_v13)) (GIN.nodeOf ⟨t.val, ht⟩ r) :=
    funext fun k => by rw [blk0_eq V c t, blk1_read V c t ht r k, blk2_read V c t ht r k]; rfl
  rw [hrow, blk4_eq V c t, blk5_eq V c t, blk6_eq V c t, blk7_eq V c t, blk8_eq V c t, blk9_eq V c t, blk10_eq V c t,
    blk11_eq V c t, blk12_eq V c t, blk13_eq V c t]
  rfl

/-- The tile's two products are the tile's contribution to the per-graph sums. -/
theorem tile_eq (c : Dev nD) (t : Fin cfg0.N) (g j : Fin 128) :
    (∑ r : Fin 2000, ohblk V c t (ix2 r g) * hblk V c t (ix2 r j))
        + (∑ r : Fin 2000, ohblk V c t (ix2 r g) * (hblk V c t (ix2 r j) - hblk V c t (ix2 r j)))
      = GIN.tileC (nodes (V c main_v26)) (H0 V c) t.val g j := by
  have ht : t.val < 50 := lt_of_lt_of_eq t.isLt N_0
  unfold GIN.tileC
  rw [dif_pos ht]
  unfold GIN.tileContrib GIN.tileSum
  refine congrArg₂ (· + ·) (Finset.sum_congr rfl fun r _ => ?_) (Finset.sum_congr rfl fun r _ => ?_)
  · rw [blk3_read V c t ht r g, hblk_apply V c t ht r j]; rfl
  · rw [blk3_read V c t ht r g, hblk_apply V c t ht r j]; rfl

/-! ## The running table, point by point -/

/-- At a restart point the table is zero plus the tile's contribution. -/
theorem step_A (c : Dev nD) (t : Fin cfg0.N) (h0 : t.val % 25 = 0) (g j : Fin 128) :
    (outsAt0 V c t.val t.isLt).2 (ix3 0 g j) = 0 + GIN.tileC (nodes (V c main_v26)) (H0 V c) t.val g j := by
  rw [outsAt0_A V c t h0]
  dsimp only
  refine (congrFun (out15_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    ((hcond0_0 t).mpr h0)) (ix3 0 g j)).trans ?_
  refine (pay2_apply _ _ _ _ _ _ g j).trans ?_
  exact congrArg₂ (· + ·) (pay3_apply g j) (tile_eq V c t g j)

/-- At any other point it is the table the point before left plus the tile's contribution. -/
theorem step_B (c : Dev nD) (t : Fin cfg0.N) (h0 : ¬t.val % 25 = 0) (g j : Fin 128) :
    (outsAt0 V c t.val t.isLt).2 (ix3 0 g j)
      = (outsAt0 V c (t.val - 1) (Nat.lt_of_le_of_lt (Nat.sub_le _ _) t.isLt)).2 (ix3 0 g j)
          + GIN.tileC (nodes (V c main_v26)) (H0 V c) t.val g j := by
  rw [outsAt0_B V c t h0]
  dsimp only
  refine (congrFun (out15_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t)
    (fun h => h0 ((hcond0_0 t).mp h))
    (outsAt0 V c (t.val - 1) (Nat.lt_of_le_of_lt (Nat.sub_le _ _) t.isLt)).2) (ix3 0 g j)).trans ?_
  refine (pay2_apply _ _ _ _ _ _ g j).trans ?_
  exact congrArg₂ (· + ·) rfl (tile_eq V c t g j)

/-- So after point n the table is the running sum of the tiles' contributions, restarted at every 25th point. -/
theorem acc_eq (c : Dev nD) (g j : Fin 128) : ∀ (n : ℕ) (hn : n < cfg0.N),
    (outsAt0 V c n hn).2 (ix3 0 g j) = GIN.runAcc (fun n => GIN.tileC (nodes (V c main_v26)) (H0 V c) n g j) n
  | 0, hn => step_A V c ⟨0, hn⟩ rfl g j
  | n + 1, hn => by
    by_cases h0 : (n + 1) % 25 = 0
    · refine (step_A V c ⟨n + 1, hn⟩ h0 g j).trans ?_
      show 0 + GIN.tileC _ _ (n + 1) g j = _
      rw [GIN.runAcc, if_pos h0]
    · refine (step_B V c ⟨n + 1, hn⟩ h0 g j).trans ?_
      show (outsAt0 V c n _).2 (ix3 0 g j) + GIN.tileC _ _ (n + 1) g j = _
      rw [GIN.runAcc, if_neg h0, acc_eq c g j n (Nat.lt_of_succ_lt hn)]

/-! ## The array after the run

Core k's block of the array is written back once, after the core's last point 25 k + 24. -/

/-- The two cores' tables as one array. -/
def Gtab (c : Dev nD) : S2x128x128.Idx → EReal :=
  fun i => GIN.coreAcc (nodes (V c main_v26)) (H0 V c) (i 0) (i 1) (i 2)

theorem idx0_15 : ∀ t : Fin cfg0.N, win0_15.index t (0 : Fin 3) = t.val / 25 ∧ win0_15.index t (1 : Fin 3) = 0 ∧ win0_15.index t (2 : Fin 3) = 0 :=
  (by decide +kernel : ∀ t : Fin grid0.N, win0_15.index t (0 : Fin 3) = t.val / 25 ∧ win0_15.index t (1 : Fin 3) = 0 ∧ win0_15.index t (2 : Fin 3) = 0)

/-- Two one-table blocks agree when they agree entry by entry. -/
theorem tab_ext (X Y : S1x128x128.Idx → EReal) (h : ∀ g j : Fin 128, X (ix3 0 g j) = Y (ix3 0 g j)) : X = Y := by
  funext y
  obtain ⟨u, g, j, rfl⟩ : ∃ (u : Fin 1) (g j : Fin 128), y = ix3 u g j := ⟨y 0, y 1, y 2, eq_ix3 y⟩
  obtain rfl : u = 0 := Subsingleton.elim _ _
  exact h g j

/-- What a write-back point writes back is its block of that array. -/
theorem flushed15_eq (c : Dev nD) (t : Fin cfg0.N) (hf : (cfg0.win 15).flush t = true) :
    (dat0 V c).flushed 15 t = ((cfg0.win 15).blk t).view.read (Elt Ideal) (Gtab V c) := by
  have h24 : t.val % 25 = 24 := (flush0_15 t).mp hf
  have ht : t.val < 50 := lt_of_lt_of_eq t.isLt N_0
  show (cfg0.win 15).cut (grid0.coords t) ((dat0 V c).after 15 t) = _
  rw [after0_15]
  refine tab_ext _ _ fun g j => ?_
  show (outsAt0 V c t.val t.isLt).2 (ix3 0 g j) = Gtab V c (((cfg0.win 15).blk t).view.emb (ix3 0 g j))
  obtain ⟨e0, e1, e2⟩ := idx0_15 t
  have hemb : ((cfg0.win 15).blk t).view.emb (ix3 0 g j) = ix3 (⟨t.val / 25, by omega⟩ : Fin 2) g j :=
    funext fun a => Fin.ext (by
      match a with
      | ⟨0, _⟩ => show win0_15.index t (0 : Fin 3) * 1 + 1 * 0 = t.val / 25; omega
      | ⟨1, _⟩ => show win0_15.index t (1 : Fin 3) * 128 + 1 * g.val = g.val; omega
      | ⟨2, _⟩ => show win0_15.index t (2 : Fin 3) * 128 + 1 * j.val = j.val; omega)
  rw [hemb, acc_eq V c g j t.val t.isLt]
  show GIN.runAcc _ t.val = GIN.runAcc _ (25 * (t.val / 25) + 24)
  exact congrArg _ (by omega)

/-- An index of the array is in point t's block iff each coordinate is in the block's range on its axis. -/
theorem mem_blk15 (t : Fin cfg0.N) (i : S2x128x128.Idx) :
    i ∈ ((cfg0.win 15).blk t).view.set ↔ ∀ a : Fin 3, win0_15.index t a * S1x128x128.size a ≤ (i a).val ∧ (i a).val < win0_15.index t a * S1x128x128.size a + S1x128x128.size a := by
  show i ∈ ((View.whole main_v36_1).slice (win0_15.rect t)).set ↔ _
  rw [View.set_slice_whole, Rect.mem_set_unit]
  exact Iff.rfl

/-- Every index of the array is in the block some write-back point writes. -/
theorem cover15 (i : S2x128x128.Idx) : ∃ t : Fin cfg0.N, (cfg0.win 15).flush t = true ∧ i ∈ ((cfg0.win 15).blk t).view.set := by
  have hi0 : (i 0).val < 2 := (i 0).isLt
  have hi1 : (i 1).val < 128 := (i 1).isLt
  have hi2 : (i 2).val < 128 := (i 2).isLt
  have hlt : 25 * (i 0).val + 24 < cfg0.N := lt_of_lt_of_eq (by omega : 25 * (i 0).val + 24 < 50) N_0.symm
  obtain ⟨e0, e1, e2⟩ := idx0_15 ⟨25 * (i 0).val + 24, hlt⟩
  have e0' : win0_15.index ⟨25 * (i 0).val + 24, hlt⟩ (0 : Fin 3) = (25 * (i 0).val + 24) / 25 := e0
  refine ⟨⟨25 * (i 0).val + 24, hlt⟩, (flush0_15 _).mpr (by show (25 * (i 0).val + 24) % 25 = 24; omega), ?_⟩
  rw [mem_blk15]
  intro a
  match a with
  | ⟨0, _⟩ => show win0_15.index ⟨25 * (i 0).val + 24, hlt⟩ (0 : Fin 3) * 1 ≤ (i 0).val ∧ (i 0).val < win0_15.index ⟨25 * (i 0).val + 24, hlt⟩ (0 : Fin 3) * 1 + 1; omega
  | ⟨1, _⟩ => show win0_15.index ⟨25 * (i 0).val + 24, hlt⟩ (1 : Fin 3) * 128 ≤ (i 1).val ∧ (i 1).val < win0_15.index ⟨25 * (i 0).val + 24, hlt⟩ (1 : Fin 3) * 128 + 128; omega
  | ⟨2, _⟩ => show win0_15.index ⟨25 * (i 0).val + 24, hlt⟩ (2 : Fin 3) * 128 ≤ (i 2).val ∧ (i 2).val < win0_15.index ⟨25 * (i 0).val + 24, hlt⟩ (2 : Fin 3) * 128 + 128; omega

/-- After the run, core k's table in the array is the core's running sum after its last point. -/
theorem final (c : Dev nD) (k : Fin 2) :
    stack ((dat0 (F := Ideal) V c).arrAt 15 cfg0.N) k = GIN.coreAcc (nodes (V c main_v26)) (H0 V c) k := by
  rw [(dat0 V c).arrAt_eq_of_cover 15 (Gtab V c) (flushed15_eq V c) (cover15)]
  rfl

end Cert.KernelIdeal.KReg0S

end
-- ==== Proof.KReg0H.lean ====
/-
  The first output of the layers' stage: the array of rows the three layers leave.

  The stage walks the 100000 nodes in 50 blocks of 2000 rows.  At each block it stores, in one piece, the
  three-layer image of the block's rows `e * node + agg` (the weights, biases, scales and shifts are whole arrays,
  the same at every block), and that block is written back at once.  Whether the block's point also restarts the
  running per-graph table plays no part in what is stored here.  Row `r` of block `t` is row `2000 t + r` of
  each row array, the blocks fill the array, and so the array ends holding, at node `n`, the three-layer row of
  `e * node n + agg n`.
-/
import proofs.«428147_j72688026518088_3_alg».proof.Proof.Gen.KernelIdeal.Frame
import proofs.«428147_j72688026518088_3_alg».proof.Proof.KArr
import proofs.«428147_j72688026518088_3_alg».proof.Proof.SpecRaw
import proofs.«428147_j72688026518088_3_alg».proof.Proof.KReg0Pay
import proofs.«428147_j72688026518088_3_alg».proof.Proof.KReg0S
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.KArr

namespace Cert.KernelIdeal.KReg0H

variable (V : (c : Dev nD) → (b : Ref sig .tc) → Buf (Elt Ideal) ((c : Thread nD τ).loc b))

/-- The zero offsets of a whole two-axis block. -/
theorem hz : (![0, 0] : Fin 2 → Nat) = fun _ => 0 := funext fun a => by fin_cases a <;> rfl

/-- At a point where the table is reset, the body's one store to the first output leaves the three-layer block of the point's input blocks. -/
theorem out_A (c : Dev nD) (i : grid0.Coords) (arg2 : Memref sig .tc .vmem S1x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S2000x128 .f32) (harg16 : arg16.IsWhole) (arg17 : Memref sig .tc .vmem S1x128x128 .f32) (harg17 : arg17.IsWhole) (hc0 : cond0_0 i)
    (x0 : Vec Ideal S1x1 .f32) (x1 : Vec Ideal S2000x128 .f32) (x2 : Vec Ideal S2000x128 .f32) (x3 : Vec Ideal S2000x128 .bf16) (x4 : Vec Ideal S128x128 .f32) (x5 : Vec Ideal S1x128 .f32) (x6 : Vec Ideal S1x128 .f32) (x7 : Vec Ideal S1x128 .f32) (x8 : Vec Ideal S128x128 .f32) (x9 : Vec Ideal S1x128 .f32) (x10 : Vec Ideal S1x128 .f32) (x11 : Vec Ideal S1x128 .f32) (x12 : Vec Ideal S128x128 .f32) (x13 : Vec Ideal S1x128 .f32) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13
      = KReg0Pay.h3blk x0 x1 x2 x4 x5 x6 x7 x8 x9 x10 x11 x12 x13 := by
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz, View.ld_unit_zero (S := S2000x128) hz, View.ld_unit_zero (S := S128x128) hz, View.ld_unit_zero (S := S1x128) hz]
  rfl

/-- At every other point the same store leaves the same block, whatever the carried table holds. -/
theorem out_B (c : Dev nD) (i : grid0.Coords) (arg2 : Memref sig .tc .vmem S1x1 .f32) (harg2 : arg2.IsWhole) (arg3 : Memref sig .tc .vmem S2000x128 .f32) (harg3 : arg3.IsWhole) (arg4 : Memref sig .tc .vmem S2000x128 .f32) (harg4 : arg4.IsWhole) (arg5 : Memref sig .tc .vmem S2000x128 .bf16) (harg5 : arg5.IsWhole) (arg6 : Memref sig .tc .vmem S128x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S2000x128 .f32) (harg16 : arg16.IsWhole) (arg17 : Memref sig .tc .vmem S1x128x128 .f32) (harg17 : arg17.IsWhole) (hc0 : ¬cond0_0 i)
    (x0 : Vec Ideal S1x1 .f32) (x1 : Vec Ideal S2000x128 .f32) (x2 : Vec Ideal S2000x128 .f32) (x3 : Vec Ideal S2000x128 .bf16) (x4 : Vec Ideal S128x128 .f32) (x5 : Vec Ideal S1x128 .f32) (x6 : Vec Ideal S1x128 .f32) (x7 : Vec Ideal S1x128 .f32) (x8 : Vec Ideal S128x128 .f32) (x9 : Vec Ideal S1x128 .f32) (x10 : Vec Ideal S1x128 .f32) (x11 : Vec Ideal S1x128 .f32) (x12 : Vec Ideal S128x128 .f32) (x13 : Vec Ideal S1x128 .f32) (xo15 : Vec Ideal S1x128x128 .f32) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xo15
      = KReg0Pay.h3blk x0 x1 x2 x4 x5 x6 x7 x8 x9 x10 x11 x12 x13 := by
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 xo15)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz, View.ld_unit_zero (S := S2000x128) hz, View.ld_unit_zero (S := S128x128) hz, View.ld_unit_zero (S := S1x128) hz]
  rfl

/-! ## The input blocks of a point, each at its literal type -/

abbrev blk0 (c : Dev nD) (t : Fin cfg0.N) : Vec Ideal S1x1 .f32 := iblk0 V c 0 t
abbrev blk1 (c : Dev nD) (t : Fin cfg0.N) : Vec Ideal S2000x128 .f32 := iblk0 V c 1 t
abbrev blk2 (c : Dev nD) (t : Fin cfg0.N) : Vec Ideal S2000x128 .f32 := iblk0 V c 2 t
abbrev blk3 (c : Dev nD) (t : Fin cfg0.N) : Vec Ideal S2000x128 .bf16 := iblk0 V c 3 t
abbrev blk4 (c : Dev nD) (t : Fin cfg0.N) : Vec Ideal S128x128 .f32 := iblk0 V c 4 t
abbrev blk5 (c : Dev nD) (t : Fin cfg0.N) : Vec Ideal S1x128 .f32 := iblk0 V c 5 t
abbrev blk6 (c : Dev nD) (t : Fin cfg0.N) : Vec Ideal S1x128 .f32 := iblk0 V c 6 t
abbrev blk7 (c : Dev nD) (t : Fin cfg0.N) : Vec Ideal S1x128 .f32 := iblk0 V c 7 t
abbrev blk8 (c : Dev nD) (t : Fin cfg0.N) : Vec Ideal S128x128 .f32 := iblk0 V c 8 t
abbrev blk9 (c : Dev nD) (t : Fin cfg0.N) : Vec Ideal S1x128 .f32 := iblk0 V c 9 t
abbrev blk10 (c : Dev nD) (t : Fin cfg0.N) : Vec Ideal S1x128 .f32 := iblk0 V c 10 t
abbrev blk11 (c : Dev nD) (t : Fin cfg0.N) : Vec Ideal S1x128 .f32 := iblk0 V c 11 t
abbrev blk12 (c : Dev nD) (t : Fin cfg0.N) : Vec Ideal S128x128 .f32 := iblk0 V c 12 t
abbrev blk13 (c : Dev nD) (t : Fin cfg0.N) : Vec Ideal S1x128 .f32 := iblk0 V c 13 t

/-- After any point the first output's buffer holds the three-layer block of that point's input blocks. -/
theorem outs14 (c : Dev nD) (t : Fin cfg0.N) :
    (outsAt0 V c t.val t.isLt).1 = KReg0Pay.h3blk (blk0 V c t) (blk1 V c t) (blk2 V c t) (blk4 V c t) (blk5 V c t) (blk6 V c t) (blk7 V c t) (blk8 V c t) (blk9 V c t) (blk10 V c t) (blk11 V c t) (blk12 V c t) (blk13 V c t) := by
  by_cases h0 : t.val % 25 = 0
  · rw [outsAt0_A V c t h0]
    dsimp only
    exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) ((hcond0_0 t).mpr h0) (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t)
  · rw [outsAt0_B V c t h0]
    dsimp only
    exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (fun h => h0 ((hcond0_0 t).mp h)) (blk0 V c t) (blk1 V c t) (blk2 V c t) (blk3 V c t) (blk4 V c t) (blk5 V c t) (blk6 V c t) (blk7 V c t) (blk8 V c t) (blk9 V c t) (blk10 V c t) (blk11 V c t) (blk12 V c t) (blk13 V c t) (outsAt0 V c (t.val - 1) (Nat.lt_of_le_of_lt (Nat.sub_le _ _) t.isLt)).2

/-! ## Where each window's block sits in its array -/

/-- The block numbers, decided over the 50 points: a whole-array window sits at block (0, 0) at every point; a row
    window sits at block row `t`. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-- A point's number is below 50. -/
theorem lt50 (t : Fin cfg0.N) : t.val < 50 := Nat.lt_of_lt_of_eq t.isLt N_0

/-- Row `r` of the block of point `t` is row `2000 t + r` of the array. -/
def rowAt (t : Fin cfg0.N) (r : Fin 2000) : Fin 100000 := ⟨2000 * t.val + r.val, by have := lt50 t; have := r.isLt; omega⟩

/-! A whole-array window's block is its array. -/

theorem blk0_eq (c : Dev nD) (t : Fin cfg0.N) : blk0 V c t = (V c main_v28 : S1x1.Idx → EReal) := by
  obtain ⟨e0, e1⟩ := idx0 t
  funext y
  unfold blk0 iblk0
  rw [View.read_apply]
  show V c main_v28 _ = V c main_v28 y
  congr 1
  funext a
  apply Fin.ext
  match a with
  | ⟨0, _⟩ => show win0_0.index t (0 : Fin 2) * 1 + 1 * (y 0).val = (y 0).val; rw [e0]; omega
  | ⟨1, _⟩ => show win0_0.index t (1 : Fin 2) * 1 + 1 * (y 1).val = (y 1).val; rw [e1]; omega

theorem blk4_eq (c : Dev nD) (t : Fin cfg0.N) : blk4 V c t = (V c main_arg5 : S128x128.Idx → EReal) := by
  obtain ⟨e0, e1⟩ := idx4 t
  funext y
  unfold blk4 iblk0
  rw [View.read_apply]
  show V c main_arg5 _ = V c main_arg5 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem blk5_eq (c : Dev nD) (t : Fin cfg0.N) : blk5 V c t = (V c main_v29 : S1x128.Idx → EReal) := by
  obtain ⟨e0, e1⟩ := idx5 t
  funext y
  unfold blk5 iblk0
  rw [View.read_apply]
  show V c main_v29 _ = V c main_v29 y
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem blk6_eq (c : Dev nD) (t : Fin cfg0.N) : blk6 V c t = (V c main_v30 : S1x128.Idx → EReal) := by
  obtain ⟨e0, e1⟩ := idx6 t
  funext y
  unfold blk6 iblk0
  rw [View.read_apply]
  show V c main_v30 _ = V c main_v30 y
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem blk7_eq (c : Dev nD) (t : Fin cfg0.N) : blk7 V c t = (V c main_v31 : S1x128.Idx → EReal) := by
  obtain ⟨e0, e1⟩ := idx7 t
  funext y
  unfold blk7 iblk0
  rw [View.read_apply]
  show V c main_v31 _ = V c main_v31 y
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

theorem blk8_eq (c : Dev nD) (t : Fin cfg0.N) : blk8 V c t = (V c main_arg9 : S128x128.Idx → EReal) := by
  obtain ⟨e0, e1⟩ := idx8 t
  funext y
  unfold blk8 iblk0
  rw [View.read_apply]
  show V c main_arg9 _ = V c main_arg9 y
  congr 1
  funext a
  apply Fin.ext
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega

theorem blk9_eq (c : Dev nD) (t : Fin cfg0.N) : blk9 V c t = (V c main_v32 : S1x128.Idx → EReal) := by
  obtain ⟨e0, e1⟩ := idx9 t
  funext y
  unfold blk9 iblk0
  rw [View.read_apply]
  show V c main_v32 _ = V c main_v32 y
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega

theorem blk10_eq (c : Dev nD) (t : Fin cfg0.N) : blk10 V c t = (V c main_v33 : S1x128.Idx → EReal) := by
  obtain ⟨e0, e1⟩ := idx10 t
  funext y
  unfold blk10 iblk0
  rw [View.read_apply]
  show V c main_v33 _ = V c main_v33 y
  congr 1
  funext a
  apply Fin.ext
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

theorem blk11_eq (c : Dev nD) (t : Fin cfg0.N) : blk11 V c t = (V c main_v34 : S1x128.Idx → EReal) := by
  obtain ⟨e0, e1⟩ := idx11 t
  funext y
  unfold blk11 iblk0
  rw [View.read_apply]
  show V c main_v34 _ = V c main_v34 y
  congr 1
  funext a
  apply Fin.ext
  match a with
  | ⟨0, _⟩ => show win0_11.index t (0 : Fin 2) * 1 + 1 * (y 0).val = (y 0).val; rw [e0]; omega
  | ⟨1, _⟩ => show win0_11.index t (1 : Fin 2) * 128 + 1 * (y 1).val = (y 1).val; rw [e1]; omega

theorem blk12_eq (c : Dev nD) (t : Fin cfg0.N) : blk12 V c t = (V c main_arg13 : S128x128.Idx → EReal) := by
  obtain ⟨e0, e1⟩ := idx12 t
  funext y
  unfold blk12 iblk0
  rw [View.read_apply]
  show V c main_arg13 _ = V c main_arg13 y
  congr 1
  funext a
  apply Fin.ext
  match a with
  | ⟨0, _⟩ => show win0_12.index t (0 : Fin 2) * 128 + 1 * (y 0).val = (y 0).val; rw [e0]; omega
  | ⟨1, _⟩ => show win0_12.index t (1 : Fin 2) * 128 + 1 * (y 1).val = (y 1).val; rw [e1]; omega

theorem blk13_eq (c : Dev nD) (t : Fin cfg0.N) : blk13 V c t = (V c main_v35 : S1x128.Idx → EReal) := by
  obtain ⟨e0, e1⟩ := idx13 t
  funext y
  unfold blk13 iblk0
  rw [View.read_apply]
  show V c main_v35 _ = V c main_v35 y
  congr 1
  funext a
  apply Fin.ext
  match a with
  | ⟨0, _⟩ => show win0_13.index t (0 : Fin 2) * 1 + 1 * (y 0).val = (y 0).val; rw [e0]; omega
  | ⟨1, _⟩ => show win0_13.index t (1 : Fin 2) * 128 + 1 * (y 1).val = (y 1).val; rw [e1]; omega

/-! A row window's block at point `t`, at row `r`, is row `2000 t + r` of its array. -/

theorem blk1_at (c : Dev nD) (t : Fin cfg0.N) (r : Fin 2000) (k : Fin 128) :
    blk1 V c t (ix2 r k) = (V c main_arg0 : S100000x128.Idx → EReal) (ix2 (rowAt t r) k) := by
  obtain ⟨e0, e1⟩ := idx1 t
  unfold blk1 iblk0
  rw [View.read_apply]
  show V c main_arg0 _ = V c main_arg0 _
  congr 1
  funext a
  apply Fin.ext
  match a with
  | ⟨0, _⟩ => show win0_1.index t (0 : Fin 2) * 2000 + 1 * r.val = 2000 * t.val + r.val; rw [e0]; omega
  | ⟨1, _⟩ => show win0_1.index t (1 : Fin 2) * 128 + 1 * k.val = k.val; rw [e1]; omega

theorem blk2_at (c : Dev nD) (t : Fin cfg0.N) (r : Fin 2000) (k : Fin 128) :
    blk2 V c t (ix2 r k) = (V c main_v13 : S100000x128.Idx → EReal) (ix2 (rowAt t r) k) := by
  obtain ⟨e0, e1⟩ := idx2 t
  unfold blk2 iblk0
  rw [View.read_apply]
  show V c main_v13 _ = V c main_v13 _
  congr 1
  funext a
  apply Fin.ext
  match a with
  | ⟨0, _⟩ => show win0_2.index t (0 : Fin 2) * 2000 + 1 * r.val = 2000 * t.val + r.val; rw [e0]; omega
  | ⟨1, _⟩ => show win0_2.index t (1 : Fin 2) * 128 + 1 * k.val = k.val; rw [e1]; omega

/-- The three-layer block of point `t`'s input blocks, at row `r`, is the three-layer row of node `2000 t + r`. -/
theorem h3_at (c : Dev nD) (t : Fin cfg0.N) (r : Fin 2000) (j : Fin 128) :
    KReg0Pay.h3blk (blk0 V c t) (blk1 V c t) (blk2 V c t) (blk4 V c t) (blk5 V c t) (blk6 V c t) (blk7 V c t) (blk8 V c t) (blk9 V c t) (blk10 V c t) (blk11 V c t) (blk12 V c t) (blk13 V c t) (ix2 r j) = KReg0S.H0 V c (rowAt t r) j := by
  refine (KReg0Pay.h3blk_apply (blk0 V c t) (blk1 V c t) (blk2 V c t) (blk4 V c t) (blk5 V c t) (blk6 V c t) (blk7 V c t) (blk8 V c t) (blk9 V c t) (blk10 V c t) (blk11 V c t) (blk12 V c t) (blk13 V c t) r j).trans ?_
  have hx : (fun k : Fin 128 => one1 (blk0 V c t) * blk1 V c t (ix2 r k) + blk2 V c t (ix2 r k))
      = GIN.hin (one1 (V c main_v28)) (nodes (V c main_arg0)) (nodes (V c main_v13)) (rowAt t r) := by
    funext k
    rw [blk0_eq, blk1_at, blk2_at]
    rfl
  rw [hx, blk4_eq, blk5_eq, blk6_eq, blk7_eq, blk8_eq, blk9_eq, blk10_eq, blk11_eq, blk12_eq, blk13_eq]
  rfl

/-- The array the first output ends holding: the three-layer row of every node. -/
def Garr (c : Dev nD) : S100000x128.Idx → EReal := fun i => KReg0S.H0 V c (i 0) (i 1)

/-- Read by rows it is the three-layer rows. -/
theorem nodes_Garr (c : Dev nD) : nodes (Garr V c) = KReg0S.H0 V c := rfl

/-- The array at an index whose coordinates are `n` and `j`. -/
theorem Garr_at (c : Dev nD) (i : S100000x128.Idx) (n : Fin 100000) (j : Fin 128) (h0 : (i 0).val = n.val) (h1 : (i 1).val = j.val) :
    Garr V c i = KReg0S.H0 V c n j :=
  congrArg₂ (KReg0S.H0 V c) (Fin.ext h0 : (i 0 : Fin 100000) = n) (Fin.ext h1 : (i 1 : Fin 128) = j)

/-- What point `t` writes back is block `t` of that array. -/
theorem flushed_eq (c : Dev nD) (t : Fin cfg0.N) :
    (dat0 (F := Ideal) V c).flushed 14 t = ((cfg0.win 14).blk t).view.read (Elt Ideal) (Garr V c) := by
  show (cfg0.win 14).cut (grid0.coords t) ((dat0 (F := Ideal) V c).after 14 t) = _
  rw [after0_14, outs14]
  obtain ⟨e0, e1⟩ := idx14 t
  funext y
  show KReg0Pay.h3blk (blk0 V c t) (blk1 V c t) (blk2 V c t) (blk4 V c t) (blk5 V c t) (blk6 V c t) (blk7 V c t) (blk8 V c t) (blk9 V c t) (blk10 V c t) (blk11 V c t) (blk12 V c t) (blk13 V c t) y = Garr V c (((cfg0.win 14).blk t).view.emb y)
  rw [eq_ix2 y]
  refine (h3_at V c t (y 0) (y 1)).trans (Garr_at V c _ (rowAt t (y 0)) (y 1) ?_ ?_).symm
  · show win0_14.index t (0 : Fin 2) * 2000 + 1 * (y 0).val = 2000 * t.val + (y 0).val
    rw [e0]; omega
  · show win0_14.index t (1 : Fin 2) * 128 + 1 * (y 1).val = (y 1).val
    rw [e1]; omega

/-- An index of the array is in point `t`'s block iff each coordinate is in the block's range on its axis. -/
theorem mem_blk (t : Fin cfg0.N) (i : S100000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_v36_0).slice (win0_14.rect t)).set ↔ _
  rw [View.set_slice_whole, Rect.mem_set_unit]
  exact Iff.rfl

/-- Row `n` of the array lies in the block of point `n / 2000`, and every point writes its block back. -/
theorem cover (i : S100000x128.Idx) :
    ∃ t : Fin cfg0.N, (cfg0.win 14).flush t = true ∧ i ∈ ((cfg0.win 14).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, Nat.lt_of_lt_of_eq (by omega : (i 0).val / 2000 < 50) N_0.symm⟩, rfl⟩
  obtain ⟨e0, e1⟩ := idx14 t
  refine ⟨t, flush0_14 t, ?_⟩
  rw [mem_blk]
  intro a
  match a with
  | ⟨0, _⟩ =>
    show win0_14.index t (0 : Fin 2) * 2000 ≤ (i 0).val ∧ (i 0).val < win0_14.index t (0 : Fin 2) * 2000 + 2000
    rw [e0, ht]; omega
  | ⟨1, _⟩ =>
    show win0_14.index t (1 : Fin 2) * 128 ≤ (i 1).val ∧ (i 1).val < win0_14.index t (1 : Fin 2) * 128 + 128
    rw [e1]; omega

/-- The first output ends holding the three-layer row of every node. -/
theorem arr_eq (c : Dev nD) : (dat0 (F := Ideal) V c).arrAt 14 cfg0.N = Garr V c :=
  (dat0 (F := Ideal) V c).arrAt_eq_of_cover 14 (Garr V c) (fun t _ => flushed_eq V c t) cover

/-- Read by rows: every node's row is the three layers applied to `e * node + agg`. -/
theorem final (c : Dev nD) : nodes ((dat0 (F := Ideal) V c).arrAt 14 cfg0.N) = KReg0S.H0 V c :=
  (congrArg nodes (arr_eq V c)).trans (nodes_Garr V c)

end Cert.KernelIdeal.KReg0H
end
-- ==== Proof.KHost0.lean ====
/-
  The host operations the tiled program runs before its first stage, read at the arrays that stage is entered
  with: the neighbour aggregation (a gather of the source rows scattered and added at the target rows), the node
  count of each graph (at least one), the zero-one table of the graph assignment, the scalar one plus epsilon as a
  one-entry array, the weight matrices untouched, and each bias, scale and shift vector as a one-row array.
-/
import proofs.«428147_j72688026518088_3_alg».proof.Proof.Gen.KernelIdeal.Frame
import proofs.«428147_j72688026518088_3_alg».proof.Proof.KArr
import proofs.«428147_j72688026518088_3_alg».proof.Proof.SpecRaw
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.KHost0

open Idealize.ShloMosaic Idealize.ShloMosaic.TcCoe Idealize.ShloMosaic.ValueIdx
open Cert.KernelIdeal Cert.KernelIdeal.Gen Cert.KernelIdeal.KArr

/-! ## The two chains as single terms -/

/-- The aggregation: row 0 of the edge array gives each edge's source node (a negative index wrapped by the number
    of nodes), row 1 its target; the source rows of the node array are gathered, one per edge, and added into a zero
    array at the target rows. -/
def aggOf (x : S100000x128.Idx → EReal) (ei : IVec S2x1600000 32) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] ei slices_S2x1600000_S1x1600000_1_0)
        shapeCasts_S1x1600000_S1600000))
    (Host.gather gather_S100000x128_S1600000x1_S1600000x128_1_0_n_n_0_1_1128 x
      (broadcastInDim S1600000x1 ![0] bcast_S1600000_S1600000x1_0
        (select
          (cmpi .slt
            (shapeCast S1600000 (extractStridedSlice S1x1600000 ![0, 0] ei slices_S2x1600000_S1x1600000_0_0)
              shapeCasts_S1x1600000_S1600000)
            (broadcastInDim S1600000 ![] bcast_S_S1600000 (constantI S_ 32 0#32)))
          (addi
            (shapeCast S1600000 (extractStridedSlice S1x1600000 ![0, 0] ei slices_S2x1600000_S1x1600000_0_0)
              shapeCasts_S1x1600000_S1600000)
            (broadcastInDim S1600000 ![] bcast_S_S1600000 (constantI S_ 32 100000#32)))
          (shapeCast S1600000 (extractStridedSlice S1x1600000 ![0, 0] ei slices_S2x1600000_S1x1600000_0_0)
            shapeCasts_S1x1600000_S1600000))))

/-- The node counts: a one per node added into a zero vector at the node's graph, the larger of that and one, as a
    column. -/
def cntOf (bp : IVec S100000 32) : S128x1.Idx → EReal :=
  broadcastInDim S128x1 ![0] bcast_S128_S128x1_0
    (maximumf (F := Ideal)
      (Host.scatterAdd (F := Ideal) scatter_S128_S100000x1_S100000_n_0_0_1
        (broadcastInDim S128 ![] bcast_S_S128 (constant (F := Ideal) S_ .f32 0x00000000#32))
        (broadcastInDim S100000x1 ![0] bcast_S100000_S100000x1_0 bp)
        (broadcastInDim S100000 ![] bcast_S_S100000 (constant (F := Ideal) S_ .f32 0x3F800000#32)))
      (broadcastInDim S128 ![] bcast_S_S128 (constant (F := Ideal) S_ .f32 0x3F800000#32)))

/-! ## The stretch from any contents -/

section Any

variable (V : Valuation τ sig (Elt Ideal))

theorem after_v13 :
    StableHlo.after (hostOps0 (F := Ideal)) V (Proc.devRef .tc main_v13)
      = aggOf (V (Proc.devRef .tc main_arg0)) (V (Proc.devRef .tc main_arg1)) := by
  dsimp only [hostOps0]
  after_results_simp
  rfl

theorem after_v20 :
    StableHlo.after (hostOps0 (F := Ideal)) V (Proc.devRef .tc main_v20) = cntOf (V (Proc.devRef .tc main_arg3)) := by
  dsimp only [hostOps0]
  after_results_simp
  rfl

theorem after_v28 :
    StableHlo.after (hostOps0 (F := Ideal)) V (Proc.devRef .tc main_v28)
      = shapeCast S1x1 (addf (F := Ideal) (constant (F := Ideal) S_ .f32 0x3F800000#32) (V (Proc.devRef .tc main_arg4)))
          shapeCasts_S_S1x1 := by
  dsimp only [hostOps0]
  after_results_simp
  rfl

theorem after_v26 :
    StableHlo.after (hostOps0 (F := Ideal)) V (Proc.devRef .tc main_v26)
      = uitofp (F := Ideal) .bf16
          (cmpi .eq
            (broadcastInDim S100000x128 ![0, 1] bcast_S100000x1_S100000x128_0_1
              (broadcastInDim S100000x1 ![0] bcast_S100000_S100000x1_0 (V (Proc.devRef .tc main_arg3))))
            (broadcastInDim S100000x128 ![0, 1] bcast_S1x128_S100000x128_0_1 (iotaInDim S1x128 32 1))) := by
  dsimp only [hostOps0]
  after_results_simp

/-- The four arrays the stretch leaves alone. -/
theorem after_arg0 : StableHlo.after (hostOps0 (F := Ideal)) V (Proc.devRef .tc main_arg0) = V (Proc.devRef .tc main_arg0) := by
  dsimp only [hostOps0]
  after_results_simp
theorem after_arg5 : StableHlo.after (hostOps0 (F := Ideal)) V (Proc.devRef .tc main_arg5) = V (Proc.devRef .tc main_arg5) := by
  dsimp only [hostOps0]
  after_results_simp
theorem after_arg9 : StableHlo.after (hostOps0 (F := Ideal)) V (Proc.devRef .tc main_arg9) = V (Proc.devRef .tc main_arg9) := by
  dsimp only [hostOps0]
  after_results_simp
theorem after_arg13 : StableHlo.after (hostOps0 (F := Ideal)) V (Proc.devRef .tc main_arg13) = V (Proc.devRef .tc main_arg13) := by
  dsimp only [hostOps0]
  after_results_simp

/-- The seven vectors laid out as one-row arrays. -/
theorem after_v29 : StableHlo.after (hostOps0 (F := Ideal)) V (Proc.devRef .tc main_v29)
    = shapeCast S1x128 (V (Proc.devRef .tc main_arg6)) shapeCasts_S128_S1x128 := by
  dsimp only [hostOps0]
  after_results_simp
  rfl
theorem after_v30 : StableHlo.after (hostOps0 (F := Ideal)) V (Proc.devRef .tc main_v30)
    = shapeCast S1x128 (V (Proc.devRef .tc main_arg7)) shapeCasts_S128_S1x128 := by
  dsimp only [hostOps0]
  after_results_simp
  rfl
theorem after_v31 : StableHlo.after (hostOps0 (F := Ideal)) V (Proc.devRef .tc main_v31)
    = shapeCast S1x128 (V (Proc.devRef .tc main_arg8)) shapeCasts_S128_S1x128 := by
  dsimp only [hostOps0]
  after_results_simp
  rfl
theorem after_v32 : StableHlo.after (hostOps0 (F := Ideal)) V (Proc.devRef .tc main_v32)
    = shapeCast S1x128 (V (Proc.devRef .tc main_arg10)) shapeCasts_S128_S1x128 := by
  dsimp only [hostOps0]
  after_results_simp
  rfl
theorem after_v33 : StableHlo.after (hostOps0 (F := Ideal)) V (Proc.devRef .tc main_v33)
    = shapeCast S1x128 (V (Proc.devRef .tc main_arg11)) shapeCasts_S128_S1x128 := by
  dsimp only [hostOps0]
  after_results_simp
  rfl
theorem after_v34 : StableHlo.after (hostOps0 (F := Ideal)) V (Proc.devRef .tc main_v34)
    = shapeCast S1x128 (V (Proc.devRef .tc main_arg12)) shapeCasts_S128_S1x128 := by
  dsimp only [hostOps0]
  after_results_simp
  rfl
theorem after_v35 : StableHlo.after (hostOps0 (F := Ideal)) V (Proc.devRef .tc main_v35)
    = shapeCast S1x128 (V (Proc.devRef .tc main_arg14)) shapeCasts_S128_S1x128 := by
  dsimp only [hostOps0]
  after_results_simp
  rfl

end Any

/-! ## The layout operations read at coordinates -/

/-- A scalar laid out as a one-entry array is read back at that entry. -/
theorem one1_shapeCast (y : S_.Idx → EReal) (h : S_.ShapeCasts S1x1) : one1 (shapeCast S1x1 y h) = y ix0 := by
  unfold one1 shapeCast
  exact congrArg y (eq_ix0 _)

/-- A vector laid out as a one-row array is read back as the vector. -/
theorem row1_shapeCast (x : S128.Idx → EReal) (h : S128.ShapeCasts S1x128) : row1 (shapeCast S1x128 x h) = vec x := by
  funext j
  exact shapeCast_a_1a_apply x h 0 j

/-- The zero-one table: the node's graph number, repeated along the row, compared with the column's number. -/
theorem onehot_apply (bp : IVec S100000 32) (n : Fin 100000) (g : Fin 128) :
    (uitofp (F := Ideal) .bf16
        (cmpi .eq
          (broadcastInDim S100000x128 ![0, 1] bcast_S100000x1_S100000x128_0_1
            (broadcastInDim S100000x1 ![0] bcast_S100000_S100000x1_0 bp))
          (broadcastInDim S100000x128 ![0, 1] bcast_S1x128_S100000x128_0_1 (iotaInDim S1x128 32 1))) : S100000x128.Idx → EReal)
      (ix2 n g) = if bp (ix1 n) = BitVec.ofNat 32 g.val then 1 else 0 := by
  have e1 : broadcastInDim S100000x128 ![0, 1] bcast_S100000x1_S100000x128_0_1
      (broadcastInDim S100000x1 ![0] bcast_S100000_S100000x1_0 bp) (ix2 n g) = bp (ix1 n) :=
    (broadcastInDim_apply _ _ _ (ix2 n g) (ix2 n (0 : Fin 1))
        (fun a => match a with | ⟨0, _⟩ => rfl | ⟨1, _⟩ => rfl)).trans
      (broadcastInDim_apply _ _ _ (ix2 n (0 : Fin 1)) (ix1 n) (fun a => match a with | ⟨0, _⟩ => rfl))
  have e2 : broadcastInDim S100000x128 ![0, 1] bcast_S1x128_S100000x128_0_1 (iotaInDim S1x128 32 1) (ix2 n g)
      = BitVec.ofNat 32 g.val :=
    broadcastInDim_apply _ _ _ (ix2 n g) (ix2 (0 : Fin 1) g) (fun a => match a with | ⟨0, _⟩ => rfl | ⟨1, _⟩ => rfl)
  show (((IntOp.cmpi .eq
      (broadcastInDim S100000x128 ![0, 1] bcast_S100000x1_S100000x128_0_1
        (broadcastInDim S100000x1 ![0] bcast_S100000_S100000x1_0 bp) (ix2 n g))
      (broadcastInDim S100000x128 ![0, 1] bcast_S1x128_S100000x128_0_1 (iotaInDim S1x128 32 1) (ix2 n g))).toNat : ℝ) : EReal) = _
  rw [e1, e2]
  by_cases h : bp (ix1 n) = BitVec.ofNat 32 g.val
  · rw [if_pos h, h]
    simp [IntOp.cmpi]
  · rw [if_neg h]
    simp [IntOp.cmpi, h]

/-! ## The first stage's arrays -/

variable (m : (ℓ : Loc nD τ sig) → Buf (Elt Ideal) ℓ) (ρ : Dev nD → PrngReg)

/-- The scalar the node rows are scaled by: one plus epsilon. -/
theorem v28 (c : Dev nD) : one1 (V1 m ρ c main_v28) = GIN.w1 + (m ((c : Thread nD τ).loc main_arg4)) ix0 :=
  (congrArg one1 (after_v28 (W0 m ρ c))).trans (one1_shapeCast _ _)

/-- The aggregated neighbour rows. -/
theorem v13 (c : Dev nD) :
    V1 m ρ c main_v13 = aggOf (m ((c : Thread nD τ).loc main_arg0)) (m ((c : Thread nD τ).loc main_arg1)) :=
  after_v13 (W0 m ρ c)

/-- The node counts. -/
theorem v20 (c : Dev nD) : V1 m ρ c main_v20 = cntOf (m ((c : Thread nD τ).loc main_arg3)) :=
  after_v20 (W0 m ρ c)

/-- The zero-one table of the graph assignment. -/
theorem v26 (c : Dev nD) (n : Fin 100000) (g : Fin 128) :
    nodes (V1 m ρ c main_v26) n g
      = if (m ((c : Thread nD τ).loc main_arg3)) (ix1 n) = BitVec.ofNat 32 g.val then 1 else 0 :=
  (congrFun (after_v26 (W0 m ρ c)) (ix2 n g)).trans (onehot_apply _ n g)

theorem arg0 (c : Dev nD) : V1 m ρ c main_arg0 = m ((c : Thread nD τ).loc main_arg0) := after_arg0 (W0 m ρ c)
theorem arg5 (c : Dev nD) : V1 m ρ c main_arg5 = m ((c : Thread nD τ).loc main_arg5) := after_arg5 (W0 m ρ c)
theorem arg9 (c : Dev nD) : V1 m ρ c main_arg9 = m ((c : Thread nD τ).loc main_arg9) := after_arg9 (W0 m ρ c)
theorem arg13 (c : Dev nD) : V1 m ρ c main_arg13 = m ((c : Thread nD τ).loc main_arg13) := after_arg13 (W0 m ρ c)

theorem v29 (c : Dev nD) : row1 (V1 m ρ c main_v29) = vec (m ((c : Thread nD τ).loc main_arg6)) :=
  (congrArg row1 (after_v29 (W0 m ρ c))).trans (row1_shapeCast _ _)
theorem v30 (c : Dev nD) : row1 (V1 m ρ c main_v30) = vec (m ((c : Thread nD τ).loc main_arg7)) :=
  (congrArg row1 (after_v30 (W0 m ρ c))).trans (row1_shapeCast _ _)
theorem v31 (c : Dev nD) : row1 (V1 m ρ c main_v31) = vec (m ((c : Thread nD τ).loc main_arg8)) :=
  (congrArg row1 (after_v31 (W0 m ρ c))).trans (row1_shapeCast _ _)
theorem v32 (c : Dev nD) : row1 (V1 m ρ c main_v32) = vec (m ((c : Thread nD τ).loc main_arg10)) :=
  (congrArg row1 (after_v32 (W0 m ρ c))).trans (row1_shapeCast _ _)
theorem v33 (c : Dev nD) : row1 (V1 m ρ c main_v33) = vec (m ((c : Thread nD τ).loc main_arg11)) :=
  (congrArg row1 (after_v33 (W0 m ρ c))).trans (row1_shapeCast _ _)
theorem v34 (c : Dev nD) : row1 (V1 m ρ c main_v34) = vec (m ((c : Thread nD τ).loc main_arg12)) :=
  (congrArg row1 (after_v34 (W0 m ρ c))).trans (row1_shapeCast _ _)
theorem v35 (c : Dev nD) : row1 (V1 m ρ c main_v35) = vec (m ((c : Thread nD τ).loc main_arg14)) :=
  (congrArg row1 (after_v35 (W0 m ρ c))).trans (row1_shapeCast _ _)

end Cert.KernelIdeal.KHost0

end
-- ==== Proof.KHost12.lean ====
/-
  The host operations between the three tiled stages, and what each later stage is entered with.

  After the first stage the two cores' partial sum tables are added, each graph's row is divided by the graph's node
  count and each column is scaled: the scaled mean table.  It is handed to the second stage as a pair, the table
  and the table minus itself.  After the second stage the same is done with the tables of squared deviations,
  without the scaling: the variance table, again handed on as a pair.  Every other array a later stage reads is
  untouched since it was made: the rows the first stage leaves, the zero-one table, the counts, and the scale and
  shift vectors, the last two laid out as one row.
-/
import proofs.«428147_j72688026518088_3_alg».proof.Proof.Gen.KernelIdeal.Frame
import proofs.«428147_j72688026518088_3_alg».proof.Proof.KArr
import proofs.«428147_j72688026518088_3_alg».proof.Proof.SpecRaw
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.KHost12

open Cert.KernelIdeal Cert.KernelIdeal.Gen Cert.KernelIdeal.KArr
open Idealize.ShloMosaic Idealize.ShloMosaic.ValueIdx Idealize.ShloMosaic.TcCoe Idealize.SL.Sem

/-! ## The host operations between the regions, read at an index -/

/-- Table `k` of a stack of two tables, cut out along the leading axis and read as a table. -/
theorem sliceTab_apply (X : FVec Ideal S2x128x128 .f32) (o : ℕ) (hs : S2x128x128.Slices ![o, 0, 0] S1x128x128)
    (hc : S1x128x128.ShapeCasts S128x128) (k : Fin 2) (hk : k.val = o) (g j : Fin 128) :
    shapeCast S128x128 (extractStridedSlice S1x128x128 ![o, 0, 0] X hs) hc (ix2 g j) = X (ix3 k g j) := by
  refine (shapeCast_1ab_ab_apply _ hc g j).trans ?_
  refine extractStridedSlice_apply _ X hs _ (ix3 k g j) (fun a => ?_)
  match a with
  | ⟨0, _⟩ => exact hk.trans (Nat.add_zero _).symm
  | ⟨1, _⟩ => exact (Nat.zero_add _).symm
  | ⟨2, _⟩ => exact (Nat.zero_add _).symm

/-- A column of counts broadcast along the rows of a table reads the row's count. -/
theorem bcastCol_apply (cn : FVec Ideal S128x1 .f32) (hb : S128x1.BroadcastsInDim S128x128 (![0, 1] : Fin 2 → Fin S128x128.rank))
    (g j : Fin 128) : broadcastInDim S128x128 ![0, 1] hb cn (ix2 g j) = cn (ix2 g 0) := by
  refine broadcastInDim_apply _ hb cn _ (ix2 g 0) (fun a => ?_)
  match a with
  | ⟨0, _⟩ => rfl
  | ⟨1, _⟩ => rfl

/-- A vector laid out as one row and broadcast along the rows of a table reads the vector at the column. -/
theorem bcastRow_apply (sc : FVec Ideal S128 .f32) (hc : S128.ShapeCasts S1x128)
    (hb : S1x128.BroadcastsInDim S128x128 (![0, 1] : Fin 2 → Fin S128x128.rank)) (g j : Fin 128) :
    broadcastInDim S128x128 ![0, 1] hb (shapeCast S1x128 sc hc) (ix2 g j) = sc (ix1 j) := by
  refine (broadcastInDim_apply _ hb _ _ (ix2 (0 : Fin 1) j) (fun a => ?_)).trans (shapeCast_a_1a_apply sc hc 0 j)
  match a with
  | ⟨0, _⟩ => rfl
  | ⟨1, _⟩ => rfl

/-- The two cores' tables added, each row divided by its graph's count. -/
def sumDiv (X : FVec Ideal S2x128x128 .f32) (cn : FVec Ideal S128x1 .f32) : FVec Ideal S128x128 .f32 :=
  Host.divf
    (addf (shapeCast S128x128 (extractStridedSlice S1x128x128 ![0, 0, 0] X slices_S2x128x128_S1x128x128_0_0_0) shapeCasts_S1x128x128_S128x128)
      (shapeCast S128x128 (extractStridedSlice S1x128x128 ![1, 0, 0] X slices_S2x128x128_S1x128x128_1_0_0) shapeCasts_S1x128x128_S128x128))
    (broadcastInDim S128x128 ![0, 1] bcast_S128x1_S128x128_0_1 cn)

theorem sumDiv_apply (X : FVec Ideal S2x128x128 .f32) (cn : FVec Ideal S128x1 .f32) (g j : Fin 128) :
    sumDiv X cn (ix2 g j) = Ideal.div (X (ix3 0 g j) + X (ix3 1 g j)) (cn (ix2 g 0)) := by
  unfold sumDiv
  rw [hostDivf_apply, addf_apply, bcastCol_apply]
  rw [sliceTab_apply X 0 _ _ 0 rfl, sliceTab_apply X 1 _ _ 1 rfl]

/-- The same, each column then scaled by a vector's entry. -/
def sumDivScale (X : FVec Ideal S2x128x128 .f32) (cn : FVec Ideal S128x1 .f32) (sc : FVec Ideal S128 .f32) : FVec Ideal S128x128 .f32 :=
  mulf (sumDiv X cn) (broadcastInDim S128x128 ![0, 1] bcast_S1x128_S128x128_0_1 (shapeCast S1x128 sc shapeCasts_S128_S1x128))

theorem sumDivScale_apply (X : FVec Ideal S2x128x128 .f32) (cn : FVec Ideal S128x1 .f32) (sc : FVec Ideal S128 .f32) (g j : Fin 128) :
    sumDivScale X cn sc (ix2 g j) = Ideal.div (X (ix3 0 g j) + X (ix3 1 g j)) (cn (ix2 g 0)) * sc (ix1 j) := by
  unfold sumDivScale
  rw [mulf_apply, sumDiv_apply, bcastRow_apply]

/-! ## The buffers at the boundaries, read back through the run -/

variable (m : (ℓ : Loc nD τ sig) → Buf (Elt Ideal) ℓ) (ρ : Dev nD → PrngReg)

/-- The stack of the two cores' partial sum tables region 0 leaves. -/
abbrev S0 (c : Dev nD) : S2x128x128.Idx → EReal := (dat0 (V1 m ρ) c).arrAt 15 cfg0.N
/-- The stack of the two cores' partial tables of squared deviations region 1 leaves. -/
abbrev S1 (c : Dev nD) : S2x128x128.Idx → EReal := (dat1 (V3 m ρ) c).arrAt 4 cfg1.N
/-- The count of graph `g`, as the first host stretch leaves it. -/
abbrev cnt (c : Dev nD) (g : Fin 128) : EReal := (V1 m ρ c main_v20 : S128x1.Idx → EReal) (ix2 g 0)
/-- An argument's contents at launch. -/
abbrev X (c : Dev nD) (r : Ref sig .tc) : Buf (Elt Ideal) ((c : Thread nD τ).loc r) := m ((c : Thread nD τ).loc r)

/-! ### Region 0's exit -/

theorem W2_v36_1 (c : Dev nD) : W2 m ρ c (Proc.devRef .tc main_v36_1) = S0 m ρ c := W2_arr m ρ c 15

theorem W2_v20 (c : Dev nD) : W2 m ρ c (Proc.devRef .tc main_v20) = V1 m ρ c main_v20 := W2_of_ne m ρ c main_v20 (by decide)

theorem W2_arg (c : Dev nD) (r : Ref sig .tc) (h2 : ∀ w, Pipeline.arrRef spec0 w ≠ r)
    (h0 : ∀ op ∈ (hostOps0 : List (HloOp τ sig (Elt Ideal))), Proc.devRef .tc r ∉ op.writes) :
    W2 m ρ c (Proc.devRef .tc r) = X m c r :=
  (W2_of_ne m ρ c r h2).trans (StableHlo.after_of_forall_not_mem _ _ h0)

theorem W2_arg17 (c : Dev nD) : W2 m ρ c (Proc.devRef .tc main_arg17) = X m c main_arg17 :=
  W2_arg m ρ c main_arg17 (by decide) (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

/-! ### Region 1's entry -/

/-- The rows region 0 leaves are the rows region 1 is entered with. -/
theorem v3_h (c : Dev nD) : V3 m ρ c main_v36_0 = (dat0 (V1 m ρ) c).arrAt 14 cfg0.N :=
  calc W3 m ρ c (Proc.devRef .tc main_v36_0)
    _ = W2 m ρ c (Proc.devRef .tc main_v36_0) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = (dat0 (V1 m ρ) c).arrAt 14 cfg0.N := W2_arr m ρ c 14

/-- The zero-one table is untouched by region 0 and by the stretch after it. -/
theorem v3_oh (c : Dev nD) : V3 m ρ c main_v26 = V1 m ρ c main_v26 :=
  calc W3 m ρ c (Proc.devRef .tc main_v26)
    _ = W2 m ρ c (Proc.devRef .tc main_v26) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v26) := (W2_arr m ρ c 3).trans (((dat0 (V1 m ρ) c).arrAt_in 3 rfl _).trans (A_eq0 (V1 m ρ) c 3))

/-- The scaled mean table, as the stretch computes it. -/
theorem v47_eq (c : Dev nD) :
    (V3 m ρ c main_v47 : S128x128.Idx → EReal)
      = truncf .bf16 (sumDivScale (S0 m ρ c) (V1 m ρ c main_v20) (X m c main_arg17)) bitsLt_bf16_f32 := by
  have e : StableHlo.after hostOps1 (W2 m ρ c) (Proc.devRef .tc main_v47)
      = truncf .bf16 (sumDivScale (W2 m ρ c (Proc.devRef .tc main_v36_1)) (W2 m ρ c (Proc.devRef .tc main_v20))
          (W2 m ρ c (Proc.devRef .tc main_arg17))) bitsLt_bf16_f32 := by
    after_results; rfl
  rw [W2_v36_1, W2_v20, W2_arg17] at e
  exact e

/-- Its remainder: the table minus itself. -/
theorem v50_eq (c : Dev nD) :
    (V3 m ρ c main_v50 : S128x128.Idx → EReal)
      = truncf .bf16 (subf (sumDivScale (S0 m ρ c) (V1 m ρ c main_v20) (X m c main_arg17))
          (extf .f32 (truncf .bf16 (sumDivScale (S0 m ρ c) (V1 m ρ c main_v20) (X m c main_arg17)) bitsLt_bf16_f32) bitsLt_bf16_f32)) bitsLt_bf16_f32 := by
  have e : StableHlo.after hostOps1 (W2 m ρ c) (Proc.devRef .tc main_v50)
      = truncf .bf16 (subf (sumDivScale (W2 m ρ c (Proc.devRef .tc main_v36_1)) (W2 m ρ c (Proc.devRef .tc main_v20))
            (W2 m ρ c (Proc.devRef .tc main_arg17)))
          (extf .f32 (truncf .bf16 (sumDivScale (W2 m ρ c (Proc.devRef .tc main_v36_1)) (W2 m ρ c (Proc.devRef .tc main_v20))
            (W2 m ρ c (Proc.devRef .tc main_arg17))) bitsLt_bf16_f32) bitsLt_bf16_f32)) bitsLt_bf16_f32 := by
    after_results; rfl
  rw [W2_v36_1, W2_v20, W2_arg17] at e
  exact e

theorem v3_mshi (c : Dev nD) :
    tab (V3 m ρ c main_v47)
      = fun g j => Ideal.div (stack (S0 m ρ c) 0 g j + stack (S0 m ρ c) 1 g j) (cnt m ρ c g) * vec (X m c main_arg17) j := by
  funext g j
  show (V3 m ρ c main_v47 : S128x128.Idx → EReal) (ix2 g j) = _
  rw [v47_eq, truncf_apply, sumDivScale_apply]
  rfl

theorem v3_mslo (c : Dev nD) : tab (V3 m ρ c main_v50) = GIN.lo (tab (V3 m ρ c main_v47)) := by
  funext g j
  show (V3 m ρ c main_v50 : S128x128.Idx → EReal) (ix2 g j) = GIN.lo (tab (V3 m ρ c main_v47 : S128x128.Idx → EReal)) g j
  rw [v50_eq, v47_eq]
  generalize sumDivScale (S0 m ρ c) (V1 m ρ c main_v20) (X m c main_arg17) = A
  rfl

/-! ### Region 1's exit -/

theorem W4_v51 (c : Dev nD) : W4 m ρ c (Proc.devRef .tc main_v51) = S1 m ρ c := W4_arr m ρ c 4

/-- A buffer region 1 only reads is at its exit what it was at its entry. -/
theorem W4_in (c : Dev nD) (w : Fin cfg1.W) (hw : (cfg1.win w).isOut = false) :
    W4 m ρ c (Proc.devRef .tc (Pipeline.arrRef spec1 w)) = V3 m ρ c (Pipeline.arrRef spec1 w) :=
  (W4_arr m ρ c w).trans (((dat1 (V3 m ρ) c).arrAt_in w hw _).trans (A_eq1 (V3 m ρ) c w))

theorem W4_v20 (c : Dev nD) : W4 m ρ c (Proc.devRef .tc main_v20) = V1 m ρ c main_v20 :=
  calc W4 m ρ c (Proc.devRef .tc main_v20)
    _ = W3 m ρ c (Proc.devRef .tc main_v20) := W4_of_ne m ρ c main_v20 (by decide)
    _ = W2 m ρ c (Proc.devRef .tc main_v20) := StableHlo.after_of_forall_not_mem _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = V1 m ρ c main_v20 := W2_v20 m ρ c

theorem W4_arg (c : Dev nD) (r : Ref sig .tc) (h4 : ∀ w, Pipeline.arrRef spec1 w ≠ r)
    (h1 : ∀ op ∈ (hostOps1 : List (HloOp τ sig (Elt Ideal))), Proc.devRef .tc r ∉ op.writes)
    (h2 : ∀ w, Pipeline.arrRef spec0 w ≠ r)
    (h0 : ∀ op ∈ (hostOps0 : List (HloOp τ sig (Elt Ideal))), Proc.devRef .tc r ∉ op.writes) :
    W4 m ρ c (Proc.devRef .tc r) = X m c r :=
  ((W4_of_ne m ρ c r h4).trans (StableHlo.after_of_forall_not_mem _ _ h1)).trans (W2_arg m ρ c r h2 h0)

theorem W4_arg15 (c : Dev nD) : W4 m ρ c (Proc.devRef .tc main_arg15) = X m c main_arg15 :=
  W4_arg m ρ c main_arg15 (by decide)
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    (by decide)
    (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem W4_arg16 (c : Dev nD) : W4 m ρ c (Proc.devRef .tc main_arg16) = X m c main_arg16 :=
  W4_arg m ρ c main_arg16 (by decide)
    (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    (by decide)
    (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

/-! ### Region 2's entry -/

theorem v5_h (c : Dev nD) : V5 m ρ c main_v36_0 = (dat0 (V1 m ρ) c).arrAt 14 cfg0.N :=
  calc W5 m ρ c (Proc.devRef .tc main_v36_0)
    _ = W4 m ρ c (Proc.devRef .tc main_v36_0) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = V3 m ρ c main_v36_0 := W4_in m ρ c 0 rfl
    _ = (dat0 (V1 m ρ) c).arrAt 14 cfg0.N := v3_h m ρ c

theorem v5_oh (c : Dev nD) : V5 m ρ c main_v26 = V1 m ρ c main_v26 :=
  calc W5 m ρ c (Proc.devRef .tc main_v26)
    _ = W4 m ρ c (Proc.devRef .tc main_v26) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = V3 m ρ c main_v26 := W4_in m ρ c 1 rfl
    _ = V1 m ρ c main_v26 := v3_oh m ρ c

theorem v5_mshi (c : Dev nD) : V5 m ρ c main_v47 = V3 m ρ c main_v47 :=
  calc W5 m ρ c (Proc.devRef .tc main_v47)
    _ = W4 m ρ c (Proc.devRef .tc main_v47) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = V3 m ρ c main_v47 := W4_in m ρ c 2 rfl

theorem v5_mslo (c : Dev nD) : V5 m ρ c main_v50 = V3 m ρ c main_v50 :=
  calc W5 m ρ c (Proc.devRef .tc main_v50)
    _ = W4 m ρ c (Proc.devRef .tc main_v50) := StableHlo.after_of_forall_not_mem _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))
    _ = V3 m ρ c main_v50 := W4_in m ρ c 3 rfl

/-- The variance table, as the stretch computes it. -/
theorem v59_eq (c : Dev nD) :
    (V5 m ρ c main_v59 : S128x128.Idx → EReal) = truncf .bf16 (sumDiv (S1 m ρ c) (V1 m ρ c main_v20)) bitsLt_bf16_f32 := by
  have e : StableHlo.after hostOps2 (W4 m ρ c) (Proc.devRef .tc main_v59)
      = truncf .bf16 (sumDiv (W4 m ρ c (Proc.devRef .tc main_v51)) (W4 m ρ c (Proc.devRef .tc main_v20))) bitsLt_bf16_f32 := by
    after_results; rfl
  rw [W4_v51, W4_v20] at e
  exact e

/-- Its remainder: the table minus itself. -/
theorem v62_eq (c : Dev nD) :
    (V5 m ρ c main_v62 : S128x128.Idx → EReal)
      = truncf .bf16 (subf (sumDiv (S1 m ρ c) (V1 m ρ c main_v20))
          (extf .f32 (truncf .bf16 (sumDiv (S1 m ρ c) (V1 m ρ c main_v20)) bitsLt_bf16_f32) bitsLt_bf16_f32)) bitsLt_bf16_f32 := by
  have e : StableHlo.after hostOps2 (W4 m ρ c) (Proc.devRef .tc main_v62)
      = truncf .bf16 (subf (sumDiv (W4 m ρ c (Proc.devRef .tc main_v51)) (W4 m ρ c (Proc.devRef .tc main_v20)))
          (extf .f32 (truncf .bf16 (sumDiv (W4 m ρ c (Proc.devRef .tc main_v51)) (W4 m ρ c (Proc.devRef .tc main_v20))) bitsLt_bf16_f32)
            bitsLt_bf16_f32)) bitsLt_bf16_f32 := by
    after_results; rfl
  rw [W4_v51, W4_v20] at e
  exact e

theorem v5_varhi (c : Dev nD) :
    tab (V5 m ρ c main_v59) = fun g j => Ideal.div (stack (S1 m ρ c) 0 g j + stack (S1 m ρ c) 1 g j) (cnt m ρ c g) := by
  funext g j
  show (V5 m ρ c main_v59 : S128x128.Idx → EReal) (ix2 g j) = _
  rw [v59_eq, truncf_apply, sumDiv_apply]
  rfl

theorem v5_varlo (c : Dev nD) : tab (V5 m ρ c main_v62) = GIN.lo (tab (V5 m ρ c main_v59)) := by
  funext g j
  show (V5 m ρ c main_v62 : S128x128.Idx → EReal) (ix2 g j) = GIN.lo (tab (V5 m ρ c main_v59 : S128x128.Idx → EReal)) g j
  rw [v62_eq, v59_eq]
  generalize sumDiv (S1 m ρ c) (V1 m ρ c main_v20) = A
  rfl

/-- A vector laid out as one row reads, in that row, the vector. -/
theorem rowOfVec_apply (x : FVec Ideal S128 .f32) (hc : S128.ShapeCasts S1x128) (j : Fin 128) :
    shapeCast S1x128 x hc (ix2 (0 : Fin 1) j) = x (ix1 j) := shapeCast_a_1a_apply x hc 0 j

theorem v5_gnw (c : Dev nD) : row1 (V5 m ρ c main_v63) = vec (X m c main_arg15) := by
  have e : (V5 m ρ c main_v63 : S1x128.Idx → EReal)
      = shapeCast S1x128 (W4 m ρ c (Proc.devRef .tc main_arg15)) shapeCasts_S128_S1x128 := by
    show StableHlo.after hostOps2 (W4 m ρ c) (Proc.devRef .tc main_v63) = _
    after_results; rfl
  rw [W4_arg15] at e
  funext j
  show (V5 m ρ c main_v63 : S1x128.Idx → EReal) (ix2 0 j) = _
  rw [e]
  exact rowOfVec_apply _ _ j

theorem v5_gnb (c : Dev nD) : row1 (V5 m ρ c main_v64) = vec (X m c main_arg16) := by
  have e : (V5 m ρ c main_v64 : S1x128.Idx → EReal)
      = shapeCast S1x128 (W4 m ρ c (Proc.devRef .tc main_arg16)) shapeCasts_S128_S1x128 := by
    show StableHlo.after hostOps2 (W4 m ρ c) (Proc.devRef .tc main_v64) = _
    after_results; rfl
  rw [W4_arg16] at e
  funext j
  show (V5 m ρ c main_v64 : S1x128.Idx → EReal) (ix2 0 j) = _
  rw [e]
  exact rowOfVec_apply _ _ j

end Cert.KernelIdeal.KHost12

end
-- ==== Proof.KValue.lean ====
/-
  The tiled program's result as one function of its arguments.

  The last region's output array is read back stage by stage: its inputs are what the host stretch before it
  computed from the second region's two partial tables; those are running sums of tile contributions of the squared
  deviations, whose inputs the stretch before computed from the first region's partial tables; and those, with the
  rows every later stage reads, are the three layers applied to each node's row.  Put together this is the
  specification's tiled form `GIN.kernelOut` at the zero-one table of the graph assignment, the node counts and the
  rows the layers leave.
-/
import proofs.«428147_j72688026518088_3_alg».proof.Proof.KRun
import proofs.«428147_j72688026518088_3_alg».proof.Proof.KReg2
import proofs.«428147_j72688026518088_3_alg».proof.Proof.KReg1
import proofs.«428147_j72688026518088_3_alg».proof.Proof.KReg0S
import proofs.«428147_j72688026518088_3_alg».proof.Proof.KReg0H
import proofs.«428147_j72688026518088_3_alg».proof.Proof.KHost0
import proofs.«428147_j72688026518088_3_alg».proof.Proof.KHost12

noncomputable section

namespace Cert.KernelIdeal.KValue

open Cert.KernelIdeal Cert.KernelIdeal.Gen Cert.KernelIdeal.KArr Idealize.ShloMosaic Idealize.ShloMosaic.TcCoe Idealize.ShloMosaic.ValueIdx

variable (m : (ℓ : Loc nD τ sig) → Buf (Elt Ideal) ℓ) (ρ : Dev nD → PrngReg)

/-- The rows the three layers leave, from the arguments. -/
def Hk (c : Dev nD) : GIN.Nodes := fun n =>
  GIN.mlp (tab (m ((c : Thread nD τ).loc main_arg5))) (vec (m ((c : Thread nD τ).loc main_arg6))) (vec (m ((c : Thread nD τ).loc main_arg7)))
    (vec (m ((c : Thread nD τ).loc main_arg8))) (tab (m ((c : Thread nD τ).loc main_arg9))) (vec (m ((c : Thread nD τ).loc main_arg10)))
    (vec (m ((c : Thread nD τ).loc main_arg11))) (vec (m ((c : Thread nD τ).loc main_arg12))) (tab (m ((c : Thread nD τ).loc main_arg13)))
    (vec (m ((c : Thread nD τ).loc main_arg14)))
    (GIN.hin (GIN.w1 + (m ((c : Thread nD τ).loc main_arg4)) ix0) (nodes (m ((c : Thread nD τ).loc main_arg0)))
      (nodes (KHost0.aggOf (m ((c : Thread nD τ).loc main_arg0)) (m ((c : Thread nD τ).loc main_arg1)))) n)

/-- The zero-one table of the graph assignment. -/
def ohk (c : Dev nD) : GIN.Nodes := fun n g => if (m ((c : Thread nD τ).loc main_arg3)) (ix1 n) = BitVec.ofNat 32 g.val then 1 else 0

/-- The node counts. -/
def cntk (c : Dev nD) : GIN.Row := fun g => (KHost0.cntOf (m ((c : Thread nD τ).loc main_arg3)) : S128x1.Idx → EReal) (ix2 g 0)

/-- The rows the first region is entered with give the layers' rows of the arguments. -/
theorem H0_eq (c : Dev nD) : KReg0S.H0 (V1 m ρ) c = Hk m c := by
  funext n
  unfold KReg0S.H0 Hk
  rw [KHost0.arg5, KHost0.arg9, KHost0.arg13, KHost0.arg0, KHost0.v13, KHost0.v28, KHost0.v29, KHost0.v30, KHost0.v31, KHost0.v32,
    KHost0.v33, KHost0.v34, KHost0.v35]

/-- The zero-one table the regions are entered with. -/
theorem oh_eq (c : Dev nD) : nodes (V1 m ρ c main_v26) = ohk m c := by
  funext n g
  exact KHost0.v26 m ρ c n g

/-- The node counts the host stretches divide by. -/
theorem cnt_eq (c : Dev nD) (g : Fin 128) : (V1 m ρ c main_v20 : S128x1.Idx → EReal) (ix2 g 0) = cntk m c g := by
  unfold cntk
  rw [KHost0.v20]

/-- The result array after the last region is the tiled form of the specification. -/
theorem result (c : Dev nD) :
    nodes (W6 m ρ c (Proc.devRef .tc main_v65))
      = GIN.kernelOut (vec (m ((c : Thread nD τ).loc main_arg15))) (vec (m ((c : Thread nD τ).loc main_arg16)))
          (vec (m ((c : Thread nD τ).loc main_arg17))) (cntk m c) (ohk m c) (Hk m c) := by
  have hms : tab (V3 m ρ c main_v47) = GIN.kMs (ohk m c) (Hk m c) (cntk m c) (vec (m ((c : Thread nD τ).loc main_arg17))) := by
    rw [KHost12.v3_mshi]
    funext g j
    rw [KReg0S.final (V1 m ρ) c 0, KReg0S.final (V1 m ρ) c 1, oh_eq, H0_eq, show KHost12.cnt m ρ c g = cntk m c g from cnt_eq m ρ c g]
    rfl
  have hsub : GIN.subRaw (nodes (V3 m ρ c main_v26)) (nodes (V3 m ρ c main_v36_0)) (tab (V3 m ρ c main_v47)) (tab (V3 m ρ c main_v50))
      = GIN.kSub (ohk m c) (Hk m c) (GIN.kMs (ohk m c) (Hk m c) (cntk m c) (vec (m ((c : Thread nD τ).loc main_arg17)))) := by
    rw [KHost12.v3_mslo, KHost12.v3_oh, KHost12.v3_h, KReg0H.final (V1 m ρ) c, hms, oh_eq, H0_eq, GIN.kSub_eq]
  have hvar : tab (V5 m ρ c main_v59)
      = GIN.kVar (ohk m c) (GIN.kSub (ohk m c) (Hk m c) (GIN.kMs (ohk m c) (Hk m c) (cntk m c) (vec (m ((c : Thread nD τ).loc main_arg17))))) (cntk m c) := by
    rw [KHost12.v5_varhi]
    funext g j
    rw [KReg1.final (V3 m ρ) c 0, KReg1.final (V3 m ρ) c 1, hsub, KHost12.v3_oh, oh_eq, show KHost12.cnt m ρ c g = cntk m c g from cnt_eq m ρ c g]
    rfl
  rw [show W6 m ρ c (Proc.devRef .tc main_v65) = (dat2 (V5 m ρ) c).arrAt 8 cfg2.N from W6_arr m ρ c 8]
  rw [KReg2.final (V5 m ρ) c, KHost12.v5_gnw, KHost12.v5_gnb, KHost12.v5_varlo, hvar, KHost12.v5_oh, KHost12.v5_h, KHost12.v5_mshi,
    KHost12.v5_mslo]
  rw [show nodes ((dat0 (V1 m ρ) c).arrAt 14 cfg0.N) = nodes (V3 m ρ c main_v36_0) from by rw [KHost12.v3_h],
    show nodes (V1 m ρ c main_v26) = nodes (V3 m ρ c main_v26) from by rw [KHost12.v3_oh], hsub, KHost12.v3_oh, oh_eq]
  unfold GIN.kernelOut
  rw [GIN.kOut_eq]

end Cert.KernelIdeal.KValue

end
-- ==== Proof.LibRealHost.lean ====
/-
  Host operations of a tensor program, read over the extended reals, keep arrays of real numbers real.

  Over the extended reals a sum or product can leave the real line only through an infinite operand, so an
  operation that only adds, multiplies, compares and re-indexes entries maps arrays whose entries are all real to
  arrays whose entries are all real.  This file records that for the operations a host program is made of: a
  scatter-add (each result entry is an operand entry plus a finite sum of update entries), a gather and a broadcast
  (each result entry is an operand entry), the elementwise product and maximum, constants, and the inverse square
  root, which is real on the positive reals.
-/
import Idealize.ShloMosaic.PureOps.Ideal
import Idealize.ShloMosaic.PureOps.Ideal.Laws

noncomputable section

open scoped BigOperators

namespace RealHost

open Idealize.ShloMosaic

/-- An extended real that is (the coercion of) a real number. -/
def IsReal (x : EReal) : Prop := ∃ r : ℝ, x = (r : EReal)

/-! ## Real numbers inside the extended reals -/

theorem isReal_coe (r : ℝ) : IsReal (r : EReal) := ⟨r, rfl⟩

theorem isReal_zero : IsReal 0 := ⟨0, EReal.coe_zero.symm⟩

theorem isReal_one : IsReal 1 := ⟨1, EReal.coe_one.symm⟩

/-- A sum of two real numbers is real. -/
theorem IsReal.add {a b : EReal} (ha : IsReal a) (hb : IsReal b) : IsReal (a + b) := by
  obtain ⟨u, rfl⟩ := ha
  obtain ⟨v, rfl⟩ := hb
  exact ⟨u + v, (EReal.coe_add u v).symm⟩

/-- A product of two real numbers is real. -/
theorem IsReal.mul {a b : EReal} (ha : IsReal a) (hb : IsReal b) : IsReal (a * b) := by
  obtain ⟨u, rfl⟩ := ha
  obtain ⟨v, rfl⟩ := hb
  exact ⟨u * v, (EReal.coe_mul u v).symm⟩

/-- The coercion carries the maximum of two real numbers to the maximum of their coercions (it is monotone). -/
theorem coe_max (u v : ℝ) : ((max u v : ℝ) : EReal) = max (u : EReal) (v : EReal) :=
  EReal.coe_strictMono.monotone.map_max

/-- The larger of two real numbers is real. -/
theorem IsReal.max {a b : EReal} (ha : IsReal a) (hb : IsReal b) : IsReal (max a b) := by
  obtain ⟨u, rfl⟩ := ha
  obtain ⟨v, rfl⟩ := hb
  exact ⟨Max.max u v, (coe_max u v).symm⟩

/-- A finite sum of real numbers is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih (fun i hi => h i (Finset.mem_insert_of_mem hi)))

/-- The inverse square root of a positive real number is real. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The inverse square root of the larger of a real number and one is real: the argument is at least one. -/
theorem isReal_rsqrt_max_one {a : EReal} (ha : IsReal a) : IsReal (Ideal.rsqrt (max a 1)) := by
  obtain ⟨u, rfl⟩ := ha
  rw [← EReal.coe_one, ← coe_max, rsqrt_coe_of_pos (lt_of_lt_of_le one_pos (le_max_right u 1))]
  exact isReal_coe _

/-- The f32 word of 1.0 denotes the number one. -/
theorem ofBits_f32_one : Ideal.ofBits .f32 0x3F800000#32 = 1 := by
  simp [Ideal.ofBits, Ideal.ieee, -EReal.coe_mul]; norm_num

/-! ## Arrays -/

section Arrays

variable {s si su t : Shape} {w : Nat} {φ : FTy}

/-- A scatter-add of real updates into a real operand is real: each entry is an operand entry plus a finite sum
    of update entries, wherever the indices send them. -/
theorem scatterAdd_isReal (d : ScatterDims s si su) (x : FVec Ideal s φ) (idx : IVec si w) (upd : FVec Ideal su φ)
    (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ (fun j _ => hu j))

/-- A gather from a real array is real: each entry is an entry of the operand, whatever the indices. -/
theorem gather_isReal (d : GatherDims s si t) (x : s.Idx → EReal) (idx : IVec si w)
    (hx : ∀ i, IsReal (x i)) (j : t.Idx) : IsReal (Host.gather d x idx j) := hx _

/-- A broadcast of a real array is real: each entry is an entry of the operand. -/
theorem broadcastInDim_isReal (dims : Fin s.rank → Fin t.rank) (h : s.BroadcastsInDim t dims) (x : s.Idx → EReal)
    (hx : ∀ i, IsReal (x i)) (j : t.Idx) : IsReal (broadcastInDim t dims h x j) := hx _

/-- The elementwise product of two real arrays is real. -/
theorem mulf_isReal (x y : FVec Ideal s φ) (hx : ∀ i, IsReal (x i)) (hy : ∀ i, IsReal (y i)) (i : s.Idx) :
    IsReal (mulf x y i) := (hx i).mul (hy i)

/-- The elementwise maximum of two real arrays is real. -/
theorem maximumf_isReal (x y : FVec Ideal s φ) (hx : ∀ i, IsReal (x i)) (hy : ∀ i, IsReal (y i)) (i : s.Idx) :
    IsReal (maximumf x y i) := (hx i).max (hy i)

/-- The splat of the f32 word of 0.0 is the number zero everywhere. -/
theorem constant_f32_zero (i : s.Idx) : (constant s .f32 0x00000000#32 : FVec Ideal s .f32) i = 0 :=
  Ideal.ofBits_zero_f32

/-- The splat of the f32 word of 1.0 is the number one everywhere. -/
theorem constant_f32_one (i : s.Idx) : (constant s .f32 0x3F800000#32 : FVec Ideal s .f32) i = 1 :=
  ofBits_f32_one

/-- The inverse square root of the elementwise maximum of a real array and the splat of one is real. -/
theorem rsqrt_max_one_isReal (x y : FVec Ideal s φ) (hx : ∀ i, IsReal (x i)) (hy : ∀ i, y i = 1) (i : s.Idx) :
    IsReal (Host.rsqrt (maximumf x y) i) := by
  show IsReal (Ideal.rsqrt (max (x i) (y i)))
  rw [hy i]
  exact isReal_rsqrt_max_one (hx i)

end Arrays

end RealHost

end
-- ==== Proof.RValue.lean ====
/-
  The plain program's rows after its three layers, index by index, as the specification's three layers.

  Each node's row is scaled by one plus a scalar and added to the node's aggregate; it then goes through a linear
  layer (a sum over the 128 input features plus a bias), a normalisation of the row (mean and variance over the 128
  features, an inverse square root, a scale and a shift) and a rectifier, the same three again, and a last linear
  layer.  The program computes this one whole-array operation at a time; read at an entry `(n, j)`, every operation
  involves only row `n`, so the composite is the specification's function of that row.  The aggregate is left as the
  program's own term: both programs compute it the same way.
-/
import proofs.«428147_j72688026518088_3_alg».proof.Proof.Gen.ReferenceIdeal.Run
import proofs.«428147_j72688026518088_3_alg».proof.Proof.Gen.ReferenceIdeal.Read
import proofs.«428147_j72688026518088_3_alg».proof.Proof.SpecRaw
import proofs.«428147_j72688026518088_3_alg».proof.Proof.LibRealHost
import proofs.«428147_j72688026518088_3_alg».proof.Proof.KArr
import Idealize.ShloMosaic.Lib.ValueIdx
import Idealize.ShloMosaic.Lib.ValueLayout
import Idealize.ShloMosaic.PureOps.Ideal.Laws

noncomputable section

open scoped BigOperators

namespace Cert.ReferenceIdeal.RValue

open Idealize.ShloMosaic Idealize.ShloMosaic.ValueIdx Cert.ReferenceIdeal Cert.ReferenceIdeal.Read Cert.KernelIdeal.KArr

/-- Two index functions with equal coordinates are equal. -/
local macro "idx_eq" : tactic =>
  `(tactic| (funext a; refine Fin.ext ?_; first
      | (match a with | ⟨0, _⟩ => rfl | ⟨1, _⟩ => rfl)
      | (match a with | ⟨0, _⟩ => rfl)))

variable (x0 : (⟨S100000x128, .f32⟩ : BufTy).Contents (Elt Ideal)) (x1 : (⟨S2x1600000, .i32⟩ : BufTy).Contents (Elt Ideal))
  (x4 : (⟨S_, .f32⟩ : BufTy).Contents (Elt Ideal)) (x5 : (⟨S128x128, .f32⟩ : BufTy).Contents (Elt Ideal))
  (x6 x7 x8 : (⟨S128, .f32⟩ : BufTy).Contents (Elt Ideal)) (x9 : (⟨S128x128, .f32⟩ : BufTy).Contents (Elt Ideal))
  (x10 x11 x12 : (⟨S128, .f32⟩ : BufTy).Contents (Elt Ideal)) (x13 : (⟨S128x128, .f32⟩ : BufTy).Contents (Elt Ideal))
  (x14 : (⟨S128, .f32⟩ : BufTy).Contents (Elt Ideal))

/-! ## The rows between the layers -/

/-- The row node `n` enters the layers with: one plus the scalar, times the node's features, plus its aggregate. -/
def rowIn (n : Fin 100000) : GIN.Row :=
  GIN.hin (GIN.w1 + x4 ix0) (nodes x0) (nodes (val_main_v13 (F := Ideal) x0 x1)) n

/-- After the first linear layer. -/
def rowL1 (n : Fin 100000) : GIN.Row := GIN.lin (tab x5) (vec x6) (rowIn x0 x1 x4 n)

/-- After the first normalisation and rectifier. -/
def rowA1 (n : Fin 100000) : GIN.Row := GIN.relu (GIN.lnorm (vec x7) (vec x8) (rowL1 x0 x1 x4 x5 x6 n))

/-- After the second linear layer. -/
def rowL2 (n : Fin 100000) : GIN.Row := GIN.lin (tab x9) (vec x10) (rowA1 x0 x1 x4 x5 x6 x7 x8 n)

/-- After the second normalisation and rectifier. -/
def rowA2 (n : Fin 100000) : GIN.Row :=
  GIN.relu (GIN.lnorm (vec x11) (vec x12) (rowL2 x0 x1 x4 x5 x6 x7 x8 x9 x10 n))

/-! ## The first layer -/

/-- The scaled features plus the aggregate, entry `(n, k)`. -/
theorem v17_at (n : Fin 100000) (k : Fin 128) :
    val_main_v17 (F := Ideal) x0 x1 x4 (ix2 n k) = rowIn x0 x1 x4 n k := by
  rw [val_main_v17_apply, val_main_v16_apply, val_main_v15_apply, val_main_v14_apply, val_main_cst_1_apply]
  rfl

/-- The first linear layer: a sum over the 128 input features, plus the bias. -/
theorem v21_at (n : Fin 100000) (j : Fin 128) :
    val_main_v21 (F := Ideal) x0 x1 x4 x5 x6 (ix2 n j) = rowL1 x0 x1 x4 x5 x6 n j := by
  rw [val_main_v21_apply, val_main_v18_apply, val_main_v20_apply, val_main_v19_apply]
  refine congrArg₂ (fun a b : EReal => a + b) (Finset.sum_congr rfl fun k _ => ?_) (congrArg x6 (by idx_eq))
  rw [show lidx_main_v18 (ix2 n j) k = ix2 n k from by idx_eq,
    show ridx_main_v18 (ix2 n j) k = ix2 k j from by idx_eq, v17_at]
  rfl

/-- The mean of the first layer's row. -/
theorem v25_at (n : Fin 100000) :
    val_main_v25 (F := Ideal) x0 x1 x4 x5 x6 (ix2 n 0) = GIN.rowMean (rowL1 x0 x1 x4 x5 x6 n) := by
  rw [val_main_v25_apply, val_main_v23_apply, val_main_v22_apply, val_main_v24_apply, val_main_cst_2_apply,
    val_main_cst_3_apply]
  simp only [Ideal.hostDivf_def, Ideal.ofBits_def, Ideal.ofBits_zero_f32, zero_add]
  unfold GIN.rowMean
  refine congrArg (fun s : EReal => Ideal.div s GIN.w128) (Finset.sum_congr rfl fun k _ => ?_)
  rw [show idx_main_v22 (idx_main_v23 (ix2 n 0)) k = ix2 n k from by idx_eq, v21_at]

/-- An entry of the first layer's row minus the row's mean. -/
theorem v27_at (n : Fin 100000) (j : Fin 128) :
    val_main_v27 (F := Ideal) x0 x1 x4 x5 x6 (ix2 n j)
      = rowL1 x0 x1 x4 x5 x6 n j - GIN.rowMean (rowL1 x0 x1 x4 x5 x6 n) := by
  rw [val_main_v27_apply, val_main_v26_apply, v21_at, show idx_main_v26 (ix2 n j) = ix2 n 0 from by idx_eq, v25_at]
  rfl

/-- The variance of the first layer's row. -/
theorem v32_at (n : Fin 100000) :
    val_main_v32 (F := Ideal) x0 x1 x4 x5 x6 (ix2 n 0) = GIN.rowVar (rowL1 x0 x1 x4 x5 x6 n) := by
  rw [val_main_v32_apply, val_main_v30_apply, val_main_v29_apply, val_main_v31_apply, val_main_cst_4_apply,
    val_main_cst_5_apply]
  simp only [Ideal.hostDivf_def, Ideal.ofBits_def, Ideal.ofBits_zero_f32, zero_add]
  unfold GIN.rowVar
  refine congrArg (fun s : EReal => Ideal.div s GIN.w128) (Finset.sum_congr rfl fun k _ => ?_)
  rw [show idx_main_v29 (idx_main_v30 (ix2 n 0)) k = ix2 n k from by idx_eq, val_main_v28_apply, v27_at]
  rfl

/-- The first normalisation: the centred entry times the inverse square root, scaled and shifted. -/
theorem v45_at (n : Fin 100000) (j : Fin 128) :
    val_main_v45 (F := Ideal) x0 x1 x4 x5 x6 x7 x8 (ix2 n j)
      = GIN.lnorm (vec x7) (vec x8) (rowL1 x0 x1 x4 x5 x6 n) j := by
  rw [val_main_v45_apply, val_main_v42_apply, val_main_v39_apply, val_main_v34_apply, val_main_v33_apply,
    val_main_v38_apply, val_main_v37_apply, val_main_v36_apply, val_main_v35_apply, val_main_cst_6_apply,
    val_main_v41_apply, val_main_v40_apply, val_main_v44_apply, val_main_v43_apply, v21_at,
    show idx_main_v33 (ix2 n j) = ix2 n 0 from by idx_eq, v25_at,
    show idx_main_v38 (ix2 n j) = ix2 n 0 from by idx_eq, v32_at,
    show idx_main_v40 (idx_main_v41 (ix2 n j)) = ix1 j from by idx_eq,
    show idx_main_v43 (idx_main_v44 (ix2 n j)) = ix1 j from by idx_eq]
  rfl

/-- The first rectifier: the larger of the normalised entry and zero. -/
theorem v46_at (n : Fin 100000) (j : Fin 128) :
    val_main_v46 (F := Ideal) x0 x1 x4 x5 x6 x7 x8 (ix2 n j) = rowA1 x0 x1 x4 x5 x6 x7 x8 n j := by
  rw [val_main_v46_apply, val_main_call0_v0_apply, val_main_call0_cst_apply, v45_at]
  simp only [Ideal.maximumf_def, Ideal.ofBits_def, Ideal.ofBits_zero_f32]
  rfl

/-! ## The second layer -/

/-- The second linear layer. -/
theorem v50_at (n : Fin 100000) (j : Fin 128) :
    val_main_v50 (F := Ideal) x0 x1 x4 x5 x6 x7 x8 x9 x10 (ix2 n j) = rowL2 x0 x1 x4 x5 x6 x7 x8 x9 x10 n j := by
  rw [val_main_v50_apply, val_main_v47_apply, val_main_v49_apply, val_main_v48_apply]
  refine congrArg₂ (fun a b : EReal => a + b) (Finset.sum_congr rfl fun k _ => ?_) (congrArg x10 (by idx_eq))
  rw [show lidx_main_v47 (ix2 n j) k = ix2 n k from by idx_eq,
    show ridx_main_v47 (ix2 n j) k = ix2 k j from by idx_eq, v46_at]
  rfl

/-- The mean of the second layer's row. -/
theorem v54_at (n : Fin 100000) :
    val_main_v54 (F := Ideal) x0 x1 x4 x5 x6 x7 x8 x9 x10 (ix2 n 0)
      = GIN.rowMean (rowL2 x0 x1 x4 x5 x6 x7 x8 x9 x10 n) := by
  rw [val_main_v54_apply, val_main_v52_apply, val_main_v51_apply, val_main_v53_apply, val_main_cst_7_apply,
    val_main_cst_8_apply]
  simp only [Ideal.hostDivf_def, Ideal.ofBits_def, Ideal.ofBits_zero_f32, zero_add]
  unfold GIN.rowMean
  refine congrArg (fun s : EReal => Ideal.div s GIN.w128) (Finset.sum_congr rfl fun k _ => ?_)
  rw [show idx_main_v51 (idx_main_v52 (ix2 n 0)) k = ix2 n k from by idx_eq, v50_at]

/-- An entry of the second layer's row minus the row's mean. -/
theorem v56_at (n : Fin 100000) (j : Fin 128) :
    val_main_v56 (F := Ideal) x0 x1 x4 x5 x6 x7 x8 x9 x10 (ix2 n j)
      = rowL2 x0 x1 x4 x5 x6 x7 x8 x9 x10 n j - GIN.rowMean (rowL2 x0 x1 x4 x5 x6 x7 x8 x9 x10 n) := by
  rw [val_main_v56_apply, val_main_v55_apply, v50_at, show idx_main_v55 (ix2 n j) = ix2 n 0 from by idx_eq, v54_at]
  rfl

/-- The variance of the second layer's row. -/
theorem v61_at (n : Fin 100000) :
    val_main_v61 (F := Ideal) x0 x1 x4 x5 x6 x7 x8 x9 x10 (ix2 n 0)
      = GIN.rowVar (rowL2 x0 x1 x4 x5 x6 x7 x8 x9 x10 n) := by
  rw [val_main_v61_apply, val_main_v59_apply, val_main_v58_apply, val_main_v60_apply, val_main_cst_9_apply,
    val_main_cst_10_apply]
  simp only [Ideal.hostDivf_def, Ideal.ofBits_def, Ideal.ofBits_zero_f32, zero_add]
  unfold GIN.rowVar
  refine congrArg (fun s : EReal => Ideal.div s GIN.w128) (Finset.sum_congr rfl fun k _ => ?_)
  rw [show idx_main_v58 (idx_main_v59 (ix2 n 0)) k = ix2 n k from by idx_eq, val_main_v57_apply, v56_at]
  rfl

/-- The second normalisation. -/
theorem v74_at (n : Fin 100000) (j : Fin 128) :
    val_main_v74 (F := Ideal) x0 x1 x4 x5 x6 x7 x8 x9 x10 x11 x12 (ix2 n j)
      = GIN.lnorm (vec x11) (vec x12) (rowL2 x0 x1 x4 x5 x6 x7 x8 x9 x10 n) j := by
  rw [val_main_v74_apply, val_main_v71_apply, val_main_v68_apply, val_main_v63_apply, val_main_v62_apply,
    val_main_v67_apply, val_main_v66_apply, val_main_v65_apply, val_main_v64_apply, val_main_cst_11_apply,
    val_main_v70_apply, val_main_v69_apply, val_main_v73_apply, val_main_v72_apply, v50_at,
    show idx_main_v62 (ix2 n j) = ix2 n 0 from by idx_eq, v54_at,
    show idx_main_v67 (ix2 n j) = ix2 n 0 from by idx_eq, v61_at,
    show idx_main_v69 (idx_main_v70 (ix2 n j)) = ix1 j from by idx_eq,
    show idx_main_v72 (idx_main_v73 (ix2 n j)) = ix1 j from by idx_eq]
  rfl

/-- The second rectifier. -/
theorem v75_at (n : Fin 100000) (j : Fin 128) :
    val_main_v75 (F := Ideal) x0 x1 x4 x5 x6 x7 x8 x9 x10 x11 x12 (ix2 n j)
      = rowA2 x0 x1 x4 x5 x6 x7 x8 x9 x10 x11 x12 n j := by
  rw [val_main_v75_apply, val_main_call1_v0_apply, val_main_call1_cst_apply, v74_at]
  simp only [Ideal.maximumf_def, Ideal.ofBits_def, Ideal.ofBits_zero_f32]
  rfl

/-! ## The last linear layer -/

/-- The rows the three layers leave: entry `(n, j)` of the plain program's rows before the per-graph normalisation is the
    specification's three layers applied to the row node `n` enters with. -/
theorem h3_apply (n : Fin 100000) (j : Fin 128) :
    val_main_v79 (F := Ideal) x0 x1 x4 x5 x6 x7 x8 x9 x10 x11 x12 x13 x14 (ix2 n j)
      = GIN.mlp (tab x5) (vec x6) (vec x7) (vec x8) (tab x9) (vec x10) (vec x11) (vec x12) (tab x13) (vec x14)
          (GIN.hin (GIN.w1 + x4 ix0) (nodes x0) (nodes (val_main_v13 (F := Ideal) x0 x1)) n) j := by
  rw [val_main_v79_apply, val_main_v76_apply, val_main_v78_apply, val_main_v77_apply]
  show _ = GIN.lin (tab x13) (vec x14) (rowA2 x0 x1 x4 x5 x6 x7 x8 x9 x10 x11 x12 n) j
  refine congrArg₂ (fun a b : EReal => a + b) (Finset.sum_congr rfl fun k _ => ?_) (congrArg x14 (by idx_eq))
  rw [show lidx_main_v76 (ix2 n j) k = ix2 n k from by idx_eq,
    show ridx_main_v76 (ix2 n j) k = ix2 k j from by idx_eq, v75_at]
  rfl

end Cert.ReferenceIdeal.RValue

end
-- ==== Proof.RValue2.lean ====
/-
  The plain program's normalisation per graph, read index by index, is the specification's plain form.

  The program receives the rows the three layers leave and the graph number of each node, a word below 128.  It
  adds each row into the row of its node's graph in a table of zeros: entry (g, j) of the result is the sum of the
  entries j of the rows whose node belongs to graph g.  Dividing by the node counts gives the mean table.  Each node
  reads its graph's row back: a graph number is not negative, so the step that would add 128 to a negative number
  leaves it alone, and reading row number b of a table of 128 rows with b below 128 is row b itself.  The node's row
  minus its graph's scaled mean is squared, summed per graph and divided in the same way to give the variance table,
  read back the same way; the result is the scaled difference times the inverse square root of the variance plus a
  small constant, shifted and rectified.
-/
import proofs.«428147_j72688026518088_3_alg».proof.Proof.Gen.ReferenceIdeal.Read
import proofs.«428147_j72688026518088_3_alg».proof.Proof.KArr
import proofs.«428147_j72688026518088_3_alg».proof.Proof.SpecRaw
import proofs.«428147_j72688026518088_3_alg».proof.Proof.LibRealHost
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.ReferenceIdeal.RValue2

open Cert.ReferenceIdeal Cert.ReferenceIdeal.Gen Cert.ReferenceIdeal.Read Idealize.ShloMosaic Idealize.ShloMosaic.ValueIdx
open Cert.KernelIdeal.KArr

local notation "Sc" => scatter_S128x128_S100000x1_S100000x128_1_0_0_1
local notation "G" => gather_S128x128_S100000x1_S100000x128_1_0_n_n_0_1_1128

/-! ## Adding rows into a table by graph number -/

/-- The index word an update at (n, j) reads is the word of row n. -/
theorem Sc_siIdx (n : Fin 100000) (j : Fin 128) (c : Fin (Sc).scatterDimsToOperandDims.length) :
    (Sc).siIdx (ix2 n j) c = ix2 n 0 := by
  funext b
  match b with
  | ⟨0, _⟩ => rfl
  | ⟨1, _⟩ =>
    apply Fin.ext
    show c.val = 0
    have := c.isLt
    change c.val < 1 at this
    omega

theorem Sc_start0 (idx : IVec S100000x1 32) (n : Fin 100000) (j : Fin 128) :
    (Sc).start (ix2 n j) idx 0 = (idx (ix2 n 0)).toInt := by
  unfold ScatterDims.start
  rw [dif_pos (by decide), Sc_siIdx]

theorem Sc_start1 (idx : IVec S100000x1 32) (n : Fin 100000) (j : Fin 128) :
    (Sc).start (ix2 n j) idx 1 = 0 := by
  unfold ScatterDims.start
  rw [dif_neg (by decide)]

theorem Sc_window0 (n : Fin 100000) (j : Fin 128) : (Sc).window (ix2 n j) 0 = 0 := by
  unfold ScatterDims.window
  rw [dif_neg (by decide)]

theorem Sc_window1 (n : Fin 100000) (j : Fin 128) : (Sc).window (ix2 n j) 1 = j.val := by
  unfold ScatterDims.window
  rw [dif_pos (by decide)]
  rfl

/-- The update at (n, j) lands at (g, j) when the word of row n reads g. -/
theorem Sc_resultIdx (idx : IVec S100000x1 32) (n : Fin 100000) (j g : Fin 128)
    (hg : (idx (ix2 n 0)).toInt = (g.val : Int)) : (Sc).resultIdx? (ix2 n j) idx = some (ix2 g j) := by
  have hall : ∀ a, 0 ≤ (Sc).start (ix2 n j) idx a + (Sc).window (ix2 n j) a ∧
      (Sc).start (ix2 n j) idx a + (Sc).window (ix2 n j) a < S128x128.size a := by
    intro a
    match a with
    | ⟨0, _⟩ =>
      show 0 ≤ (Sc).start (ix2 n j) idx 0 + (Sc).window (ix2 n j) 0 ∧
        (Sc).start (ix2 n j) idx 0 + (Sc).window (ix2 n j) 0 < (128 : Nat)
      rw [Sc_start0, Sc_window0, hg]
      have := g.isLt
      omega
    | ⟨1, _⟩ =>
      show 0 ≤ (Sc).start (ix2 n j) idx 1 + (Sc).window (ix2 n j) 1 ∧
        (Sc).start (ix2 n j) idx 1 + (Sc).window (ix2 n j) 1 < (128 : Nat)
      rw [Sc_start1, Sc_window1]
      have := j.isLt
      omega
  unfold ScatterDims.resultIdx?
  rw [dif_pos hall]
  congr 1
  funext a
  apply Fin.ext
  match a with
  | ⟨0, _⟩ =>
    show ((Sc).start (ix2 n j) idx 0 + (Sc).window (ix2 n j) 0).toNat = g.val
    rw [Sc_start0, Sc_window0, hg]
    omega
  | ⟨1, _⟩ =>
    show ((Sc).start (ix2 n j) idx 1 + (Sc).window (ix2 n j) 1).toNat = j.val
    rw [Sc_start1, Sc_window1]
    omega

/-- Entry (g, j) after the rows are added in: the table's entry plus the sum of the entries j of the rows sent to g. -/
theorem scatterAdd_table (x : FVec Ideal S128x128 .f32) (idx : IVec S100000x1 32) (upd : FVec Ideal S100000x128 .f32)
    (b : Fin 100000 → Fin 128) (hb : ∀ n, (idx (ix2 n 0)).toInt = ((b n).val : Int)) (g j : Fin 128) :
    Host.scatterAdd (F := Ideal) (Sc) x idx upd (ix2 g j)
      = x (ix2 g j) + ∑ n ∈ Finset.univ.filter (fun n => b n = g), upd (ix2 n j) := by
  show Ideal.hostScatterAdd (Sc) x idx upd (ix2 g j) = _
  unfold Ideal.hostScatterAdd
  refine congrArg (fun z => x (ix2 g j) + z) ?_
  rw [Finset.sum_filter, sum_idx2, Finset.sum_filter]
  refine Finset.sum_congr rfl fun n _ => ?_
  by_cases h : b n = g
  · rw [if_pos h, Finset.sum_eq_single j]
    · rw [if_pos (by rw [Sc_resultIdx idx n j (b n) (hb n), h])]
    · intro j' _ hne
      rw [if_neg]
      rw [Sc_resultIdx idx n j' (b n) (hb n)]
      intro he
      exact hne (congrFun (Option.some.inj he) 1)
    · intro hj
      exact absurd (Finset.mem_univ j) hj
  · rw [if_neg h]
    refine Finset.sum_eq_zero fun j' _ => ?_
    rw [if_neg]
    rw [Sc_resultIdx idx n j' (b n) (hb n)]
    intro he
    exact h (congrFun (Option.some.inj he) 0)

/-! ## Reading a node's graph row back -/

theorem G_siIdx (n : Fin 100000) (j : Fin 128) (c : Fin (G).startIndexMap.length) : (G).siIdx (ix2 n j) c = ix2 n 0 := by
  funext b
  match b with
  | ⟨0, _⟩ => rfl
  | ⟨1, _⟩ =>
    apply Fin.ext
    show c.val = 0
    have := c.isLt
    change c.val < 1 at this
    omega

/-- Entry (n, j) of the rows read back: entry j of the table's row named by the word of n, held inside the table. -/
theorem gather_row {α : Type} (x : S128x128.Idx → α) (idx : IVec S100000x1 32) (n : Fin 100000) (j : Fin 128) :
    Host.gather (G) x idx (ix2 n j) = x (ix2 (⟨min (idx (ix2 n 0)).toInt.toNat 127, by omega⟩ : Fin 128) j) := by
  unfold Host.gather
  congr 1
  funext a
  match a with
  | ⟨0, _⟩ =>
    apply Fin.ext
    show (G).start (ix2 n j) idx 0 + (G).batchCoord (ix2 n j) 0 + (G).offCoord (ix2 n j) 0 = min (idx (ix2 n 0)).toInt.toNat 127
    rw [(G).batchCoord_eq_zero _ _ (by decide), (G).offCoord_eq_zero _ _ (by decide)]
    unfold GatherDims.start
    rw [dif_pos (by decide), G_siIdx]
    rfl
  | ⟨1, _⟩ =>
    apply Fin.ext
    show (G).start (ix2 n j) idx 1 + (G).batchCoord (ix2 n j) 1 + (G).offCoord (ix2 n j) 1 = j.val
    rw [(G).batchCoord_eq_zero _ _ (by decide)]
    unfold GatherDims.start GatherDims.offCoord
    rw [dif_neg (by decide), dif_pos (by decide)]
    show 0 + 0 + j.val = j.val
    omega

/-! ## Graph numbers as words -/

/-- A word below 128 is not negative: the choice between the word plus 128 and the word takes the word. -/
theorem select_wrap (x a : BitVec 32) (hx : x.toNat < 128) : Scalar.select (IntOp.cmpi .slt x 0#32) a x = x := by
  have h : ¬ IntOp.cmpi .slt x 0#32 = 1#1 := by
    rw [StableHlo.Predicate.slt_iff_toNat (by omega) (by decide)]
    simp
  unfold Scalar.select
  exact if_neg h

/-- A word below 128 reads the same signed and unsigned. -/
theorem toInt_word (x : BitVec 32) (hx : x.toNat < 128) : x.toInt = (x.toNat : Int) :=
  StableHlo.Predicate.toInt_eq_toNat_of_lt (by omega)

/-- The graph of each node: its word, a number below 128. -/
def bOf (x3 : IVec S100000 32) (hb : ∀ i, (x3 i).toNat < 128) : Fin 100000 → Fin 128 := fun n => ⟨(x3 (ix1 n)).toNat, hb _⟩

/-! ## Where the layout steps read -/

theorem idx88 (n : Fin 100000) : idx_main_v88 (ix2 n 0) = ix1 n := by funext a; match a with | ⟨0, _⟩ => rfl
theorem idx105 (n : Fin 100000) : idx_main_v105 (ix2 n 0) = ix1 n := by funext a; match a with | ⟨0, _⟩ => rfl
theorem idx97 (n : Fin 100000) : idx_main_v97 (ix2 n 0) = ix1 n := by funext a; match a with | ⟨0, _⟩ => rfl
theorem idx117 (n : Fin 100000) : idx_main_v117 (ix2 n 0) = ix1 n := by funext a; match a with | ⟨0, _⟩ => rfl
theorem idx90 (g j : Fin 128) : idx_main_v90 (ix2 g j) = ix2 g 0 := by
  funext a; match a with | ⟨0, _⟩ => rfl | ⟨1, _⟩ => rfl
theorem idx107 (g j : Fin 128) : idx_main_v107 (ix2 g j) = ix2 g 0 := by
  funext a; match a with | ⟨0, _⟩ => rfl | ⟨1, _⟩ => rfl
theorem idx100 (n : Fin 100000) (j : Fin 128) : idx_main_v99 (idx_main_v100 (ix2 n j)) = ix1 j := by
  funext a; match a with | ⟨0, _⟩ => rfl
theorem idx110 (n : Fin 100000) (j : Fin 128) : idx_main_v109 (idx_main_v110 (ix2 n j)) = ix1 j := by
  funext a; match a with | ⟨0, _⟩ => rfl
theorem idx124 (n : Fin 100000) (j : Fin 128) : idx_main_v123 (idx_main_v124 (ix2 n j)) = ix1 j := by
  funext a; match a with | ⟨0, _⟩ => rfl

/-! ## The stages -/

section Stages

variable (x0 : FVec Ideal S100000x128 .f32) (x1 : IVec S2x1600000 32) (x3 : IVec S100000 32) (x4 : FVec Ideal S_ .f32)
  (x5 : FVec Ideal S128x128 .f32) (x6 x7 x8 : FVec Ideal S128 .f32) (x9 : FVec Ideal S128x128 .f32)
  (x10 x11 x12 : FVec Ideal S128 .f32) (x13 : FVec Ideal S128x128 .f32) (x14 x15 x16 x17 : FVec Ideal S128 .f32)

/-- The rows the three layers leave. -/
local notation "hN" => nodes (val_main_v79 (F := Ideal) x0 x1 x4 x5 x6 x7 x8 x9 x10 x11 x12 x13 x14)
/-- The node count of each graph. -/
local notation "cN" => (fun g : Fin 128 => val_main_v86 (F := Ideal) x3 (ix2 g 0))

theorem w88 (n : Fin 100000) : val_main_v88 (F := Ideal) x3 (ix2 n 0) = x3 (ix1 n) := by
  rw [val_main_v88_apply, idx88]

theorem w105 (n : Fin 100000) : val_main_v105 (F := Ideal) x3 (ix2 n 0) = x3 (ix1 n) := by
  rw [val_main_v105_apply, idx105]

theorem w97 (hb : ∀ i, (x3 i).toNat < 128) (n : Fin 100000) : val_main_v97 (F := Ideal) x3 (ix2 n 0) = x3 (ix1 n) := by
  rw [val_main_v97_apply, idx97, val_main_v96_apply, val_main_v93_apply, val_main_v92_apply, val_main_c_16_apply]
  exact select_wrap _ _ (hb _)

theorem w117 (hb : ∀ i, (x3 i).toNat < 128) (n : Fin 100000) : val_main_v117 (F := Ideal) x3 (ix2 n 0) = x3 (ix1 n) := by
  rw [val_main_v117_apply, idx117, val_main_v116_apply, val_main_v113_apply, val_main_v112_apply, val_main_c_19_apply]
  exact select_wrap _ _ (hb _)

/-- The row number the first read takes is the node's graph. -/
theorem row97 (hb : ∀ i, (x3 i).toNat < 128) (n : Fin 100000) :
    (⟨min (val_main_v97 (F := Ideal) x3 (ix2 n 0)).toInt.toNat 127, by omega⟩ : Fin 128) = bOf x3 hb n := by
  apply Fin.ext
  show min (val_main_v97 (F := Ideal) x3 (ix2 n 0)).toInt.toNat 127 = (x3 (ix1 n)).toNat
  rw [w97 x3 hb, toInt_word _ (hb _)]
  have := hb (ix1 n)
  omega

/-- The row number the second read takes is the node's graph. -/
theorem row117 (hb : ∀ i, (x3 i).toNat < 128) (n : Fin 100000) :
    (⟨min (val_main_v117 (F := Ideal) x3 (ix2 n 0)).toInt.toNat 127, by omega⟩ : Fin 128) = bOf x3 hb n := by
  apply Fin.ext
  show min (val_main_v117 (F := Ideal) x3 (ix2 n 0)).toInt.toNat 127 = (x3 (ix1 n)).toNat
  rw [w117 x3 hb, toInt_word _ (hb _)]
  have := hb (ix1 n)
  omega

theorem c90 (g j : Fin 128) : val_main_v90 (F := Ideal) x3 (ix2 g j) = val_main_v86 (F := Ideal) x3 (ix2 g 0) := by
  rw [val_main_v90_apply, idx90]

theorem c107 (g j : Fin 128) : val_main_v107 (F := Ideal) x3 (ix2 g j) = val_main_v86 (F := Ideal) x3 (ix2 g 0) := by
  rw [val_main_v107_apply, idx107]

theorem r100 (n : Fin 100000) (j : Fin 128) : val_main_v100 (F := Ideal) x17 (ix2 n j) = vec x17 j := by
  rw [val_main_v100_apply, val_main_v99_apply, idx100]
  rfl

theorem r110 (n : Fin 100000) (j : Fin 128) : val_main_v110 (F := Ideal) x15 (ix2 n j) = vec x15 j := by
  rw [val_main_v110_apply, val_main_v109_apply, idx110]
  rfl

theorem r124 (n : Fin 100000) (j : Fin 128) : val_main_v124 (F := Ideal) x16 (ix2 n j) = vec x16 j := by
  rw [val_main_v124_apply, val_main_v123_apply, idx124]
  rfl

/-- The sums of the rows per graph. -/
theorem s89 (hb : ∀ i, (x3 i).toNat < 128) (g j : Fin 128) :
    val_main_v89 (F := Ideal) x0 x1 x3 x4 x5 x6 x7 x8 x9 x10 x11 x12 x13 x14 (ix2 g j) = GIN.segSum (bOf x3 hb) hN g j := by
  unfold val_main_v89
  refine (scatterAdd_table (val_main_v87 (F := Ideal)) (val_main_v88 (F := Ideal) x3) _ (bOf x3 hb) (fun n => ?_) g j).trans ?_
  · rw [w88]
    exact toInt_word _ (hb _)
  · rw [val_main_v87_apply, val_main_cst_15_apply, Ideal.ofBits_def, Ideal.ofBits_zero_f32, zero_add]
    rfl

/-- The mean table. -/
theorem s91 (hb : ∀ i, (x3 i).toNat < 128) (g j : Fin 128) :
    val_main_v91 (F := Ideal) x0 x1 x3 x4 x5 x6 x7 x8 x9 x10 x11 x12 x13 x14 (ix2 g j) = GIN.rMean (bOf x3 hb) hN cN g j := by
  rw [val_main_v91_apply, s89 (hb := hb), c90]
  rfl

/-- A node's graph's mean row. -/
theorem s98 (hb : ∀ i, (x3 i).toNat < 128) (n : Fin 100000) (j : Fin 128) :
    val_main_v98 (F := Ideal) x0 x1 x3 x4 x5 x6 x7 x8 x9 x10 x11 x12 x13 x14 (ix2 n j) = GIN.rMean (bOf x3 hb) hN cN (bOf x3 hb n) j := by
  unfold val_main_v98
  rw [gather_row, row97 x3 hb, s91 (hb := hb)]

/-- A node's row minus its graph's scaled mean. -/
theorem s102 (hb : ∀ i, (x3 i).toNat < 128) (n : Fin 100000) (j : Fin 128) :
    val_main_v102 (F := Ideal) x0 x1 x3 x4 x5 x6 x7 x8 x9 x10 x11 x12 x13 x14 x17 (ix2 n j)
      = GIN.rSub (bOf x3 hb) hN (GIN.rMean (bOf x3 hb) hN cN) (vec x17) n j := by
  rw [val_main_v102_apply, val_main_v101_apply, r100, s98 (hb := hb)]
  rfl

/-- Its square. -/
theorem s103 (hb : ∀ i, (x3 i).toNat < 128) (n : Fin 100000) (j : Fin 128) :
    val_main_v103 (F := Ideal) x0 x1 x3 x4 x5 x6 x7 x8 x9 x10 x11 x12 x13 x14 x17 (ix2 n j)
      = GIN.sq (GIN.rSub (bOf x3 hb) hN (GIN.rMean (bOf x3 hb) hN cN) (vec x17)) n j := by
  rw [val_main_v103_apply, s102 (hb := hb)]
  rfl

/-- The sums of the squares per graph. -/
theorem s106 (hb : ∀ i, (x3 i).toNat < 128) (g j : Fin 128) :
    val_main_v106 (F := Ideal) x0 x1 x3 x4 x5 x6 x7 x8 x9 x10 x11 x12 x13 x14 x17 (ix2 g j)
      = GIN.segSum (bOf x3 hb) (GIN.sq (GIN.rSub (bOf x3 hb) hN (GIN.rMean (bOf x3 hb) hN cN) (vec x17))) g j := by
  unfold val_main_v106
  refine (scatterAdd_table (val_main_v104 (F := Ideal)) (val_main_v105 (F := Ideal) x3) _ (bOf x3 hb) (fun n => ?_) g j).trans ?_
  · rw [w105]
    exact toInt_word _ (hb _)
  · rw [val_main_v104_apply, val_main_cst_18_apply, Ideal.ofBits_def, Ideal.ofBits_zero_f32, zero_add]
    exact Finset.sum_congr rfl (fun n _ => s103 x0 x1 x3 x4 x5 x6 x7 x8 x9 x10 x11 x12 x13 x14 x17 hb n j)

/-- The variance table. -/
theorem s108 (hb : ∀ i, (x3 i).toNat < 128) (g j : Fin 128) :
    val_main_v108 (F := Ideal) x0 x1 x3 x4 x5 x6 x7 x8 x9 x10 x11 x12 x13 x14 x17 (ix2 g j)
      = GIN.rVar (bOf x3 hb) (GIN.rSub (bOf x3 hb) hN (GIN.rMean (bOf x3 hb) hN cN) (vec x17)) cN g j := by
  rw [val_main_v108_apply, s106 (hb := hb), c107]
  rfl

/-- A node's graph's variance row. -/
theorem s118 (hb : ∀ i, (x3 i).toNat < 128) (n : Fin 100000) (j : Fin 128) :
    val_main_v118 (F := Ideal) x0 x1 x3 x4 x5 x6 x7 x8 x9 x10 x11 x12 x13 x14 x17 (ix2 n j)
      = GIN.rVar (bOf x3 hb) (GIN.rSub (bOf x3 hb) hN (GIN.rMean (bOf x3 hb) hN cN) (vec x17)) cN (bOf x3 hb n) j := by
  unfold val_main_v118
  rw [gather_row, row117 x3 hb, s108 (hb := hb)]

/-- The plain program's result at node n, feature j. -/
theorem out_apply (hb : ∀ i, (x3 i).toNat < 128) (n : Fin 100000) (j : Fin 128) :
    val_main_v126 (F := Ideal) x0 x1 x3 x4 x5 x6 x7 x8 x9 x10 x11 x12 x13 x14 x15 x16 x17 (ix2 n j)
      = GIN.referenceOut (vec x15) (vec x16) (vec x17) (fun g => val_main_v86 (F := Ideal) x3 (ix2 g 0)) (bOf x3 hb)
          (nodes (val_main_v79 (F := Ideal) x0 x1 x4 x5 x6 x7 x8 x9 x10 x11 x12 x13 x14)) n j := by
  rw [val_main_v126_apply, val_main_call2_v0_apply, val_main_call2_cst_apply, Ideal.ofBits_def, Ideal.ofBits_zero_f32,
    val_main_v125_apply, val_main_v122_apply, val_main_v111_apply, val_main_v121_apply, val_main_v120_apply, r110, r124,
    s102 (hb := hb), s118 (hb := hb), val_main_v119_apply, val_main_cst_21_apply]
  simp only [Ideal.maximumf_def, Ideal.addf_def, Ideal.mulf_def, Ideal.hostUnary_rsqrt_def, Ideal.ofBits_def]
  unfold GIN.referenceOut GIN.rOut
  rfl

end Stages

end Cert.ReferenceIdeal.RValue2

end
-- ==== Proof.SpecReal.lean ====
/-
  The row function of three layers maps rows of real numbers to rows of real numbers, and the three f32 words it
  uses denote 128, a positive real number, and 1.

  Over the extended reals a sum, a product, a difference or a maximum of real numbers is real.  A row's mean is a
  sum of 128 real numbers times 1/128.  Its variance is a sum of 128 squares of real numbers times 1/128: a real
  number that is not negative.  Adding a positive real number gives a positive real number, and the inverse square
  root of a positive real number is real.  So a layer normalisation, a rectifier and a linear layer each keep a
  real row real, and so does their composition.
-/
import proofs.«428147_j72688026518088_3_alg».proof.Proof.Spec
import proofs.«428147_j72688026518088_3_alg».proof.Proof.LibRealHost

noncomputable section

open scoped BigOperators

namespace GIN

open Idealize.ShloMosaic RealHost

/-! ## The three words -/

/-- Sign 0, exponent 134, fraction 0: `2^23 * 2^(134 - 127 - 23) = 2^7`. -/
theorem w128_eq : w128 = ((128 : ℝ) : EReal) := by
  simp [Ideal.ofBits, Ideal.ieee, -EReal.coe_mul]; norm_num

/-- Sign 0, exponent 127, fraction 0. -/
theorem w1_eq : w1 = 1 := ofBits_f32_one

/-- Sign 0, exponent 110, fraction 2606508: `(2^23 + 2606508) * 2^(110 - 127 - 23) = 10995116 * 2^(-40)`. -/
theorem weps_pos : ∃ r : ℝ, 0 < r ∧ weps = (r : EReal) := by
  refine ⟨(10995116 : ℝ) * (2 : ℝ) ^ (-40 : ℤ), by positivity, ?_⟩
  simp [Ideal.ofBits, Ideal.ieee, -EReal.coe_mul]

/-! ## Real numbers inside the extended reals -/

/-- A difference of two real numbers is real. -/
private theorem isReal_sub {a b : EReal} (ha : IsReal a) (hb : IsReal b) : IsReal (a - b) := by
  obtain ⟨u, rfl⟩ := ha
  obtain ⟨v, rfl⟩ := hb
  exact ⟨u - v, (EReal.coe_sub u v).symm⟩

/-- The coercion carries a finite sum of real numbers to the sum of their coercions. -/
private theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- Dividing by the word of 128 is multiplying by 1/128. -/
private theorem div_w128 (x : EReal) : Ideal.div x w128 = x * ((1 / 128 : ℝ) : EReal) := by
  rw [w128_eq]
  exact Ideal.div_coe (by norm_num) x

/-! ## The pieces of a layer -/

/-- A linear layer with real weights and a real shift keeps a real row real. -/
theorem lin_isReal (W : Tab) (b x : Row) (hW : ∀ k j, IsReal (W k j)) (hb : ∀ j, IsReal (b j))
    (hx : ∀ k, IsReal (x k)) (j : Fin 128) : IsReal (lin W b x j) := by
  show IsReal ((∑ k, x k * W k j) + b j)
  exact (IsReal.sum _ _ (fun k _ => (hx k).mul (hW k j))).add (hb j)

/-- The rectifier keeps a real row real. -/
theorem relu_isReal (y : Row) (hy : ∀ k, IsReal (y k)) (j : Fin 128) : IsReal (relu y j) := by
  show IsReal (max (y j) 0)
  exact (hy j).max isReal_zero

/-- The mean of a real row is real. -/
theorem rowMean_isReal (y : Row) (hy : ∀ k, IsReal (y k)) : IsReal (rowMean y) := by
  unfold rowMean
  rw [div_w128]
  exact (IsReal.sum _ _ (fun k _ => hy k)).mul (isReal_coe _)

/-- The variance of a real row is a real number that is not negative: a sum of squares times 1/128. -/
theorem rowVar_nonneg (y : Row) (hy : ∀ k, IsReal (y k)) : ∃ r : ℝ, 0 ≤ r ∧ rowVar y = (r : EReal) := by
  obtain ⟨m, hm⟩ := rowMean_isReal y hy
  have hy' : ∀ k, ∃ r : ℝ, y k = (r : EReal) := hy
  choose f hf using hy'
  refine ⟨(∑ k, (f k - m) * (f k - m)) * (1 / 128), ?_, ?_⟩
  · exact mul_nonneg (Finset.sum_nonneg (fun k _ => mul_self_nonneg _)) (by norm_num)
  · unfold rowVar
    rw [div_w128, hm]
    have hsq : ∀ k, (y k - (m : EReal)) * (y k - (m : EReal)) = (((f k - m) * (f k - m) : ℝ) : EReal) := by
      intro k
      rw [hf k, ← EReal.coe_sub, ← EReal.coe_mul]
    rw [Finset.sum_congr rfl (fun k _ => hsq k), coe_sum, ← EReal.coe_mul]

/-- Layer normalisation with a real scale and a real shift keeps a real row real: the variance plus the small
    positive word is a positive real number, so its inverse square root is real. -/
theorem lnorm_isReal (g be y : Row) (hg : ∀ j, IsReal (g j)) (hbe : ∀ j, IsReal (be j))
    (hy : ∀ k, IsReal (y k)) (j : Fin 128) : IsReal (lnorm g be y j) := by
  obtain ⟨r, hr0, hr⟩ := rowVar_nonneg y hy
  obtain ⟨e, he0, he⟩ := weps_pos
  show IsReal ((y j - rowMean y) * Ideal.rsqrt (rowVar y + weps) * g j + be j)
  rw [hr, he, ← EReal.coe_add, rsqrt_coe_of_pos (add_pos_of_nonneg_of_pos hr0 he0)]
  exact (((isReal_sub (hy j) (rowMean_isReal y hy)).mul (isReal_coe _)).mul (hg j)).add (hbe j)

/-! ## The row function -/

/-- The row a node enters the layers with is real when the factor, the node rows and the aggregated rows are. -/
theorem hin_isReal (e : EReal) (X A : Nodes) (he : RealHost.IsReal e) (hX : ∀ n k, RealHost.IsReal (X n k))
    (hA : ∀ n k, RealHost.IsReal (A n k)) (n : Fin 100000) (k : Fin 128) : RealHost.IsReal (hin e X A n k) := by
  show IsReal (e * X n k + A n k)
  exact (he.mul (hX n k)).add (hA n k)

/-- The three layers keep a real row real when every weight, shift and scale is real. -/
theorem mlp_isReal (W1 : Tab) (b1 g1 be1 : Row) (W2 : Tab) (b2 g2 be2 : Row) (W3 : Tab) (b3 : Row) (x : Row)
    (hW1 : ∀ k j, RealHost.IsReal (W1 k j)) (hb1 : ∀ j, RealHost.IsReal (b1 j)) (hg1 : ∀ j, RealHost.IsReal (g1 j)) (hbe1 : ∀ j, RealHost.IsReal (be1 j))
    (hW2 : ∀ k j, RealHost.IsReal (W2 k j)) (hb2 : ∀ j, RealHost.IsReal (b2 j)) (hg2 : ∀ j, RealHost.IsReal (g2 j)) (hbe2 : ∀ j, RealHost.IsReal (be2 j))
    (hW3 : ∀ k j, RealHost.IsReal (W3 k j)) (hb3 : ∀ j, RealHost.IsReal (b3 j)) (hx : ∀ k, RealHost.IsReal (x k)) (j : Fin 128) :
    RealHost.IsReal (mlp W1 b1 g1 be1 W2 b2 g2 be2 W3 b3 x j) :=
  lin_isReal W3 b3 _ hW3 hb3
    (relu_isReal _ (lnorm_isReal g2 be2 _ hg2 hbe2
      (lin_isReal W2 b2 _ hW2 hb2
        (relu_isReal _ (lnorm_isReal g1 be1 _ hg1 hbe1
          (lin_isReal W1 b1 x hW1 hb1 hx)))))) j

end GIN

end
-- ==== Proof.RFacts.lean ====
/-
  The two host chains that both programs share produce real numbers.

  The aggregated neighbour rows are a scatter-add, into an array of zeros, of rows gathered from the node features:
  every entry is zero plus a finite sum of entries of the node features, so it is real as soon as the node features
  are, whichever rows the integer argument names.  A graph's node count is the larger of one and a scatter-add of
  ones into zeros: a finite sum of ones is real, the larger of two reals is real, and a number that is at least one
  is not zero.
-/
import proofs.«428147_j72688026518088_3_alg».proof.Proof.Gen.ReferenceIdeal.Read
import proofs.«428147_j72688026518088_3_alg».proof.Proof.LibRealHost
import proofs.«428147_j72688026518088_3_alg».proof.Proof.SpecReal
import Idealize.ShloMosaic.Lib.ValueIdx

noncomputable section

namespace Cert.ReferenceIdeal.RFacts

open Cert.ReferenceIdeal Cert.ReferenceIdeal.Gen Cert.ReferenceIdeal.Read Idealize.ShloMosaic
  Idealize.ShloMosaic.StableHlo RealHost

/-! ## Arrays of zeros and of ones -/

/-- Every entry of the array of zeros is real. -/
theorem zeros_isReal {s : Shape} (i : s.Idx) :
    IsReal ((constant s .f32 0x00000000#32 : FVec Ideal s .f32) i) := by
  rw [constant_f32_zero]
  exact isReal_zero

/-- Every entry of the array of ones is real. -/
theorem ones_isReal {s : Shape} (i : s.Idx) :
    IsReal ((constant s .f32 0x3F800000#32 : FVec Ideal s .f32) i) := by
  rw [constant_f32_one]
  exact isReal_one

/-- The larger of any extended real and one is at least one, hence not zero. -/
theorem max_one_ne_zero (a : EReal) : max a 1 ≠ 0 :=
  (lt_of_lt_of_le zero_lt_one (le_max_right a 1)).ne'

/-! ## The aggregated neighbour rows -/

/-- Rows gathered from real node features, added into zeros wherever the indices send them, are real. -/
theorem agg_isReal (x0 : (⟨S100000x128, .f32⟩ : BufTy).Contents (Elt Ideal))
    (x1 : (⟨S2x1600000, .i32⟩ : BufTy).Contents (Elt Ideal)) (h0 : ∀ i, RealHost.IsReal (x0 i))
    (i : S100000x128.Idx) : RealHost.IsReal (val_main_v13 (F := Ideal) x0 x1 i) := by
  unfold val_main_v13
  refine scatterAdd_isReal _ _ _ _ (fun k => ?_) (fun k => ?_) i
  · unfold val_main_v11 val_main_cst
    exact broadcastInDim_isReal _ _ _ (fun a => zeros_isReal a) k
  · unfold val_main_v10
    exact gather_isReal _ _ _ h0 k

/-! ## The node counts -/

/-- The ones added into zeros, one per node at its graph's entry, give real numbers. -/
theorem count_sum_isReal (x3 : (⟨S100000, .i32⟩ : BufTy).Contents (Elt Ideal)) (k : S128.Idx) :
    IsReal (val_main_v83 (F := Ideal) x3 k) := by
  unfold val_main_v83
  refine scatterAdd_isReal _ _ _ _ (fun a => ?_) (fun a => ?_) k
  · unfold val_main_v81 val_main_cst_13
    exact broadcastInDim_isReal _ _ _ (fun c => zeros_isReal c) a
  · unfold val_main_v80 val_main_cst_12
    exact broadcastInDim_isReal _ _ _ (fun c => ones_isReal c) a

/-- The floor the counts are raised to is one everywhere. -/
theorem floor_one (i : S128x1.Idx) : val_main_v85 (F := Ideal) i = 1 := by
  rw [val_main_v85_apply, val_main_cst_14_apply]
  exact ofBits_f32_one

/-- A graph's node count, raised to at least one, is real. -/
theorem cnt_isReal (x3 : (⟨S100000, .i32⟩ : BufTy).Contents (Elt Ideal)) (i : S128x1.Idx) :
    RealHost.IsReal (val_main_v86 (F := Ideal) x3 i) := by
  rw [val_main_v86_apply, val_main_v84_apply, floor_one, Ideal.maximumf_def]
  exact (count_sum_isReal x3 _).max isReal_one

/-- A graph's node count, raised to at least one, is not zero. -/
theorem cnt_ne_zero (x3 : (⟨S100000, .i32⟩ : BufTy).Contents (Elt Ideal)) (i : S128x1.Idx) :
    val_main_v86 (F := Ideal) x3 i ≠ 0 := by
  rw [val_main_v86_apply, floor_one, Ideal.maximumf_def]
  exact max_one_ne_zero _

end Cert.ReferenceIdeal.RFacts

end
-- ==== Proof.SpecAlg.lean ====
/-
  The tiled form of the per-graph sums and gathers equals the plain form, for real inputs.

  With a table of zeros and ones built from a graph assignment, a product `oh n g * x` is `x` when node `n` belongs
  to graph `g` and zero otherwise, so a sum of such products over all nodes is the sum of `x` over the nodes of `g`, and a
  sum of such products over all graphs picks the one row of the node's own graph.  The tiled program adds the nodes in
  50 tiles of 2000, the tiles of each core in order from zero, and then the two cores: since addition of extended
  reals is associative and commutative this is the sum over all 100000 nodes.  The second member of every pair, a
  value minus itself, is zero as soon as the value is real, and contributes nothing.  Division by a nonzero real count
  is a product with a real, so every table along the way stays real, which is what lets the argument be repeated for
  the variance after the mean.
-/
import proofs.«428147_j72688026518088_3_alg».proof.Proof.Spec
import proofs.«428147_j72688026518088_3_alg».proof.Proof.LibRealHost
import Mathlib.Algebra.BigOperators.Fin
import Mathlib.Algebra.BigOperators.Group.Finset.Basic
import Mathlib.Data.Fintype.BigOperators
import Mathlib.Data.EReal.Operations

noncomputable section

open scoped BigOperators

namespace GIN

open Idealize.ShloMosaic RealHost

namespace SpecAlg

/-! ## Real numbers among the extended reals -/

/-- A real number minus itself is zero. -/
theorem sub_self_of_isReal {x : EReal} (hx : IsReal x) : x - x = 0 := by
  obtain ⟨r, rfl⟩ := hx
  rw [← EReal.coe_sub, sub_self, EReal.coe_zero]

/-- A difference of two real numbers is real. -/
theorem isReal_sub {a c : EReal} (ha : IsReal a) (hc : IsReal c) : IsReal (a - c) := by
  obtain ⟨u, rfl⟩ := ha
  obtain ⟨v, rfl⟩ := hc
  exact ⟨u - v, (EReal.coe_sub u v).symm⟩

/-- A real number divided by a nonzero real number is real: the quotient is a product with the reciprocal. -/
theorem isReal_div {x c : EReal} (hx : IsReal x) (hc : IsReal c ∧ c ≠ 0) : IsReal (Ideal.div x c) := by
  obtain ⟨⟨r, rfl⟩, hr⟩ := hc
  have hr' : r ≠ 0 := fun h => hr (by rw [h, EReal.coe_zero])
  rw [Ideal.div_coe hr']
  exact hx.mul (isReal_coe _)

/-! ## The running table is a sum over the points since the last restart -/

/-- After point `n` the running table holds the contributions of the points from the last multiple of 25 up to `n`. -/
theorem runAcc_eq (f : ℕ → EReal) (n : ℕ) :
    runAcc f n = ∑ k ∈ Finset.range (n % 25 + 1), f (n - n % 25 + k) := by
  induction n with
  | zero => simp [runAcc]
  | succ n ih =>
    rw [runAcc]
    by_cases h : (n + 1) % 25 = 0
    · rw [if_pos h, h]
      simp
    · rw [if_neg h, ih]
      have h1 : (n + 1) % 25 = n % 25 + 1 := by omega
      have h2 : n + 1 - (n % 25 + 1) = n - n % 25 := by omega
      have h3 : n - n % 25 + (n % 25 + 1) = n + 1 := by omega
      rw [h1, h2, Finset.sum_range_succ _ (n % 25 + 1), h3]

/-- The first core's table: the first 25 points. -/
theorem runAcc_24 (f : ℕ → EReal) : runAcc f 24 = ∑ k ∈ Finset.range 25, f k := by
  have h := runAcc_eq f 24
  simpa using h

/-- The second core's table: the 25 points from the 25th on. -/
theorem runAcc_49 (f : ℕ → EReal) : runAcc f 49 = ∑ k ∈ Finset.range 25, f (25 + k) := by
  have h := runAcc_eq f 49
  simpa using h

/-- The two cores' tables together are the sum over the 50 tiles. -/
theorem tiledSum_eq_sum_tiles (oh X : Nodes) (g j : Fin 128) :
    tiledSum oh X g j = ∑ t : Fin 50, tileContrib oh X t g j := by
  have h0 : coreAcc oh X 0 g j = ∑ k ∈ Finset.range 25, tileC oh X k g j := runAcc_24 _
  have h1 : coreAcc oh X 1 g j = ∑ k ∈ Finset.range 25, tileC oh X (25 + k) g j := runAcc_49 _
  have h50 : ∑ k ∈ Finset.range 50, tileC oh X k g j
      = ∑ k ∈ Finset.range 25, tileC oh X k g j + ∑ k ∈ Finset.range 25, tileC oh X (25 + k) g j :=
    Finset.sum_range_add (fun k => tileC oh X k g j) 25 25
  show coreAcc oh X 0 g j + coreAcc oh X 1 g j = _
  rw [h0, h1, ← h50, Finset.sum_range]
  refine Finset.sum_congr rfl (fun t _ => ?_)
  unfold tileC
  rw [dif_pos t.isLt]

/-! ## The second member of a pair contributes nothing -/

/-- A tile's sum of products with zero is zero. -/
theorem tileSum_zero (oh : Nodes) (t : Fin 50) (g j : Fin 128) : tileSum oh (fun _ _ => 0) t g j = 0 := by
  unfold tileSum
  simp

/-- For real entries a tile's contribution is the tile's plain sum of products. -/
theorem tileContrib_of_real (oh X : Nodes) (hX : ∀ n j, IsReal (X n j)) (t : Fin 50) (g j : Fin 128) :
    tileContrib oh X t g j = tileSum oh X t g j := by
  have hz : (fun n j => X n j - X n j) = fun _ _ => (0 : EReal) := by
    funext n j
    exact sub_self_of_isReal (hX n j)
  show tileSum oh X t g j + tileSum oh (fun n j => X n j - X n j) t g j = _
  rw [hz, tileSum_zero, add_zero]

/-! ## The 50 tiles of 2000 nodes are the 100000 nodes -/

/-- A tile and a place in it name a node, and every node is named once: its number divided by 2000, and the rest. -/
def tileEquiv : Fin 50 × Fin 2000 ≃ Fin 100000 where
  toFun p := nodeOf p.1 p.2
  invFun n := (⟨n.val / 2000, by have := n.isLt; omega⟩, ⟨n.val % 2000, by omega⟩)
  left_inv := by
    rintro ⟨t, r⟩
    have ht := t.isLt
    have hr := r.isLt
    refine Prod.ext (Fin.ext ?_) (Fin.ext ?_)
    · show (2000 * t.val + r.val) / 2000 = t.val
      omega
    · show (2000 * t.val + r.val) % 2000 = r.val
      omega
  right_inv := by
    intro n
    refine Fin.ext ?_
    show 2000 * (n.val / 2000) + n.val % 2000 = n.val
    omega

/-- A sum over the tiles of the sums over each tile's nodes is the sum over all nodes. -/
theorem sum_tiles (G : Fin 100000 → EReal) : ∑ t : Fin 50, ∑ r : Fin 2000, G (nodeOf t r) = ∑ n, G n :=
  (Fintype.sum_prod_type' (fun t r => G (nodeOf t r))).symm.trans (Equiv.sum_comp tileEquiv G)

/-! ## Products with the table of zeros and ones -/

/-- Summing the products with a graph's column over all nodes sums over the nodes of that graph. -/
theorem sum_onehot_mul (b : Fin 100000 → Fin 128) (X : Nodes) (g j : Fin 128) :
    ∑ n, onehot b n g * X n j = segSum b X g j := by
  show ∑ n, (if b n = g then (1 : EReal) else 0) * X n j = ∑ n ∈ Finset.univ.filter (fun n => b n = g), X n j
  rw [Finset.sum_filter]
  refine Finset.sum_congr rfl (fun n _ => ?_)
  by_cases h : b n = g
  · rw [if_pos h, if_pos h, one_mul]
  · rw [if_neg h, if_neg h, zero_mul]

end SpecAlg

open SpecAlg

/-- For real entries the tiled per-graph sums are the sums over the nodes of each graph. -/
theorem tiledSum_onehot (b : Fin 100000 → Fin 128) (X : Nodes) (hX : ∀ n j, RealHost.IsReal (X n j)) :
    tiledSum (onehot b) X = segSum b X := by
  funext g j
  calc tiledSum (onehot b) X g j
      = ∑ t : Fin 50, tileContrib (onehot b) X t g j := tiledSum_eq_sum_tiles _ _ g j
    _ = ∑ t : Fin 50, tileSum (onehot b) X t g j :=
        Finset.sum_congr rfl (fun t _ => tileContrib_of_real _ _ hX t g j)
    _ = ∑ t : Fin 50, ∑ r : Fin 2000, onehot b (nodeOf t r) g * X (nodeOf t r) j := rfl
    _ = ∑ n, onehot b n g * X n j := sum_tiles (fun n => onehot b n g * X n j)
    _ = segSum b X g j := sum_onehot_mul b X g j

/-- Reading a table back through the zeros and ones picks the row of the node's own graph. -/
theorem ohGather_onehot (b : Fin 100000 → Fin 128) (T : Tab) (n : Fin 100000) (j : Fin 128) :
    ohGather (onehot b) T n j = T (b n) j := by
  show ∑ g, (if b n = g then (1 : EReal) else 0) * T g j = T (b n) j
  rw [Finset.sum_eq_single (b n)]
  · rw [if_pos rfl, one_mul]
  · intro g _ hg
    rw [if_neg (Ne.symm hg), zero_mul]
  · intro h
    exact absurd (Finset.mem_univ _) h

namespace SpecAlg

/-- Reading a real table back as a pair picks the row of the node's own graph: the second member is zero. -/
theorem ohGather2_onehot (b : Fin 100000 → Fin 128) (T : Tab) (hT : ∀ g j, IsReal (T g j))
    (n : Fin 100000) (j : Fin 128) : ohGather2 (onehot b) T (lo T) n j = T (b n) j := by
  show ohGather (onehot b) T n j + ohGather (onehot b) (lo T) n j = _
  rw [ohGather_onehot, ohGather_onehot]
  show T (b n) j + (T (b n) j - T (b n) j) = _
  rw [sub_self_of_isReal (hT _ _), add_zero]

/-- The per-graph sums of real entries are real. -/
theorem segSum_isReal (b : Fin 100000 → Fin 128) (X : Nodes) (hX : ∀ n j, IsReal (X n j)) (g j : Fin 128) :
    IsReal (segSum b X g j) :=
  IsReal.sum _ _ (fun n _ => hX n j)

/-- The tiled scaled mean table is the plain mean table scaled. -/
theorem kMs_onehot (b : Fin 100000 → Fin 128) (H : Nodes) (cnt gms : Row) (hH : ∀ n j, IsReal (H n j)) :
    kMs (onehot b) H cnt gms = fun g j => rMean b H cnt g j * gms j := by
  funext g j
  show Ideal.div (tiledSum (onehot b) H g j) (cnt g) * gms j = Ideal.div (segSum b H g j) (cnt g) * gms j
  rw [tiledSum_onehot b H hH]

/-- The tiled variance table of real deviations is the plain one. -/
theorem kVar_onehot (b : Fin 100000 → Fin 128) (S : Nodes) (cnt : Row) (hS : ∀ n j, IsReal (S n j)) :
    kVar (onehot b) S cnt = rVar b S cnt := by
  funext g j
  show Ideal.div (tiledSum (onehot b) (sq S) g j) (cnt g) = Ideal.div (segSum b (sq S) g j) (cnt g)
  rw [tiledSum_onehot b (sq S) (fun n j => (hS n j).mul (hS n j))]

end SpecAlg

/-- The whole tiled computation equals the whole plain one for real rows, real nonzero counts and a real scale. -/
theorem kernelOut_eq_referenceOut (gnw gnb gms cnt : Row) (b : Fin 100000 → Fin 128) (H : Nodes)
    (hH : ∀ n j, RealHost.IsReal (H n j)) (hcnt : ∀ g, RealHost.IsReal (cnt g) ∧ cnt g ≠ 0)
    (hgms : ∀ j, RealHost.IsReal (gms j)) :
    kernelOut gnw gnb gms cnt (onehot b) H = referenceOut gnw gnb gms cnt b H := by
  have hmean : ∀ g j, IsReal (rMean b H cnt g j) :=
    fun g j => isReal_div (segSum_isReal b H hH g j) (hcnt g)
  have hms : ∀ g j, IsReal ((fun g j => rMean b H cnt g j * gms j) g j) :=
    fun g j => (hmean g j).mul (hgms j)
  have hsub : kSub (onehot b) H (kMs (onehot b) H cnt gms) = rSub b H (rMean b H cnt) gms := by
    rw [kMs_onehot b H cnt gms hH]
    funext n j
    show H n j - ohGather2 (onehot b) (fun g j => rMean b H cnt g j * gms j)
        (lo (fun g j => rMean b H cnt g j * gms j)) n j = H n j - gms j * rMean b H cnt (b n) j
    rw [ohGather2_onehot b _ hms n j, mul_comm]
  have hS : ∀ n j, IsReal (rSub b H (rMean b H cnt) gms n j) :=
    fun n j => isReal_sub (hH n j) ((hgms j).mul (hmean _ j))
  have hvar : ∀ g j, IsReal (rVar b (rSub b H (rMean b H cnt) gms) cnt g j) :=
    fun g j => isReal_div (segSum_isReal b _ (fun n j => (hS n j).mul (hS n j)) g j) (hcnt g)
  show kOut gnw gnb (onehot b) (kSub (onehot b) H (kMs (onehot b) H cnt gms))
      (kVar (onehot b) (kSub (onehot b) H (kMs (onehot b) H cnt gms)) cnt)
    = rOut gnw gnb b (rSub b H (rMean b H cnt) gms) (rVar b (rSub b H (rMean b H cnt) gms) cnt)
  rw [hsub, kVar_onehot b _ cnt hS]
  funext n j
  show max (gnw j * rSub b H (rMean b H cnt) gms n j
        * Ideal.rsqrt (ohGather2 (onehot b) (rVar b (rSub b H (rMean b H cnt) gms) cnt)
            (lo (rVar b (rSub b H (rMean b H cnt) gms) cnt)) n j + weps) + gnb j) 0
    = max (gnw j * rSub b H (rMean b H cnt) gms n j
        * Ideal.rsqrt (rVar b (rSub b H (rMean b H cnt) gms) cnt (b n) j + weps) + gnb j) 0
  rw [ohGather2_onehot b _ hvar n j]

end GIN

end
-- ==== Proof.Bridge.lean ====
/-
  The two programs compute one function of the same arguments.

  Both apply the same host operations to the edge index and the node array (the aggregation) and to the graph
  assignment (the node counts), and the same three layers to each node's row; the tiled program then takes the
  per-graph sums through the zero-one table of the graph assignment, tile by tile and core by core, and reads a
  graph's row back through that table, while the plain program sums over each graph's nodes and reads the row by its
  index.  With every argument real and every node's graph below 128 the two agree (`GIN.kernelOut_eq_referenceOut`):
  the rows the layers leave are real, the counts are real and at least one, and the table's row of node `n` has
  its one at the node's graph.
-/
import proofs.«428147_j72688026518088_3_alg».proof.Proof.KValue
import proofs.«428147_j72688026518088_3_alg».proof.Proof.RValue
import proofs.«428147_j72688026518088_3_alg».proof.Proof.RValue2
import proofs.«428147_j72688026518088_3_alg».proof.Proof.RFacts
import proofs.«428147_j72688026518088_3_alg».proof.Proof.SpecAlg
import proofs.«428147_j72688026518088_3_alg».proof.Proof.SpecReal

noncomputable section

namespace Cert.Bridge

open Idealize.ShloMosaic Idealize.ShloMosaic.ValueIdx Cert.KernelIdeal Cert.KernelIdeal.KArr RealHost

/-- The aggregation is one term in both programs. -/
theorem agg_eq (x0 : S100000x128.Idx → EReal) (x1 : IVec S2x1600000 32) :
    KHost0.aggOf x0 x1 = Cert.ReferenceIdeal.Read.val_main_v13 (F := Ideal) x0 x1 := rfl

/-- The node counts are one term in both programs. -/
theorem cnt_eq (x3 : IVec S100000 32) :
    (KHost0.cntOf x3 : S128x1.Idx → EReal) = Cert.ReferenceIdeal.Read.val_main_v86 (F := Ideal) x3 := rfl

/-- A node's word equals graph `g`'s word exactly when the node's graph is `g`. -/
theorem word_eq_iff (w : BitVec 32) (hw : w.toNat < 128) (g : Fin 128) :
    w = BitVec.ofNat 32 g.val ↔ (⟨w.toNat, hw⟩ : Fin 128) = g := by
  constructor
  · intro h
    apply Fin.ext
    show w.toNat = g.val
    rw [h, BitVec.toNat_ofNat]
    have := g.isLt
    omega
  · intro h
    have hv : w.toNat = g.val := congrArg Fin.val h
    apply BitVec.eq_of_toNat_eq
    rw [BitVec.toNat_ofNat, hv]
    have := g.isLt
    omega

/-- The tiled form of the arguments is the plain program's result, entry by entry. -/
theorem out_eq (x0 : S100000x128.Idx → EReal) (x1 : IVec S2x1600000 32) (x3 : IVec S100000 32) (x4 : S_.Idx → EReal)
    (x5 : S128x128.Idx → EReal) (x6 x7 x8 : S128.Idx → EReal) (x9 : S128x128.Idx → EReal) (x10 x11 x12 : S128.Idx → EReal)
    (x13 : S128x128.Idx → EReal) (x14 x15 x16 x17 : S128.Idx → EReal)
    (h0 : ∀ i, IsReal (x0 i)) (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) (h10 : ∀ i, IsReal (x10 i)) (h11 : ∀ i, IsReal (x11 i)) (h12 : ∀ i, IsReal (x12 i))
    (h13 : ∀ i, IsReal (x13 i)) (h14 : ∀ i, IsReal (x14 i)) (h17 : ∀ i, IsReal (x17 i)) (hb : ∀ i, (x3 i).toNat < 128)
    (n : Fin 100000) (j : Fin 128) :
    GIN.kernelOut (vec x15) (vec x16) (vec x17) (fun g => (KHost0.cntOf x3 : S128x1.Idx → EReal) (ix2 g 0))
        (fun n g => if x3 (ix1 n) = BitVec.ofNat 32 g.val then 1 else 0)
        (fun n => GIN.mlp (tab x5) (vec x6) (vec x7) (vec x8) (tab x9) (vec x10) (vec x11) (vec x12) (tab x13) (vec x14)
          (GIN.hin (GIN.w1 + x4 ix0) (nodes x0) (nodes (KHost0.aggOf x0 x1)) n)) n j
      = Cert.ReferenceIdeal.Read.val_main_v126 (F := Ideal) x0 x1 x3 x4 x5 x6 x7 x8 x9 x10 x11 x12 x13 x14 x15 x16 x17 (ix2 n j) := by
  rw [Cert.ReferenceIdeal.RValue2.out_apply x0 x1 x3 x4 x5 x6 x7 x8 x9 x10 x11 x12 x13 x14 x15 x16 x17 hb n j]
  have hH : (fun n => GIN.mlp (tab x5) (vec x6) (vec x7) (vec x8) (tab x9) (vec x10) (vec x11) (vec x12) (tab x13) (vec x14)
        (GIN.hin (GIN.w1 + x4 ix0) (nodes x0) (nodes (KHost0.aggOf x0 x1)) n))
      = nodes (Cert.ReferenceIdeal.Read.val_main_v79 (F := Ideal) x0 x1 x4 x5 x6 x7 x8 x9 x10 x11 x12 x13 x14) := by
    funext n j
    show _ = Cert.ReferenceIdeal.Read.val_main_v79 (F := Ideal) x0 x1 x4 x5 x6 x7 x8 x9 x10 x11 x12 x13 x14 (ix2 n j)
    rw [Cert.ReferenceIdeal.RValue.h3_apply, agg_eq]
  have hoh : (fun (n : Fin 100000) (g : Fin 128) => if x3 (ix1 n) = BitVec.ofNat 32 g.val then (1 : EReal) else 0)
      = GIN.onehot (Cert.ReferenceIdeal.RValue2.bOf x3 hb) := by
    funext n g
    unfold GIN.onehot Cert.ReferenceIdeal.RValue2.bOf
    by_cases h : x3 (ix1 n) = BitVec.ofNat 32 g.val
    · rw [if_pos h, if_pos ((word_eq_iff _ (hb _) g).mp h)]
    · rw [if_neg h, if_neg (fun h' => h ((word_eq_iff _ (hb _) g).mpr h'))]
  have hreal : ∀ n j, IsReal (nodes (Cert.ReferenceIdeal.Read.val_main_v79 (F := Ideal) x0 x1 x4 x5 x6 x7 x8 x9 x10 x11 x12 x13 x14) n j) := by
    intro n j
    rw [← hH]
    refine GIN.mlp_isReal _ _ _ _ _ _ _ _ _ _ _ (fun k j => h5 _) (fun j => h6 _) (fun j => h7 _) (fun j => h8 _) (fun k j => h9 _)
      (fun j => h10 _) (fun j => h11 _) (fun j => h12 _) (fun k j => h13 _) (fun j => h14 _) (fun k => ?_) j
    refine GIN.hin_isReal _ _ _ ?_ (fun n k => h0 _) (fun n k => ?_) n k
    · rw [GIN.w1_eq]
      exact isReal_one.add (h4 _)
    · rw [agg_eq]
      exact Cert.ReferenceIdeal.RFacts.agg_isReal x0 x1 h0 _
  rw [hH, hoh, cnt_eq]
  exact congrFun (congrFun (GIN.kernelOut_eq_referenceOut _ _ _ _ _ _ hreal
    (fun g => ⟨Cert.ReferenceIdeal.RFacts.cnt_isReal x3 _, Cert.ReferenceIdeal.RFacts.cnt_ne_zero x3 _⟩) (fun j => h17 _)) n) j

end Cert.Bridge

end
-- ==== Proof.PreDecode.lean ====
/-
  The precondition of the claim, decoded.

  The precondition is a conjunction of eighteen statements about the inputs: for each float input, "every entry has
  absolute value strictly below +∞", and for the 32-bit integer input of graph numbers, "every entry is at least 0" and
  "every entry is below 128", both as signed integers.  Over the extended reals, |x| < +∞ excludes exactly the two
  infinities, so it says that x is a real number; and a 32-bit word in [0, 128) as a signed integer is below 128 as a
  natural number.  Each statement is a reduction by `and` over every axis of an elementwise comparison, so it holds at
  every index.
-/
import proofs.«428147_j72688026518088_3_alg».proof.Pre_finite_inputs
import proofs.«428147_j72688026518088_3_alg».proof.Proof.Gen.Pre_finite_inputs
import proofs.«428147_j72688026518088_3_alg».proof.Proof.LibRealHost
import Idealize.ShloMosaic.Lib.ReduceAll
import Idealize.ShloMosaic.Lib.ValueIdx
import Idealize.ShloMosaic.Lib.IdealHost

noncomputable section

namespace Cert.PreDecode

open Cert.Pre_finite_inputs Idealize.ShloMosaic

instance : Subsingleton S_.Idx := ⟨fun a b => funext fun d => d.elim0⟩

/-- The f32 word 0x7F800000 denotes +∞. -/
theorem ofBits_f32_inf : (FloatOps.ofBits (F := Ideal) .f32 0x7F800000#32 : Ideal .f32) = (⊤ : EReal) := by
  show Ideal.ofBits .f32 0x7F800000#32 = ⊤
  simp [Ideal.ofBits, Ideal.ieee]

/-- An extended real whose absolute value is strictly below +∞ is a real number: of the two infinities,
    each has absolute value +∞. -/
theorem isReal_of_abs_lt_top (x : EReal)
    (h : FloatOps.cmpf (F := Ideal) (φ := .f32) .olt (FloatOps.hostAbsf x) (FloatOps.ofBits .f32 0x7F800000#32) = 1#1) :
    RealHost.IsReal x := by
  rw [ofBits_f32_inf] at h
  change Ideal.cmp .olt (max x (-x)) ⊤ = 1#1 at h
  induction x using EReal.rec with
  | bot => simp [Ideal.cmp] at h
  | coe r => exact ⟨r, rfl⟩
  | top => simp [Ideal.cmp] at h

/-- A conjunction of two i1 words at an index is the conjunction of the words. -/
theorem andi_apply {s : Shape} {w : Nat} (x y : IVec s w) (i : s.Idx) : andi x y i = IntOp.andi (x i) (y i) := rfl

/-- `all (|x| < +∞)` over an array: a reduction by `and` over every axis of the elementwise comparison of |x| against the
    broadcast word of +∞.  If it is 1, every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel) (c : IVec S_ 1)
    (h : Host.reduce IntOp.andi (cmpf .olt (Host.absf x) (broadcastInDim s ![] hb (constant S_ .f32 0x7F800000#32))) c hr hu
      ValueIdx.ix0 = 1#1) :
    ∀ i, RealHost.IsReal (x i) := by
  intro i
  have e := Host.reduce_andi_all _ _ hr hu _ h i
  rw [ValueIdx.cmpf_apply, ValueIdx.broadcastInDim_scalar_apply] at e
  exact isReal_of_abs_lt_top _ e

/-- The same for a scalar, whose comparison is against the word of +∞ itself. -/
theorem all_real_scalar {axes : List (Fin S_.rank)} (x : FVec Ideal S_ .f32) (hr : S_.ReducesTo axes S_) (hu : 0 < S_.numel)
    (c : IVec S_ 1)
    (h : Host.reduce IntOp.andi (cmpf .olt (Host.absf x) (constant S_ .f32 0x7F800000#32)) c hr hu ValueIdx.ix0 = 1#1) :
    ∀ i, RealHost.IsReal (x i) := by
  intro i
  have e := Host.reduce_andi_all _ _ hr hu _ h i
  rw [ValueIdx.cmpf_apply] at e
  exact isReal_of_abs_lt_top _ e

/-- A 32-bit word that is at least 0 and below 128 as a signed integer is below 128 as a natural number. -/
theorem toNat_lt_of_signed (w : BitVec 32) (h0 : (0#32 : BitVec 32).toInt ≤ w.toInt) (h1 : w.toInt < (128#32 : BitVec 32).toInt) :
    w.toNat < 128 := by
  have e0 : (0#32 : BitVec 32).toInt = 0 := by decide
  have e1 : (128#32 : BitVec 32).toInt = 128 := by decide
  rw [e0] at h0
  rw [e1] at h1
  have hw := w.isLt
  rw [BitVec.toInt_eq_toNat_cond] at h0 h1
  split at h0 <;> omega

/-- `all (x ≥ 0)` and `all (x < 128)`, signed, over an array of 32-bit words: every word is below 128 unsigned. -/
theorem all_range {s : Shape} {axes : List (Fin s.rank)} (x : IVec s 32)
    (hb : S_.BroadcastsInDim s (![] : Fin 0 → Fin s.rank)) (hr : s.ReducesTo axes S_) (hu : 0 < S_.numel) (c c' : IVec S_ 1)
    (h0 : Host.reduce IntOp.andi (cmpi .sge x (broadcastInDim s ![] hb (constantI S_ 32 0#32))) c hr hu ValueIdx.ix0 = 1#1)
    (h1 : Host.reduce IntOp.andi (cmpi .slt x (broadcastInDim s ![] hb (constantI S_ 32 128#32))) c' hr hu ValueIdx.ix0 = 1#1) :
    ∀ i, (x i).toNat < 128 := by
  intro i
  have e0 := Host.reduce_andi_all _ _ hr hu _ h0 i
  have e1 := Host.reduce_andi_all _ _ hr hu _ h1 i
  change IntOp.cmpi .sge (x i) (broadcastInDim s ![] hb (constantI S_ 32 0#32) i) = 1#1 at e0
  change IntOp.cmpi .slt (x i) (broadcastInDim s ![] hb (constantI S_ 32 128#32) i) = 1#1 at e1
  rw [ValueIdx.broadcastInDim_scalar_apply] at e0 e1
  exact toNat_lt_of_signed _ (IntOp.cmpi_sge.1 e0) (IntOp.cmpi_slt.1 e1)

theorem of_fn (a0 : FVec Ideal S100000x128 .f32) (a1 : IVec S2x1600000 32) (a2 : FVec Ideal S1600000x1 .f32) (a3 : IVec S100000 32) (a4 : FVec Ideal S_ .f32)
    (a5 : FVec Ideal S128x128 .f32) (a6 a7 a8 : FVec Ideal S128 .f32) (a9 : FVec Ideal S128x128 .f32) (a10 a11 a12 : FVec Ideal S128 .f32)
    (a13 : FVec Ideal S128x128 .f32) (a14 a15 a16 a17 : FVec Ideal S128 .f32)
    (h : fn (F := Ideal) a0 a1 a2 a3 a4 a5 a6 a7 a8 a9 a10 a11 a12 a13 a14 a15 a16 a17 = fun _ => 1#1) :
    (∀ i, RealHost.IsReal (a0 i)) ∧ (∀ i, RealHost.IsReal (a4 i)) ∧ (∀ i, RealHost.IsReal (a5 i)) ∧ (∀ i, RealHost.IsReal (a6 i)) ∧ (∀ i, RealHost.IsReal (a7 i)) ∧ (∀ i, RealHost.IsReal (a8 i))
      ∧ (∀ i, RealHost.IsReal (a9 i)) ∧ (∀ i, RealHost.IsReal (a10 i)) ∧ (∀ i, RealHost.IsReal (a11 i)) ∧ (∀ i, RealHost.IsReal (a12 i)) ∧ (∀ i, RealHost.IsReal (a13 i)) ∧ (∀ i, RealHost.IsReal (a14 i))
      ∧ (∀ i, RealHost.IsReal (a15 i)) ∧ (∀ i, RealHost.IsReal (a16 i)) ∧ (∀ i, RealHost.IsReal (a17 i)) ∧ (∀ i, (a3 i).toNat < 128) := by
  have e := congrFun h ValueIdx.ix0
  dsimp only [fn, fn_part1, fn_part2, fn_part3, fn_part4, fn_part5] at e
  simp only [andi_apply, IntOp.andi_eq_one] at e
  obtain ⟨⟨⟨⟨⟨⟨⟨⟨⟨⟨⟨⟨⟨⟨⟨⟨⟨h0, h2⟩, h4⟩, h5⟩, h6⟩, h7⟩, h8⟩, h9⟩, h10⟩, h11⟩, h12⟩, h13⟩, h14⟩, h15⟩, h16⟩, h17⟩, hge⟩, hlt⟩ := e
  exact ⟨all_real a0 _ _ _ _ h0, all_real_scalar a4 _ _ _ h4, all_real a5 _ _ _ _ h5, all_real a6 _ _ _ _ h6, all_real a7 _ _ _ _ h7,
    all_real a8 _ _ _ _ h8, all_real a9 _ _ _ _ h9, all_real a10 _ _ _ _ h10, all_real a11 _ _ _ _ h11, all_real a12 _ _ _ _ h12,
    all_real a13 _ _ _ _ h13, all_real a14 _ _ _ _ h14, all_real a15 _ _ _ _ h15, all_real a16 _ _ _ _ h16, all_real a17 _ _ _ _ h17,
    all_range a3 _ _ _ _ _ hge hlt⟩

end Cert.PreDecode
-- ==== Proof.lean ====
/-
  A graph-isomorphism layer with graph normalisation: the tiled program against the plain one, over the extended reals.

  Each node's row is `(1 + eps) · node + agg`, `agg` the sum of the rows of the node's in-neighbours; it goes through
  three linear layers, the first two followed by a layer normalisation and a rectifier; the result is normalised per
  graph (mean and variance over the graph's nodes, a scale, a shift, a rectifier).  The plain program sums over each
  graph's nodes and reads a graph's row by its index.  The tiled program walks 50 tiles of 2000 nodes three times: it
  computes the rows and, per core, the table `∑ oh n g · x n j` over its 25 tiles, `oh` the zero-one table of the
  graph assignment; then the same table of the squared deviations; then the result, reading a graph's row back as
  `∑ g, oh n g · T g j`.  Every value enters those products as the pair (value, value minus itself), what a two-term
  split leaves once rounding is the identity; the second term vanishes exactly when the value is real, which is
  where the precondition (all float arguments finite) is used.  The graph assignment is taken in range, 0 ≤ b < 128:
  outside it the plain program's row lookup indexes out of range.

  The frames are the generated ones; the tiled program's run with its result named is the launch over the same
  segments with the result kept in the post; the reference's run is the generated one.
-/
import proofs.«428147_j72688026518088_3_alg».proof.Defs
import proofs.«428147_j72688026518088_3_alg».proof.Proof.Gen.Kernel
import proofs.«428147_j72688026518088_3_alg».proof.Proof.Gen.Kernel.Skeleton
import proofs.«428147_j72688026518088_3_alg».proof.Proof.Gen.Kernel.Launch
import proofs.«428147_j72688026518088_3_alg».proof.Proof.Gen.Kernel.Points
import proofs.«428147_j72688026518088_3_alg».proof.Proof.Gen.Kernel.Frame
import proofs.«428147_j72688026518088_3_alg».proof.Proof.Gen.KernelIdeal
import proofs.«428147_j72688026518088_3_alg».proof.Proof.Gen.KernelIdeal.Skeleton
import proofs.«428147_j72688026518088_3_alg».proof.Proof.Gen.KernelIdeal.Launch
import proofs.«428147_j72688026518088_3_alg».proof.Proof.Gen.KernelIdeal.Points
import proofs.«428147_j72688026518088_3_alg».proof.Proof.Gen.KernelIdeal.Frame
import proofs.«428147_j72688026518088_3_alg».proof.Proof.Gen.ReferenceIdeal
import proofs.«428147_j72688026518088_3_alg».proof.Proof.Gen.ReferenceIdeal.Run
import proofs.«428147_j72688026518088_3_alg».proof.Proof.Gen.ReferenceIdeal.Read
import proofs.«428147_j72688026518088_3_alg».proof.Proof.Gen.Pre_finite_inputs
import proofs.«428147_j72688026518088_3_alg».proof.Proof.KRun
import proofs.«428147_j72688026518088_3_alg».proof.Proof.KValue
import proofs.«428147_j72688026518088_3_alg».proof.Proof.Bridge
import proofs.«428147_j72688026518088_3_alg».proof.Proof.PreDecode
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two round trips through the narrow format that the idealization removed are the identity at the ideal instance. -/
theorem preserves : Cert.preserves_Kernel_KernelIdeal :=
  ⟨IdealRules.truncf_extf.statement _ .f32 .bf16, IdealRules.truncf_extf.statement _ .f32 .bf16⟩

/-- From memories agreeing on the arguments, all of them real and the graph assignment in range, both programs end
    with the same result array: the tiled form of the specification on one side, the plain form on the other. -/
theorem algebraic : Cert.algebraic_KernelIdeal_ReferenceIdeal := by
  intro m ρ m' ρ' hpre hagree
  refine ⟨fun c => Cert.KernelIdeal.Gen.W6 m ρ c (Proc.devRef .tc Cert.KernelIdeal.main_v65),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v126_eq m' c]
  obtain ⟨e0, e1, -, e3, e4, e5, e6, e7, e8, e9, e10, e11, e12, e13, e14, e15, e16, e17⟩ := hagree c
  rw [e0, e1, e3, e4, e5, e6, e7, e8, e9, e10, e11, e12, e13, e14, e15, e16, e17]
  obtain ⟨r0, r4, r5, r6, r7, r8, r9, r10, r11, r12, r13, r14, -, -, r17, hb⟩ := Cert.PreDecode.of_fn _ _ _ _ _ _ _ _ _ _ _ _ _ _ _ _ _ _ (hpre c)
  funext i
  obtain ⟨n, j, rfl⟩ : ∃ (n : Fin 100000) (j : Fin 128), i = ix2 n j := ⟨i 0, i 1, eq_ix2 i⟩
  rw [← Cert.Bridge.out_eq _ _ _ _ _ _ _ _ _ _ _ _ _ _ _ _ _ r0 r4 r5 r6 r7 r8 r9 r10 r11 r12 r13 r14 r17 hb n j]
  exact (congrFun (congrFun (Cert.KernelIdeal.KValue.result m ρ c) n) j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
